-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S2x300000 : Shape := ⟨2, ![2, 300000]⟩
abbrev S_ : Shape := ⟨0, ![]⟩
abbrev S64x64 : Shape := ⟨2, ![64, 64]⟩
abbrev S64 : Shape := ⟨1, ![64]⟩
abbrev S128x64 : Shape := ⟨2, ![128, 64]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  reducesTo_S_S_d : S_.ReducesTo [] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part6 {F : FTy → Type} [FloatOps F] (main_arg23 : FVec F S64 .f32) (main_arg24 : FVec F S64 .f32) (main_arg25 : FVec F S64 .f32) (main_v101 : IVec S_ 1) : IVec S_ 1 :=
  let main_v102 : FVec F S64 .f32 := Host.absf main_arg23
  let main_cst_40 : FVec F S_ .f32 := constant S_ .f32 0x7F800000#32
  let main_v103 : FVec F S64 .f32 := broadcastInDim S64 ![] bcast_S_S64 main_cst_40
  let main_v104 : IVec S64 1 := cmpf .olt main_v102 main_v103
  let main_c_41 : IVec S_ 1 := constantI S_ 1 1#1
  let main_v105 : IVec S_ 1 := (fun x v => Host.reduce IntOp.andi x v reducesTo_S64_S_d0 h_S_) main_v104 main_c_41
  let main_v106 : IVec S_ 1 := andi main_v101 main_v105
  let main_v107 : FVec F S64 .f32 := Host.absf main_arg24
  let main_cst_42 : FVec F S_ .f32 := constant S_ .f32 0x7F800000#32
  let main_v108 : FVec F S64 .f32 := broadcastInDim S64 ![] bcast_S_S64 main_cst_42
  let main_v109 : IVec S64 1 := cmpf .olt main_v107 main_v108
  let main_c_43 : IVec S_ 1 := constantI S_ 1 1#1
  let main_v110 : IVec S_ 1 := (fun x v => Host.reduce IntOp.andi x v reducesTo_S64_S_d0 h_S_) main_v109 main_c_43
  let main_v111 : IVec S_ 1 := andi main_v106 main_v110
  let main_v112 : FVec F S64 .f32 := Host.absf main_arg25
  let main_cst_44 : FVec F S_ .f32 := constant S_ .f32 0x7F800000#32
  let main_v113 : FVec F S64 .f32 := broadcastInDim S64 ![] bcast_S_S64 main_cst_44
  let main_v114 : IVec S64 1 := cmpf .olt main_v112 main_v113
  let main_c_45 : IVec S_ 1 := constantI S_ 1 1#1
  let main_v115 : IVec S_ 1 := (fun x v => Host.reduce IntOp.andi x v reducesTo_S64_S_d0 h_S_) main_v114 main_c_45
  let main_v116 : IVec S_ 1 := andi main_v111 main_v115
  main_v116

def fn_part5 {F : FTy → Type} [FloatOps F] (main_arg20 : FVec F S64 .f32) (main_arg21 : FVec F S64 .f32) (main_arg22 : FVec F S128x64 .f32) (main_arg23 : FVec F S64 .f32) (main_arg24 : FVec F S64 .f32) (main_arg25 : FVec F S64 .f32) (main_v81 : IVec S_ 1) (main_v84 : IVec S64 1) : IVec S_ 1 :=
  let main_c_33 : IVec S_ 1 := constantI S_ 1 1#1
  let main_v85 : IVec S_ 1 := (fun x v => Host.reduce IntOp.andi x v reducesTo_S64_S_d0 h_S_) main_v84 main_c_33
  let main_v86 : IVec S_ 1 := andi main_v81 main_v85
  let main_v87 : FVec F S64 .f32 := Host.absf main_arg20
  let main_cst_34 : FVec F S_ .f32 := constant S_ .f32 0x7F800000#32
  let main_v88 : FVec F S64 .f32 := broadcastInDim S64 ![] bcast_S_S64 main_cst_34
  let main_v89 : IVec S64 1 := cmpf .olt main_v87 main_v88
  let main_c_35 : IVec S_ 1 := constantI S_ 1 1#1
  let main_v90 : IVec S_ 1 := (fun x v => Host.reduce IntOp.andi x v reducesTo_S64_S_d0 h_S_) main_v89 main_c_35
  let main_v91 : IVec S_ 1 := andi main_v86 main_v90
  let main_v92 : FVec F S64 .f32 := Host.absf main_arg21
  let main_cst_36 : FVec F S_ .f32 := constant S_ .f32 0x7F800000#32
  let main_v93 : FVec F S64 .f32 := broadcastInDim S64 ![] bcast_S_S64 main_cst_36
  let main_v94 : IVec S64 1 := cmpf .olt main_v92 main_v93
  let main_c_37 : IVec S_ 1 := constantI S_ 1 1#1
  let main_v95 : IVec S_ 1 := (fun x v => Host.reduce IntOp.andi x v reducesTo_S64_S_d0 h_S_) main_v94 main_c_37
  let main_v96 : IVec S_ 1 := andi main_v91 main_v95
  let main_v97 : FVec F S128x64 .f32 := Host.absf main_arg22
  let main_cst_38 : FVec F S_ .f32 := constant S_ .f32 0x7F800000#32
  let main_v98 : FVec F S128x64 .f32 := broadcastInDim S128x64 ![] bcast_S_S128x64 main_cst_38
  let main_v99 : IVec S128x64 1 := cmpf .olt main_v97 main_v98
  let main_c_39 : IVec S_ 1 := constantI S_ 1 1#1
  let main_v100 : IVec S_ 1 := (fun x v => Host.reduce IntOp.andi x v reducesTo_S128x64_S_d0_1 h_S_) main_v99 main_c_39
  let main_v101 : IVec S_ 1 := andi main_v96 main_v100
  fn_part6 (F := F) main_arg23 main_arg24 main_arg25 main_v101

def fn_part4 {F : FTy → Type} [FloatOps F] (main_arg17 : FVec F S64 .f32) (main_arg18 : FVec F S64x64 .f32) (main_arg19 : FVec F S64 .f32) (main_arg20 : FVec F S64 .f32) (main_arg21 : FVec F S64 .f32) (main_arg22 : FVec F S128x64 .f32) (main_arg23 : FVec F S64 .f32) (main_arg24 : FVec F S64 .f32) (main_arg25 : FVec F S64 .f32) (main_v66 : IVec S_ 1) (main_v67 : FVec F S64 .f32) : IVec S_ 1 :=
  let main_cst_26 : FVec F S_ .f32 := constant S_ .f32 0x7F800000#32
  let main_v68 : FVec F S64 .f32 := broadcastInDim S64 ![] bcast_S_S64 main_cst_26
  let main_v69 : IVec S64 1 := cmpf .olt main_v67 main_v68
  let main_c_27 : IVec S_ 1 := constantI S_ 1 1#1
  let main_v70 : IVec S_ 1 := (fun x v => Host.reduce IntOp.andi x v reducesTo_S64_S_d0 h_S_) main_v69 main_c_27
  let main_v71 : IVec S_ 1 := andi main_v66 main_v70
  let main_v72 : FVec F S64 .f32 := Host.absf main_arg17
  let main_cst_28 : FVec F S_ .f32 := constant S_ .f32 0x7F800000#32
  let main_v73 : FVec F S64 .f32 := broadcastInDim S64 ![] bcast_S_S64 main_cst_28
  let main_v74 : IVec S64 1 := cmpf .olt main_v72 main_v73
  let main_c_29 : IVec S_ 1 := constantI S_ 1 1#1
  let main_v75 : IVec S_ 1 := (fun x v => Host.reduce IntOp.andi x v reducesTo_S64_S_d0 h_S_) main_v74 main_c_29
  let main_v76 : IVec S_ 1 := andi main_v71 main_v75
  let main_v77 : FVec F S64x64 .f32 := Host.absf main_arg18
  let main_cst_30 : FVec F S_ .f32 := constant S_ .f32 0x7F800000#32
  let main_v78 : FVec F S64x64 .f32 := broadcastInDim S64x64 ![] bcast_S_S64x64 main_cst_30
  let main_v79 : IVec S64x64 1 := cmpf .olt main_v77 main_v78
  let main_c_31 : IVec S_ 1 := constantI S_ 1 1#1
  let main_v80 : IVec S_ 1 := (fun x v => Host.reduce IntOp.andi x v reducesTo_S64x64_S_d0_1 h_S_) main_v79 main_c_31
  let main_v81 : IVec S_ 1 := andi main_v76 main_v80
  let main_v82 : FVec F S64 .f32 := Host.absf main_arg19
  let main_cst_32 : FVec F S_ .f32 := constant S_ .f32 0x7F800000#32
  let main_v83 : FVec F S64 .f32 := broadcastInDim S64 ![] bcast_S_S64 main_cst_32
  let main_v84 : IVec S64 1 := cmpf .olt main_v82 main_v83
  fn_part5 (F := F) main_arg20 main_arg21 main_arg22 main_arg23 main_arg24 main_arg25 main_v81 main_v84

def fn_part3 {F : FTy → Type} [FloatOps F] (main_arg13 : FVec F S64 .f32) (main_arg14 : FVec F S64x64 .f32) (main_arg15 : FVec F S64 .f32) (main_arg16 : FVec F S64 .f32) (main_arg17 : FVec F S64 .f32) (main_arg18 : FVec F S64x64 .f32) (main_arg19 : FVec F S64 .f32) (main_arg20 : FVec F S64 .f32) (main_arg21 : FVec F S64 .f32) (main_arg22 : FVec F S128x64 .f32) (main_arg23 : FVec F S64 .f32) (main_arg24 : FVec F S64 .f32) (main_arg25 : FVec F S64 .f32) (main_v46 : IVec S_ 1) (main_v49 : IVec S64 1) (main_c_19 : IVec S_ 1) : IVec S_ 1 :=
  let main_v50 : IVec S_ 1 := (fun x v => Host.reduce IntOp.andi x v reducesTo_S64_S_d0 h_S_) main_v49 main_c_19
  let main_v51 : IVec S_ 1 := andi main_v46 main_v50
  let main_v52 : FVec F S64 .f32 := Host.absf main_arg13
  let main_cst_20 : FVec F S_ .f32 := constant S_ .f32 0x7F800000#32
  let main_v53 : FVec F S64 .f32 := broadcastInDim S64 ![] bcast_S_S64 main_cst_20
  let main_v54 : IVec S64 1 := cmpf .olt main_v52 main_v53
  let main_c_21 : IVec S_ 1 := constantI S_ 1 1#1
  let main_v55 : IVec S_ 1 := (fun x v => Host.reduce IntOp.andi x v reducesTo_S64_S_d0 h_S_) main_v54 main_c_21
  let main_v56 : IVec S_ 1 := andi main_v51 main_v55
  let main_v57 : FVec F S64x64 .f32 := Host.absf main_arg14
  let main_cst_22 : FVec F S_ .f32 := constant S_ .f32 0x7F800000#32
  let main_v58 : FVec F S64x64 .f32 := broadcastInDim S64x64 ![] bcast_S_S64x64 main_cst_22
  let main_v59 : IVec S64x64 1 := cmpf .olt main_v57 main_v58
  let main_c_23 : IVec S_ 1 := constantI S_ 1 1#1
  let main_v60 : IVec S_ 1 := (fun x v => Host.reduce IntOp.andi x v reducesTo_S64x64_S_d0_1 h_S_) main_v59 main_c_23
  let main_v61 : IVec S_ 1 := andi main_v56 main_v60
  let main_v62 : FVec F S64 .f32 := Host.absf main_arg15
  let main_cst_24 : FVec F S_ .f32 := constant S_ .f32 0x7F800000#32
  let main_v63 : FVec F S64 .f32 := broadcastInDim S64 ![] bcast_S_S64 main_cst_24
  let main_v64 : IVec S64 1 := cmpf .olt main_v62 main_v63
  let main_c_25 : IVec S_ 1 := constantI S_ 1 1#1
  let main_v65 : IVec S_ 1 := (fun x v => Host.reduce IntOp.andi x v reducesTo_S64_S_d0 h_S_) main_v64 main_c_25
  let main_v66 : IVec S_ 1 := andi main_v61 main_v65
  let main_v67 : FVec F S64 .f32 := Host.absf main_arg16
  fn_part4 (F := F) main_arg17 main_arg18 main_arg19 main_arg20 main_arg21 main_arg22 main_arg23 main_arg24 main_arg25 main_v66 main_v67

def fn_part2 {F : FTy → Type} [FloatOps F] (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64 .f32) (main_arg17 : FVec F S64 .f32) (main_arg18 : FVec F S64x64 .f32) (main_arg19 : FVec F S64 .f32) (main_arg20 : FVec F S64 .f32) (main_arg21 : FVec F S64 .f32) (main_arg22 : FVec F S128x64 .f32) (main_arg23 : FVec F S64 .f32) (main_arg24 : FVec F S64 .f32) (main_arg25 : FVec F S64 .f32) (main_v31 : IVec S_ 1) (main_v32 : FVec F S64 .f32) (main_cst_12 : FVec F S_ .f32) : IVec S_ 1 :=
  let main_v33 : FVec F S64 .f32 := broadcastInDim S64 ![] bcast_S_S64 main_cst_12
  let main_v34 : IVec S64 1 := cmpf .olt main_v32 main_v33
  let main_c_13 : IVec S_ 1 := constantI S_ 1 1#1
  let main_v35 : IVec S_ 1 := (fun x v => Host.reduce IntOp.andi x v reducesTo_S64_S_d0 h_S_) main_v34 main_c_13
  let main_v36 : IVec S_ 1 := andi main_v31 main_v35
  let main_v37 : FVec F S64x64 .f32 := Host.absf main_arg10
  let main_cst_14 : FVec F S_ .f32 := constant S_ .f32 0x7F800000#32
  let main_v38 : FVec F S64x64 .f32 := broadcastInDim S64x64 ![] bcast_S_S64x64 main_cst_14
  let main_v39 : IVec S64x64 1 := cmpf .olt main_v37 main_v38
  let main_c_15 : IVec S_ 1 := constantI S_ 1 1#1
  let main_v40 : IVec S_ 1 := (fun x v => Host.reduce IntOp.andi x v reducesTo_S64x64_S_d0_1 h_S_) main_v39 main_c_15
  let main_v41 : IVec S_ 1 := andi main_v36 main_v40
  let main_v42 : FVec F S64 .f32 := Host.absf main_arg11
  let main_cst_16 : FVec F S_ .f32 := constant S_ .f32 0x7F800000#32
  let main_v43 : FVec F S64 .f32 := broadcastInDim S64 ![] bcast_S_S64 main_cst_16
  let main_v44 : IVec S64 1 := cmpf .olt main_v42 main_v43
  let main_c_17 : IVec S_ 1 := constantI S_ 1 1#1
  let main_v45 : IVec S_ 1 := (fun x v => Host.reduce IntOp.andi x v reducesTo_S64_S_d0 h_S_) main_v44 main_c_17
  let main_v46 : IVec S_ 1 := andi main_v41 main_v45
  let main_v47 : FVec F S64 .f32 := Host.absf main_arg12
  let main_cst_18 : FVec F S_ .f32 := constant S_ .f32 0x7F800000#32
  let main_v48 : FVec F S64 .f32 := broadcastInDim S64 ![] bcast_S_S64 main_cst_18
  let main_v49 : IVec S64 1 := cmpf .olt main_v47 main_v48
  let main_c_19 : IVec S_ 1 := constantI S_ 1 1#1
  fn_part3 (F := F) main_arg13 main_arg14 main_arg15 main_arg16 main_arg17 main_arg18 main_arg19 main_arg20 main_arg21 main_arg22 main_arg23 main_arg24 main_arg25 main_v46 main_v49 main_c_19

def fn_part1 {F : FTy → Type} [FloatOps F] (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64 .f32) (main_arg17 : FVec F S64 .f32) (main_arg18 : FVec F S64x64 .f32) (main_arg19 : FVec F S64 .f32) (main_arg20 : FVec F S64 .f32) (main_arg21 : FVec F S64 .f32) (main_arg22 : FVec F S128x64 .f32) (main_arg23 : FVec F S64 .f32) (main_arg24 : FVec F S64 .f32) (main_arg25 : FVec F S64 .f32) (main_v12 : IVec S_ 1) (main_v15 : IVec S_ 1) : IVec S_ 1 :=
  let main_v16 : IVec S_ 1 := andi main_v12 main_v15
  let main_v17 : FVec F S64x64 .f32 := Host.absf main_arg6
  let main_cst_6 : FVec F S_ .f32 := constant S_ .f32 0x7F800000#32
  let main_v18 : FVec F S64x64 .f32 := broadcastInDim S64x64 ![] bcast_S_S64x64 main_cst_6
  let main_v19 : IVec S64x64 1 := cmpf .olt main_v17 main_v18
  let main_c_7 : IVec S_ 1 := constantI S_ 1 1#1
  let main_v20 : IVec S_ 1 := (fun x v => Host.reduce IntOp.andi x v reducesTo_S64x64_S_d0_1 h_S_) main_v19 main_c_7
  let main_v21 : IVec S_ 1 := andi main_v16 main_v20
  let main_v22 : FVec F S64 .f32 := Host.absf main_arg7
  let main_cst_8 : FVec F S_ .f32 := constant S_ .f32 0x7F800000#32
  let main_v23 : FVec F S64 .f32 := broadcastInDim S64 ![] bcast_S_S64 main_cst_8
  let main_v24 : IVec S64 1 := cmpf .olt main_v22 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v21 main_v25
  let main_v27 : FVec F S64 .f32 := Host.absf main_arg8
  let main_cst_10 : FVec F S_ .f32 := constant S_ .f32 0x7F800000#32
  let main_v28 : FVec F S64 .f32 := broadcastInDim S64 ![] bcast_S_S64 main_cst_10
  let main_v29 : IVec S64 1 := cmpf .olt main_v27 main_v28
  let main_c_11 : IVec S_ 1 := constantI S_ 1 1#1
  let main_v30 : IVec S_ 1 := (fun x v => Host.reduce IntOp.andi x v reducesTo_S64_S_d0 h_S_) main_v29 main_c_11
  let main_v31 : IVec S_ 1 := andi main_v26 main_v30
  let main_v32 : FVec F S64 .f32 := Host.absf main_arg9
  let main_cst_12 : FVec F S_ .f32 := constant S_ .f32 0x7F800000#32
  fn_part2 (F := F) main_arg10 main_arg11 main_arg12 main_arg13 main_arg14 main_arg15 main_arg16 main_arg17 main_arg18 main_arg19 main_arg20 main_arg21 main_arg22 main_arg23 main_arg24 main_arg25 main_v31 main_v32 main_cst_12

def fn {F : FTy → Type} [FloatOps F] (main_arg0 : FVec F S100000x64 .f32) (main_arg1 : FVec F S100000x64 .f32) (main_arg2 : IVec S2x3200000 32) (main_arg3 : IVec S2x300000 32) (main_arg4 : FVec F S_ .f32) (main_arg5 : FVec F S_ .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64 .f32) (main_arg17 : FVec F S64 .f32) (main_arg18 : FVec F S64x64 .f32) (main_arg19 : FVec F S64 .f32) (main_arg20 : FVec F S64 .f32) (main_arg21 : FVec F S64 .f32) (main_arg22 : FVec F S128x64 .f32) (main_arg23 : FVec F S64 .f32) (main_arg24 : FVec F S64 .f32) (main_arg25 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S_ .f32 := Host.absf main_arg4
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg5
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v12 main_v15
-- ==== Kernel.lean ====
abbrev S100000x64 : Shape := ⟨2, ![100000, 64]⟩
abbrev S2x3200000 : Shape := ⟨2, ![2, 3200000]⟩
abbrev S2x300000 : Shape := ⟨2, ![2, 300000]⟩
abbrev S_ : Shape := ⟨0, ![]⟩
abbrev S64x64 : Shape := ⟨2, ![64, 64]⟩
abbrev S64 : Shape := ⟨1, ![64]⟩
abbrev S128x64 : Shape := ⟨2, ![128, 64]⟩
abbrev S1x3200000 : Shape := ⟨2, ![1, 3200000]⟩
abbrev S3200000 : Shape := ⟨1, ![3200000]⟩
abbrev S3200000x1 : Shape := ⟨2, ![3200000, 1]⟩
abbrev S3200000x64 : Shape := ⟨2, ![3200000, 64]⟩
abbrev S1x300000 : Shape := ⟨2, ![1, 300000]⟩
abbrev S300000 : Shape := ⟨1, ![300000]⟩
abbrev S300000x1 : Shape := ⟨2, ![300000, 1]⟩
abbrev S300000x64 : Shape := ⟨2, ![300000, 64]⟩
abbrev S1x1 : Shape := ⟨2, ![1, 1]⟩
abbrev S1x64 : Shape := ⟨2, ![1, 64]⟩
abbrev S100000x128 : Shape := ⟨2, ![100000, 128]⟩
abbrev S10x1x128 : Shape := ⟨3, ![10, 1, 128]⟩
abbrev S10000x64 : Shape := ⟨2, ![10000, 64]⟩
abbrev S10000x128 : Shape := ⟨2, ![10000, 128]⟩
abbrev S1x1x128 : Shape := ⟨3, ![1, 1, 128]⟩
abbrev S128 : Shape := ⟨1, ![128]⟩
abbrev S1x128 : Shape := ⟨2, ![1, 128]⟩
abbrev S10x128 : Shape := ⟨2, ![10, 128]⟩
abbrev S10x1x64 : Shape := ⟨3, ![10, 1, 64]⟩
abbrev S1x1x64 : Shape := ⟨3, ![1, 1, 64]⟩
abbrev S10x64 : Shape := ⟨2, ![10, 64]⟩

abbrev nBuf : Space → Nat
  | .hbm => 181
  | .vmem => 56
  | .smem => 0
  | _ => 0

abbrev hbmTy0_0 (i : Nat) : BufTy := match i % 128 with
  | 0 => ⟨S100000x64, .f32⟩
  | 1 => ⟨S100000x64, .f32⟩
  | 2 => ⟨S2x3200000, .i32⟩
  | 3 => ⟨S2x300000, .i32⟩
  | 4 => ⟨S_, .f32⟩
  | 5 => ⟨S_, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64, .f32⟩
  | 17 => ⟨S64, .f32⟩
  | 18 => ⟨S64x64, .f32⟩
  | 19 => ⟨S64, .f32⟩
  | 20 => ⟨S64, .f32⟩
  | 21 => ⟨S64, .f32⟩
  | 22 => ⟨S128x64, .f32⟩
  | 23 => ⟨S64, .f32⟩
  | 24 => ⟨S64, .f32⟩
  | 25 => ⟨S64, .f32⟩
  | 26 => ⟨S1x3200000, .i32⟩
  | 27 => ⟨S3200000, .i32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000x64, .f32⟩
  | 37 => ⟨S1x3200000, .i32⟩
  | 38 => ⟨S3200000, .i32⟩
  | 39 => ⟨S_, .f32⟩
  | 40 => ⟨S100000x64, .f32⟩
  | 41 => ⟨S3200000x1, .i32⟩
  | 42 => ⟨S100000x64, .f32⟩
  | 43 => ⟨S1x300000, .i32⟩
  | 44 => ⟨S300000, .i32⟩
  | 45 => ⟨S_, .i32⟩
  | 46 => ⟨S300000, .i32⟩
  | 47 => ⟨S300000, .i1⟩
  | 48 => ⟨S_, .i32⟩
  | 49 => ⟨S300000, .i32⟩
  | 50 => ⟨S300000, .i32⟩
  | 51 => ⟨S300000, .i32⟩
  | 52 => ⟨S300000x1, .i32⟩
  | 53 => ⟨S300000x64, .f32⟩
  | 54 => ⟨S1x300000, .i32⟩
  | 55 => ⟨S300000, .i32⟩
  | 56 => ⟨S_, .f32⟩
  | 57 => ⟨S100000x64, .f32⟩
  | 58 => ⟨S300000x1, .i32⟩
  | 59 => ⟨S100000x64, .f32⟩
  | 60 => ⟨S_, .f32⟩
  | 61 => ⟨S_, .f32⟩
  | 62 => ⟨S1x1, .f32⟩
  | 63 => ⟨S_, .f32⟩
  | 64 => ⟨S_, .f32⟩
  | 65 => ⟨S1x1, .f32⟩
  | 66 => ⟨S1x64, .f32⟩
  | 67 => ⟨S1x64, .f32⟩
  | 68 => ⟨S1x64, .f32⟩
  | 69 => ⟨S1x64, .f32⟩
  | 70 => ⟨S1x64, .f32⟩
  | 71 => ⟨S100000x128, .bf16⟩
  | 72 => ⟨S10x1x128, .f32⟩
  | 73 => ⟨S10x1x128, .f32⟩
  | 74 => ⟨S10x128, .f32⟩
  | 75 => ⟨S10x128, .f32⟩
  | 76 => ⟨S_, .f32⟩
  | 77 => ⟨S128, .f32⟩
  | 78 => ⟨S_, .f32⟩
  | 79 => ⟨S128, .f32⟩
  | 80 => ⟨S128, .f32⟩
  | 81 => ⟨S_, .f32⟩
  | 82 => ⟨S10x128, .f32⟩
  | 83 => ⟨S10x128, .f32⟩
  | 84 => ⟨S1x128, .f32⟩
  | 85 => ⟨S10x128, .f32⟩
  | 86 => ⟨S10x128, .f32⟩
  | 87 => ⟨S10x128, .f32⟩
  | 88 => ⟨S_, .f32⟩
  | 89 => ⟨S10x128, .f32⟩
  | 90 => ⟨S10x128, .f32⟩
  | 91 => ⟨S_, .f32⟩
  | 92 => ⟨S128, .f32⟩
  | 93 => ⟨S_, .f32⟩
  | 94 => ⟨S128, .f32⟩
  | 95 => ⟨S128, .f32⟩
  | 96 => ⟨S_, .f32⟩
  | 97 => ⟨S128, .f32⟩
  | 98 => ⟨S128, .f32⟩
  | 99 => ⟨S_, .f32⟩
  | 100 => ⟨S128, .f32⟩
  | 101 => ⟨S128, .f32⟩
  | 102 => ⟨S1x128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S100000x128, .bf16⟩
  | 109 => ⟨S10x1x128, .f32⟩
  | 110 => ⟨S10x1x128, .f32⟩
  | 111 => ⟨S10x128, .f32⟩
  | 112 => ⟨S10x128, .f32⟩
  | 113 => ⟨S_, .f32⟩
  | 114 => ⟨S128, .f32⟩
  | 115 => ⟨S_, .f32⟩
  | 116 => ⟨S128, .f32⟩
  | 117 => ⟨S128, .f32⟩
  | 118 => ⟨S_, .f32⟩
  | 119 => ⟨S10x128, .f32⟩
  | 120 => ⟨S10x128, .f32⟩
  | 121 => ⟨S1x128, .f32⟩
  | 122 => ⟨S10x128, .f32⟩
  | 123 => ⟨S10x128, .f32⟩
  | 124 => ⟨S10x128, .f32⟩
  | 125 => ⟨S_, .f32⟩
  | 126 => ⟨S10x128, .f32⟩
  | 127 => ⟨S10x128, .f32⟩
  | _ => ⟨S100000x64, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .f32⟩
  | 6 => ⟨S128, .f32⟩
  | 7 => ⟨S128, .f32⟩
  | 8 => ⟨S_, .f32⟩
  | 9 => ⟨S128, .f32⟩
  | 10 => ⟨S128, .f32⟩
  | 11 => ⟨S1x128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S100000x64, .bf16⟩
  | 18 => ⟨S10x1x64, .f32⟩
  | 19 => ⟨S10x1x64, .f32⟩
  | 20 => ⟨S10x64, .f32⟩
  | 21 => ⟨S10x64, .f32⟩
  | 22 => ⟨S_, .f32⟩
  | 23 => ⟨S64, .f32⟩
  | 24 => ⟨S_, .f32⟩
  | 25 => ⟨S64, .f32⟩
  | 26 => ⟨S64, .f32⟩
  | 27 => ⟨S_, .f32⟩
  | 28 => ⟨S10x64, .f32⟩
  | 29 => ⟨S10x64, .f32⟩
  | 30 => ⟨S1x64, .f32⟩
  | 31 => ⟨S10x64, .f32⟩
  | 32 => ⟨S10x64, .f32⟩
  | 33 => ⟨S10x64, .f32⟩
  | 34 => ⟨S_, .f32⟩
  | 35 => ⟨S10x64, .f32⟩
  | 36 => ⟨S10x64, .f32⟩
  | 37 => ⟨S_, .f32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S1x64, .f32⟩
  | 49 => ⟨S1x64, .f32⟩
  | 50 => ⟨S1x64, .f32⟩
  | 51 => ⟨S1x64, .f32⟩
  | 52 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S1x1, .f32⟩
  | .local _ .vmem, ⟨1, _⟩ => ⟨S1x1, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S10000x128, .bf16⟩
  | .local _ .vmem, ⟨13, _⟩ => ⟨S10000x128, .bf16⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S10000x128, .bf16⟩
  | .local _ .vmem, ⟨19, _⟩ => ⟨S10000x128, .bf16⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S10000x128, .bf16⟩
  | .local _ .vmem, ⟨29, _⟩ => ⟨S10000x128, .bf16⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S10000x128, .bf16⟩
  | .local _ .vmem, ⟨35, _⟩ => ⟨S10000x128, .bf16⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S128x64, .f32⟩
  | .local _ .vmem, ⟨41, _⟩ => ⟨S1x64, .f32⟩
  | .local _ .vmem, ⟨42, _⟩ => ⟨S10000x64, .bf16⟩
  | .local _ .vmem, ⟨43, _⟩ => ⟨S10000x64, .bf16⟩
  | .local _ .vmem, ⟨44, _⟩ => ⟨S1x1x64, .f32⟩
  | .local _ .vmem, ⟨45, _⟩ => ⟨S1x1x64, .f32⟩
  | .local _ .vmem, ⟨46, _⟩ => ⟨S1x1x64, .f32⟩
  | .local _ .vmem, ⟨47, _⟩ => ⟨S1x1x64, .f32⟩
  | .local _ .vmem, ⟨48, _⟩ => ⟨S10000x64, .bf16⟩
  | .local _ .vmem, ⟨49, _⟩ => ⟨S10000x64, .bf16⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_1 : Ref sig .tc := ⟨.hbm, 45, rfl⟩
abbrev main_v16 : Ref sig .tc := ⟨.hbm, 46, rfl⟩
abbrev main_v17 : Ref sig .tc := ⟨.hbm, 47, rfl⟩
abbrev main_c_2 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37_0 : Ref sig .tc := ⟨.hbm, 71, rfl⟩
abbrev main_v37_1 : Ref sig .tc := ⟨.hbm, 72, rfl⟩
abbrev main_v37_2 : Ref sig .tc := ⟨.hbm, 73, rfl⟩
abbrev main_v38 : Ref sig .tc := ⟨.hbm, 74, rfl⟩
abbrev main_v39 : Ref sig .tc := ⟨.hbm, 75, rfl⟩
abbrev main_cst_6 : Ref sig .tc := ⟨.hbm, 76, rfl⟩
abbrev main_v40 : Ref sig .tc := ⟨.hbm, 77, rfl⟩
abbrev main_cst_7 : Ref sig .tc := ⟨.hbm, 78, rfl⟩
abbrev main_v41 : Ref sig .tc := ⟨.hbm, 79, rfl⟩
abbrev main_v42 : Ref sig .tc := ⟨.hbm, 80, rfl⟩
abbrev main_cst_8 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_9 : Ref sig .tc := ⟨.hbm, 88, rfl⟩
abbrev main_v49 : Ref sig .tc := ⟨.hbm, 89, rfl⟩
abbrev main_v50 : Ref sig .tc := ⟨.hbm, 90, rfl⟩
abbrev main_cst_10 : Ref sig .tc := ⟨.hbm, 91, rfl⟩
abbrev main_v51 : Ref sig .tc := ⟨.hbm, 92, rfl⟩
abbrev main_cst_11 : Ref sig .tc := ⟨.hbm, 93, rfl⟩
abbrev main_v52 : Ref sig .tc := ⟨.hbm, 94, rfl⟩
abbrev main_v53 : Ref sig .tc := ⟨.hbm, 95, rfl⟩
abbrev main_cst_12 : Ref sig .tc := ⟨.hbm, 96, rfl⟩
abbrev main_v54 : Ref sig .tc := ⟨.hbm, 97, rfl⟩
abbrev main_v55 : Ref sig .tc := ⟨.hbm, 98, rfl⟩
abbrev main_cst_13 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64_0 : Ref sig .tc := ⟨.hbm, 108, rfl⟩
abbrev main_v64_1 : Ref sig .tc := ⟨.hbm, 109, rfl⟩
abbrev main_v64_2 : Ref sig .tc := ⟨.hbm, 110, rfl⟩
abbrev main_v65 : Ref sig .tc := ⟨.hbm, 111, rfl⟩
abbrev main_v66 : Ref sig .tc := ⟨.hbm, 112, rfl⟩
abbrev main_cst_14 : Ref sig .tc := ⟨.hbm, 113, rfl⟩
abbrev main_v67 : Ref sig .tc := ⟨.hbm, 114, rfl⟩
abbrev main_cst_15 : Ref sig .tc := ⟨.hbm, 115, rfl⟩
abbrev main_v68 : Ref sig .tc := ⟨.hbm, 116, rfl⟩
abbrev main_v69 : Ref sig .tc := ⟨.hbm, 117, rfl⟩
abbrev main_cst_16 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_17 : Ref sig .tc := ⟨.hbm, 125, rfl⟩
abbrev main_v76 : Ref sig .tc := ⟨.hbm, 126, rfl⟩
abbrev main_v77 : Ref sig .tc := ⟨.hbm, 127, rfl⟩
abbrev main_cst_18 : Ref sig .tc := ⟨.hbm, 128, rfl⟩
abbrev main_v78 : Ref sig .tc := ⟨.hbm, 129, rfl⟩
abbrev main_cst_19 : Ref sig .tc := ⟨.hbm, 130, rfl⟩
abbrev main_v79 : Ref sig .tc := ⟨.hbm, 131, rfl⟩
abbrev main_v80 : Ref sig .tc := ⟨.hbm, 132, rfl⟩
abbrev main_cst_20 : Ref sig .tc := ⟨.hbm, 133, rfl⟩
abbrev main_v81 : Ref sig .tc := ⟨.hbm, 134, rfl⟩
abbrev main_v82 : Ref sig .tc := ⟨.hbm, 135, rfl⟩
abbrev main_cst_21 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91_0 : Ref sig .tc := ⟨.hbm, 145, rfl⟩
abbrev main_v91_1 : Ref sig .tc := ⟨.hbm, 146, rfl⟩
abbrev main_v91_2 : Ref sig .tc := ⟨.hbm, 147, rfl⟩
abbrev main_v92 : Ref sig .tc := ⟨.hbm, 148, rfl⟩
abbrev main_v93 : Ref sig .tc := ⟨.hbm, 149, rfl⟩
abbrev main_cst_22 : Ref sig .tc := ⟨.hbm, 150, rfl⟩
abbrev main_v94 : Ref sig .tc := ⟨.hbm, 151, rfl⟩
abbrev main_cst_23 : Ref sig .tc := ⟨.hbm, 152, rfl⟩
abbrev main_v95 : Ref sig .tc := ⟨.hbm, 153, rfl⟩
abbrev main_v96 : Ref sig .tc := ⟨.hbm, 154, rfl⟩
abbrev main_cst_24 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_25 : Ref sig .tc := ⟨.hbm, 162, rfl⟩
abbrev main_v103 : Ref sig .tc := ⟨.hbm, 163, rfl⟩
abbrev main_v104 : Ref sig .tc := ⟨.hbm, 164, rfl⟩
abbrev main_cst_26 : Ref sig .tc := ⟨.hbm, 165, rfl⟩
abbrev main_v105 : Ref sig .tc := ⟨.hbm, 166, rfl⟩
abbrev main_cst_27 : Ref sig .tc := ⟨.hbm, 167, rfl⟩
abbrev main_v106 : Ref sig .tc := ⟨.hbm, 168, rfl⟩
abbrev main_v107 : Ref sig .tc := ⟨.hbm, 169, rfl⟩
abbrev main_cst_28 : Ref sig .tc := ⟨.hbm, 170, rfl⟩
abbrev main_v108 : Ref sig .tc := ⟨.hbm, 171, rfl⟩
abbrev main_v109 : Ref sig .tc := ⟨.hbm, 172, rfl⟩
abbrev main_cst_29 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg7_1 : Ref sig .tc := ⟨.vmem, 43, rfl⟩
abbrev cc2_stg8_0 : Ref sig .tc := ⟨.vmem, 44, rfl⟩
abbrev cc2_stg8_1 : Ref sig .tc := ⟨.vmem, 45, rfl⟩
abbrev cc2_stg9_0 : Ref sig .tc := ⟨.vmem, 46, rfl⟩
abbrev cc2_stg9_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg2_0 : Ref sig .tc := ⟨.vmem, 51, rfl⟩
abbrev cc3_stg3_0 : Ref sig .tc := ⟨.vmem, 52, rfl⟩
abbrev cc3_stg4_0 : Ref sig .tc := ⟨.vmem, 53, rfl⟩
abbrev cc3_stg5_0 : Ref sig .tc := ⟨.vmem, 54, rfl⟩
abbrev cc3_stg5_1 : Ref sig .tc := ⟨.vmem, 55, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc2_sem0_0 : DmaSem sig := 34
abbrev cc2_sem0_1 : DmaSem sig := 35
abbrev cc2_sem1_0 : DmaSem sig := 36
abbrev cc2_sem2_0 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem7_1 : DmaSem sig := 43
abbrev cc2_sem8_0 : DmaSem sig := 44
abbrev cc2_sem8_1 : DmaSem sig := 45
abbrev cc2_sem9_0 : DmaSem sig := 46
abbrev cc2_sem9_1 : DmaSem sig := 47
abbrev cc3_sem0_0 : DmaSem sig := 48
abbrev cc3_sem0_1 : DmaSem sig := 49
abbrev cc3_sem1_0 : DmaSem sig := 50
abbrev cc3_sem2_0 : DmaSem sig := 51
abbrev cc3_sem3_0 : DmaSem sig := 52
abbrev cc3_sem4_0 : DmaSem sig := 53
abbrev cc3_sem5_0 : DmaSem sig := 54
abbrev cc3_sem5_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x1x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_0_0 : S2x3200000.Slices ![0, 0] S1x3200000
  bcast_S_S100000x64 : S_.BroadcastsInDim S100000x64 (![] : Fin 0 → Fin S100000x64.rank)
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  shapeCasts_S_S1x1 : S_.ShapeCasts S1x1
  shapeCasts_S64_S1x64 : S64.ShapeCasts S1x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  concatenates_S10000x64_S10000x64_S10000x128_d1 : Shape.Concatenates [S10000x64, S10000x64] S10000x128 1
  reduces_S10000x128_S128 : S10000x128.Reduces [0] S128
  shapeCasts_S128_S1x128 : S128.ShapeCasts S1x128
  broadcasts_S1x128_S10000x128 : S1x128.Broadcasts S10000x128
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S10x1x128_S10x128 : S10x1x128.ShapeCasts S10x128
  reducesTo_S10x128_S128_d0 : S10x128.ReducesTo [0] S128
  h_S_ : 0 < S_.numel
  bcast_S_S128 : S_.BroadcastsInDim S128 (![] : Fin 0 → Fin S128.rank)
  bcast_S_S10x128 : S_.BroadcastsInDim S10x128 (![] : Fin 0 → Fin S10x128.rank)
  bcast_S128_S1x128_1 : S128.BroadcastsInDim S1x128 (![1] : Fin 1 → Fin S1x128.rank)
  bcast_S1x128_S10x128_0_1 : S1x128.BroadcastsInDim S10x128 (![0, 1] : Fin 2 → Fin S10x128.rank)
  concatenates_S64_S64_S128_d0 : Shape.Concatenates [S64, S64] S128 0
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S10000x128_o0_0_S10000x64 : S10000x128.Slices ![0, 0] S10000x64
  slices_S10000x128_o0_64_S10000x64 : S10000x128.Slices ![0, 64] S10000x64
  inb_S128x64_S128x64_0_0 : ∀ a, (![0, 0] : Fin 2 → Nat) a + S128x64.size a ≤ S128x64.size a
  h_S128x64 : 0 < S128x64.numel
  reduces_S10000x64_S64 : S10000x64.Reduces [0] S64
  packedbf16_S10000x64_S10000x64_0_0 : (Rect.unit (s := S10000x64) ![0, 0] S10000x64.size inb_S10000x64_S10000x64_0_0).PackedRows (EltTy.packing .bf16)
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  shapeCasts_S10x1x64_S10x64 : S10x1x64.ShapeCasts S10x64
  reducesTo_S10x64_S64_d0 : S10x64.ReducesTo [0] S64
  bcast_S_S64 : S_.BroadcastsInDim S64 (![] : Fin 0 → Fin S64.rank)
  bcast_S_S10x64 : S_.BroadcastsInDim S10x64 (![] : Fin 0 → Fin S10x64.rank)
  bcast_S64_S1x64_1 : S64.BroadcastsInDim S1x64 (![1] : Fin 1 → Fin S1x64.rank)
  bcast_S1x64_S10x64_0_1 : S1x64.BroadcastsInDim S10x64 (![0, 1] : Fin 2 → Fin S10x64.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S300000x1_S300000x64_1_0_n_n_0_1_164_wf : GatherDims.WF S100000x64 S300000x1 S300000x64 [1] [0] [] [0] [] 1 ![1, 64]
  scatter_S100000x64_S300000x1_S300000x64_1_0_0_1_wf : ScatterDims.WF S100000x64 S300000x1 S300000x64 [1] [0] [0] 1
  dot_S10000x64_S64x64_S10000x64_1_0_0_1_n_n_wf : DotDims.WF S10000x64 S64x64 S10000x64 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x128.size a ≤ S100000x128.size a
  hwx0_9 : ∀ i : grid0.Coords, EltTy.bits .bf16 = 32 ∨ (Rect.block (s := S100000x128) S10000x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S10x1x128.size a
  hwx0_10 : ∀ i : grid0.Coords, EltTy.bits .f32 = 32 ∨ (Rect.block (s := S10x1x128) S1x1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x128.size a ≤ S10x1x128.size a
  hwx0_11 : ∀ i : grid0.Coords, EltTy.bits .f32 = 32 ∨ (Rect.block (s := S10x1x128) S1x1x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x128.size a ≤ S100000x128.size a
  hwx1_9 : ∀ i : grid1.Coords, EltTy.bits .bf16 = 32 ∨ (Rect.block (s := S100000x128) S10000x128.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x128.size a ≤ S10x1x128.size a
  hwx1_10 : ∀ i : grid1.Coords, EltTy.bits .f32 = 32 ∨ (Rect.block (s := S10x1x128) S1x1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x1x128.size a ≤ S10x1x128.size a
  hwx1_11 : ∀ i : grid1.Coords, EltTy.bits .f32 = 32 ∨ (Rect.block (s := S10x1x128) S1x1x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .bf16 = 32 ∨ (Rect.block (s := S100000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S100000x64.size a
  hwx2_7 : ∀ i : grid2.Coords, EltTy.bits .bf16 = 32 ∨ (Rect.block (s := S100000x64) S10000x64.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x64.size a ≤ S10x1x64.size a
  hwx2_8 : ∀ i : grid2.Coords, EltTy.bits .f32 = 32 ∨ (Rect.block (s := S10x1x64) S1x1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x64.size a ≤ S10x1x64.size a
  hwx2_9 : ∀ i : grid2.Coords, EltTy.bits .f32 = 32 ∨ (Rect.block (s := S10x1x64) S1x1x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .bf16 = 32 ∨ (Rect.block (s := S100000x64) S10000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def scatter_S100000x64_S300000x1_S300000x64_1_0_0_1 : ScatterDims S100000x64 S300000x1 S300000x64 where
  updateWindowDims := [1]
  insertedWindowDims := [0]
  scatterDimsToOperandDims := [0]
  indexVectorDim := 1
  wf := scatter_S100000x64_S300000x1_S300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v29) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S10000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S10000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg14) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37_0) S10000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v37_1) S1x1x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v37_2) S1x1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v37_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg18) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v64_0) S10000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v64_1) S1x1x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v64_2) S1x1x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v64_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v90) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg22) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v91_0) S10000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v91_1) S1x1x64.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v91_2) S1x1x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v91_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v112) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v113) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v114) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v115) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v116) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S2x300000 : Shape := ⟨2, ![2, 300000]⟩
abbrev S_ : Shape := ⟨0, ![]⟩
abbrev S64x64 : Shape := ⟨2, ![64, 64]⟩
abbrev S64 : Shape := ⟨1, ![64]⟩
abbrev S128x64 : Shape := ⟨2, ![128, 64]⟩
abbrev S1x3200000 : Shape := ⟨2, ![1, 3200000]⟩
abbrev S3200000 : Shape := ⟨1, ![3200000]⟩
abbrev S3200000x1 : Shape := ⟨2, ![3200000, 1]⟩
abbrev S3200000x64 : Shape := ⟨2, ![3200000, 64]⟩
abbrev S1x64 : Shape := ⟨2, ![1, 64]⟩
abbrev S1x300000 : Shape := ⟨2, ![1, 300000]⟩
abbrev S300000 : Shape := ⟨1, ![300000]⟩
abbrev S300000x1 : Shape := ⟨2, ![300000, 1]⟩
abbrev S300000x64 : Shape := ⟨2, ![300000, 64]⟩
abbrev S100000x128 : Shape := ⟨2, ![100000, 128]⟩

abbrev nBuf : Space → Nat
  | .hbm => 256
  | .vmem => 0
  | .smem => 0
  | _ => 0

abbrev hbmTy0_0 (i : Nat) : BufTy := match i % 128 with
  | 0 => ⟨S100000x64, .f32⟩
  | 1 => ⟨S100000x64, .f32⟩
  | 2 => ⟨S2x3200000, .i32⟩
  | 3 => ⟨S2x300000, .i32⟩
  | 4 => ⟨S_, .f32⟩
  | 5 => ⟨S_, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64, .f32⟩
  | 17 => ⟨S64, .f32⟩
  | 18 => ⟨S64x64, .f32⟩
  | 19 => ⟨S64, .f32⟩
  | 20 => ⟨S64, .f32⟩
  | 21 => ⟨S64, .f32⟩
  | 22 => ⟨S128x64, .f32⟩
  | 23 => ⟨S64, .f32⟩
  | 24 => ⟨S64, .f32⟩
  | 25 => ⟨S64, .f32⟩
  | 26 => ⟨S1x3200000, .i32⟩
  | 27 => ⟨S3200000, .i32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000x64, .f32⟩
  | 37 => ⟨S1x3200000, .i32⟩
  | 38 => ⟨S3200000, .i32⟩
  | 39 => ⟨S_, .f32⟩
  | 40 => ⟨S100000x64, .f32⟩
  | 41 => ⟨S3200000x1, .i32⟩
  | 42 => ⟨S100000x64, .f32⟩
  | 43 => ⟨S_, .f32⟩
  | 44 => ⟨S_, .f32⟩
  | 45 => ⟨S100000x64, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S64, .f32⟩
  | 54 => ⟨S_, .f32⟩
  | 55 => ⟨S64, .f32⟩
  | 56 => ⟨S64, .f32⟩
  | 57 => ⟨S1x64, .f32⟩
  | 58 => ⟨S100000x64, .f32⟩
  | 59 => ⟨S100000x64, .f32⟩
  | 60 => ⟨S100000x64, .f32⟩
  | 61 => ⟨S_, .f32⟩
  | 62 => ⟨S64, .f32⟩
  | 63 => ⟨S_, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S_, .f32⟩
  | 70 => ⟨S64, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S100000x64, .f32⟩
  | 98 => ⟨S_, .f32⟩
  | 99 => ⟨S64, .f32⟩
  | 100 => ⟨S_, .f32⟩
  | 101 => ⟨S64, .f32⟩
  | 102 => ⟨S64, .f32⟩
  | 103 => ⟨S1x64, .f32⟩
  | 104 => ⟨S100000x64, .f32⟩
  | 105 => ⟨S100000x64, .f32⟩
  | 106 => ⟨S_, .f32⟩
  | 107 => ⟨S64, .f32⟩
  | 108 => ⟨S64, .f32⟩
  | 109 => ⟨S64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S1x300000, .i32⟩
  | 123 => ⟨S300000, .i32⟩
  | 124 => ⟨S_, .i32⟩
  | 125 => ⟨S300000, .i32⟩
  | 126 => ⟨S300000, .i1⟩
  | 127 => ⟨S_, .i32⟩
  | _ => ⟨S100000x64, .f32⟩

abbrev hbmTy0_1 (i : Nat) : BufTy := match i % 128 with
  | 0 => ⟨S300000, .i32⟩
  | 1 => ⟨S300000, .i32⟩
  | 2 => ⟨S300000, .i32⟩
  | 3 => ⟨S300000x1, .i32⟩
  | 4 => ⟨S300000x64, .f32⟩
  | 5 => ⟨S1x300000, .i32⟩
  | 6 => ⟨S300000, .i32⟩
  | 7 => ⟨S_, .f32⟩
  | 8 => ⟨S100000x64, .f32⟩
  | 9 => ⟨S300000x1, .i32⟩
  | 10 => ⟨S100000x64, .f32⟩
  | 11 => ⟨S_, .f32⟩
  | 12 => ⟨S_, .f32⟩
  | 13 => ⟨S100000x64, .f32⟩
  | 14 => ⟨S100000x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S64, .f32⟩
  | 22 => ⟨S_, .f32⟩
  | 23 => ⟨S64, .f32⟩
  | 24 => ⟨S64, .f32⟩
  | 25 => ⟨S1x64, .f32⟩
  | 26 => ⟨S100000x64, .f32⟩
  | 27 => ⟨S100000x64, .f32⟩
  | 28 => ⟨S100000x64, .f32⟩
  | 29 => ⟨S_, .f32⟩
  | 30 => ⟨S64, .f32⟩
  | 31 => ⟨S_, .f32⟩
  | 32 => ⟨S64, .f32⟩
  | 33 => ⟨S64, .f32⟩
  | 34 => ⟨S1x64, .f32⟩
  | 35 => ⟨S100000x64, .f32⟩
  | 36 => ⟨S100000x64, .f32⟩
  | 37 => ⟨S_, .f32⟩
  | 38 => ⟨S64, .f32⟩
  | 39 => ⟨S64, .f32⟩
  | 40 => ⟨S64, .f32⟩
  | 41 => ⟨S1x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S64, .f32⟩
  | 59 => ⟨S_, .f32⟩
  | 60 => ⟨S64, .f32⟩
  | 61 => ⟨S64, .f32⟩
  | 62 => ⟨S1x64, .f32⟩
  | 63 => ⟨S100000x64, .f32⟩
  | 64 => ⟨S100000x64, .f32⟩
  | 65 => ⟨S100000x64, .f32⟩
  | 66 => ⟨S_, .f32⟩
  | 67 => ⟨S64, .f32⟩
  | 68 => ⟨S_, .f32⟩
  | 69 => ⟨S64, .f32⟩
  | 70 => ⟨S64, .f32⟩
  | 71 => ⟨S1x64, .f32⟩
  | 72 => ⟨S100000x64, .f32⟩
  | 73 => ⟨S100000x64, .f32⟩
  | 74 => ⟨S_, .f32⟩
  | 75 => ⟨S64, .f32⟩
  | 76 => ⟨S64, .f32⟩
  | 77 => ⟨S64, .f32⟩
  | 78 => ⟨S1x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x128, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S64, .f32⟩
  | 97 => ⟨S_, .f32⟩
  | 98 => ⟨S64, .f32⟩
  | 99 => ⟨S64, .f32⟩
  | 100 => ⟨S1x64, .f32⟩
  | 101 => ⟨S100000x64, .f32⟩
  | 102 => ⟨S100000x64, .f32⟩
  | 103 => ⟨S100000x64, .f32⟩
  | 104 => ⟨S_, .f32⟩
  | 105 => ⟨S64, .f32⟩
  | 106 => ⟨S_, .f32⟩
  | 107 => ⟨S64, .f32⟩
  | 108 => ⟨S64, .f32⟩
  | 109 => ⟨S1x64, .f32⟩
  | 110 => ⟨S100000x64, .f32⟩
  | 111 => ⟨S100000x64, .f32⟩
  | 112 => ⟨S_, .f32⟩
  | 113 => ⟨S64, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_2 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_4 : Ref sig .tc := ⟨.hbm, 61, rfl⟩
abbrev main_v29 : Ref sig .tc := ⟨.hbm, 62, rfl⟩
abbrev main_cst_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_6 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_call0_cst : Ref sig .tc := ⟨.hbm, 82, rfl⟩
abbrev main_call0_v0 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_7 : Ref sig .tc := ⟨.hbm, 89, rfl⟩
abbrev main_v52 : Ref sig .tc := ⟨.hbm, 90, rfl⟩
abbrev main_cst_8 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_9 : Ref sig .tc := ⟨.hbm, 98, rfl⟩
abbrev main_v59 : Ref sig .tc := ⟨.hbm, 99, rfl⟩
abbrev main_cst_10 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_11 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call1_cst : Ref sig .tc := ⟨.hbm, 119, rfl⟩
abbrev main_call1_v0 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_c_12 : Ref sig .tc := ⟨.hbm, 124, rfl⟩
abbrev main_v80 : Ref sig .tc := ⟨.hbm, 125, rfl⟩
abbrev main_v81 : Ref sig .tc := ⟨.hbm, 126, rfl⟩
abbrev main_c_13 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_14 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_15 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_16 : Ref sig .tc := ⟨.hbm, 148, rfl⟩
abbrev main_v100 : Ref sig .tc := ⟨.hbm, 149, rfl⟩
abbrev main_cst_17 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_18 : Ref sig .tc := ⟨.hbm, 157, rfl⟩
abbrev main_v107 : Ref sig .tc := ⟨.hbm, 158, rfl⟩
abbrev main_cst_19 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_20 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_call2_cst : Ref sig .tc := ⟨.hbm, 178, rfl⟩
abbrev main_call2_v0 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_21 : Ref sig .tc := ⟨.hbm, 185, rfl⟩
abbrev main_v130 : Ref sig .tc := ⟨.hbm, 186, rfl⟩
abbrev main_cst_22 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_23 : Ref sig .tc := ⟨.hbm, 194, rfl⟩
abbrev main_v137 : Ref sig .tc := ⟨.hbm, 195, rfl⟩
abbrev main_cst_24 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_25 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_call3_cst : Ref sig .tc := ⟨.hbm, 215, rfl⟩
abbrev main_call3_v0 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_cst_26 : Ref sig .tc := ⟨.hbm, 223, rfl⟩
abbrev main_v161 : Ref sig .tc := ⟨.hbm, 224, rfl⟩
abbrev main_cst_27 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_28 : Ref sig .tc := ⟨.hbm, 232, rfl⟩
abbrev main_v168 : Ref sig .tc := ⟨.hbm, 233, rfl⟩
abbrev main_cst_29 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_cst_30 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_call4_cst : Ref sig .tc := ⟨.hbm, 253, rfl⟩
abbrev main_call4_v0 : Ref sig .tc := ⟨.hbm, 254, rfl⟩
abbrev main_v186 : Ref sig .tc := ⟨.hbm, 255, rfl⟩

abbrev nD : Nat := 1
abbrev τ : Topo := Topo.v7x

variable {F : FTy → Type} [FloatOps F]

class Facts₀ : Prop where
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_0_0 : S2x3200000.Slices ![0, 0] S1x3200000
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  concatenates_S100000x64_S100000x64_S100000x128_d1 : Shape.Concatenates [S100000x64, S100000x64] S100000x128 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  gather_S100000x64_S300000x1_S300000x64_1_0_n_n_0_1_164_wf : GatherDims.WF S100000x64 S300000x1 S300000x64 [1] [0] [] [0] [] 1 ![1, 64]
  scatter_S100000x64_S300000x1_S300000x64_1_0_0_1_wf : ScatterDims.WF S100000x64 S300000x1 S300000x64 [1] [0] [0] 1
  dot_S100000x128_S128x64_S100000x64_1_0_0_1_n_n_wf : DotDims.WF S100000x128 S128x64 S100000x64 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def scatter_S100000x64_S300000x1_S300000x64_1_0_0_1 : ScatterDims S100000x64 S300000x1 S300000x64 where
  updateWindowDims := [1]
  insertedWindowDims := [0]
  scatterDimsToOperandDims := [0]
  indexVectorDim := 1
  wf := scatter_S100000x64_S300000x1_S300000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RefRun.lean ====
/-
  The two-pass program's run, read back piece by piece: after each of seven consecutive pieces of its operation list,
  every value a later piece reads is its stage of the arguments; so the result buffer ends at the last stage, and the
  arguments are never written.
-/
import proofs.«415859_j20203526161168_3_alg».proof.Proof.RefOps
import proofs.«415859_j20203526161168_3_alg».proof.Proof.RefRead

set_option maxRecDepth 8192

noncomputable section

namespace Cert.ReferenceIdeal.Staged

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Running two lists in a row is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ### After piece 0 -/

/-- The contents after the first 1 piece of the list. -/
def W0 (V : Valuation τ sig (Elt F)) : Valuation τ sig (Elt F) := after opsC0 V

theorem at0_v21 (V : Valuation τ sig (Elt F)) : W0 V (Proc.devRef .tc main_v21) = Cert.ReferenceIdeal.Read.val_main_v21 (F := F) (V (Proc.devRef .tc main_arg0)) (V (Proc.devRef .tc main_arg2)) (V (Proc.devRef .tc main_arg4)) (V (Proc.devRef .tc main_arg6)) (V (Proc.devRef .tc main_arg7)) := by
  unfold W0
  after_results_simp
  rfl

theorem at0_arg8 (V : Valuation τ sig (Elt F)) : W0 V (Proc.devRef .tc main_arg8) = V (Proc.devRef .tc main_arg8) := by
  unfold W0
  after_results_simp

theorem at0_arg9 (V : Valuation τ sig (Elt F)) : W0 V (Proc.devRef .tc main_arg9) = V (Proc.devRef .tc main_arg9) := by
  unfold W0
  after_results_simp

theorem at0_arg10 (V : Valuation τ sig (Elt F)) : W0 V (Proc.devRef .tc main_arg10) = V (Proc.devRef .tc main_arg10) := by
  unfold W0
  after_results_simp

theorem at0_arg11 (V : Valuation τ sig (Elt F)) : W0 V (Proc.devRef .tc main_arg11) = V (Proc.devRef .tc main_arg11) := by
  unfold W0
  after_results_simp

theorem at0_arg12 (V : Valuation τ sig (Elt F)) : W0 V (Proc.devRef .tc main_arg12) = V (Proc.devRef .tc main_arg12) := by
  unfold W0
  after_results_simp

theorem at0_arg13 (V : Valuation τ sig (Elt F)) : W0 V (Proc.devRef .tc main_arg13) = V (Proc.devRef .tc main_arg13) := by
  unfold W0
  after_results_simp

theorem at0_arg3 (V : Valuation τ sig (Elt F)) : W0 V (Proc.devRef .tc main_arg3) = V (Proc.devRef .tc main_arg3) := by
  unfold W0
  after_results_simp

theorem at0_arg1 (V : Valuation τ sig (Elt F)) : W0 V (Proc.devRef .tc main_arg1) = V (Proc.devRef .tc main_arg1) := by
  unfold W0
  after_results_simp

theorem at0_arg5 (V : Valuation τ sig (Elt F)) : W0 V (Proc.devRef .tc main_arg5) = V (Proc.devRef .tc main_arg5) := by
  unfold W0
  after_results_simp

theorem at0_arg0 (V : Valuation τ sig (Elt F)) : W0 V (Proc.devRef .tc main_arg0) = V (Proc.devRef .tc main_arg0) := by
  unfold W0
  after_results_simp

theorem at0_arg14 (V : Valuation τ sig (Elt F)) : W0 V (Proc.devRef .tc main_arg14) = V (Proc.devRef .tc main_arg14) := by
  unfold W0
  after_results_simp

theorem at0_arg15 (V : Valuation τ sig (Elt F)) : W0 V (Proc.devRef .tc main_arg15) = V (Proc.devRef .tc main_arg15) := by
  unfold W0
  after_results_simp

theorem at0_arg16 (V : Valuation τ sig (Elt F)) : W0 V (Proc.devRef .tc main_arg16) = V (Proc.devRef .tc main_arg16) := by
  unfold W0
  after_results_simp

theorem at0_arg17 (V : Valuation τ sig (Elt F)) : W0 V (Proc.devRef .tc main_arg17) = V (Proc.devRef .tc main_arg17) := by
  unfold W0
  after_results_simp

theorem at0_arg18 (V : Valuation τ sig (Elt F)) : W0 V (Proc.devRef .tc main_arg18) = V (Proc.devRef .tc main_arg18) := by
  unfold W0
  after_results_simp

theorem at0_arg19 (V : Valuation τ sig (Elt F)) : W0 V (Proc.devRef .tc main_arg19) = V (Proc.devRef .tc main_arg19) := by
  unfold W0
  after_results_simp

theorem at0_arg20 (V : Valuation τ sig (Elt F)) : W0 V (Proc.devRef .tc main_arg20) = V (Proc.devRef .tc main_arg20) := by
  unfold W0
  after_results_simp

theorem at0_arg21 (V : Valuation τ sig (Elt F)) : W0 V (Proc.devRef .tc main_arg21) = V (Proc.devRef .tc main_arg21) := by
  unfold W0
  after_results_simp

theorem at0_arg22 (V : Valuation τ sig (Elt F)) : W0 V (Proc.devRef .tc main_arg22) = V (Proc.devRef .tc main_arg22) := by
  unfold W0
  after_results_simp

theorem at0_arg23 (V : Valuation τ sig (Elt F)) : W0 V (Proc.devRef .tc main_arg23) = V (Proc.devRef .tc main_arg23) := by
  unfold W0
  after_results_simp

theorem at0_arg24 (V : Valuation τ sig (Elt F)) : W0 V (Proc.devRef .tc main_arg24) = V (Proc.devRef .tc main_arg24) := by
  unfold W0
  after_results_simp

theorem at0_arg25 (V : Valuation τ sig (Elt F)) : W0 V (Proc.devRef .tc main_arg25) = V (Proc.devRef .tc main_arg25) := by
  unfold W0
  after_results_simp

/-! ### After piece 1 -/

/-- The contents after the first 2 pieces of the list. -/
def W1 (V : Valuation τ sig (Elt F)) : Valuation τ sig (Elt F) := after opsC1 (W0 V)

theorem at1_v47 (V : Valuation τ sig (Elt F)) : W1 V (Proc.devRef .tc main_v47) = Cert.ReferenceIdeal.Read.val_main_v47 (F := F) (V (Proc.devRef .tc main_arg0)) (V (Proc.devRef .tc main_arg2)) (V (Proc.devRef .tc main_arg4)) (V (Proc.devRef .tc main_arg6)) (V (Proc.devRef .tc main_arg7)) (V (Proc.devRef .tc main_arg8)) (V (Proc.devRef .tc main_arg9)) := by
  unfold W1
  have h0 := at0_v21 V
  have h1 := at0_arg8 V
  have h2 := at0_arg9 V
  generalize W0 V = W at h0 h1 h2 ⊢
  after_results_simp
  simp only [h0, h1, h2]
  rfl

theorem at1_arg10 (V : Valuation τ sig (Elt F)) : W1 V (Proc.devRef .tc main_arg10) = V (Proc.devRef .tc main_arg10) := by
  unfold W1
  have h := at0_arg10 V
  generalize W0 V = W at h ⊢
  after_results_simp
  exact h

theorem at1_arg11 (V : Valuation τ sig (Elt F)) : W1 V (Proc.devRef .tc main_arg11) = V (Proc.devRef .tc main_arg11) := by
  unfold W1
  have h := at0_arg11 V
  generalize W0 V = W at h ⊢
  after_results_simp
  exact h

theorem at1_arg12 (V : Valuation τ sig (Elt F)) : W1 V (Proc.devRef .tc main_arg12) = V (Proc.devRef .tc main_arg12) := by
  unfold W1
  have h := at0_arg12 V
  generalize W0 V = W at h ⊢
  after_results_simp
  exact h

theorem at1_arg13 (V : Valuation τ sig (Elt F)) : W1 V (Proc.devRef .tc main_arg13) = V (Proc.devRef .tc main_arg13) := by
  unfold W1
  have h := at0_arg13 V
  generalize W0 V = W at h ⊢
  after_results_simp
  exact h

theorem at1_arg3 (V : Valuation τ sig (Elt F)) : W1 V (Proc.devRef .tc main_arg3) = V (Proc.devRef .tc main_arg3) := by
  unfold W1
  have h := at0_arg3 V
  generalize W0 V = W at h ⊢
  after_results_simp
  exact h

theorem at1_arg1 (V : Valuation τ sig (Elt F)) : W1 V (Proc.devRef .tc main_arg1) = V (Proc.devRef .tc main_arg1) := by
  unfold W1
  have h := at0_arg1 V
  generalize W0 V = W at h ⊢
  after_results_simp
  exact h

theorem at1_arg5 (V : Valuation τ sig (Elt F)) : W1 V (Proc.devRef .tc main_arg5) = V (Proc.devRef .tc main_arg5) := by
  unfold W1
  have h := at0_arg5 V
  generalize W0 V = W at h ⊢
  after_results_simp
  exact h

theorem at1_arg0 (V : Valuation τ sig (Elt F)) : W1 V (Proc.devRef .tc main_arg0) = V (Proc.devRef .tc main_arg0) := by
  unfold W1
  have h := at0_arg0 V
  generalize W0 V = W at h ⊢
  after_results_simp
  exact h

theorem at1_arg14 (V : Valuation τ sig (Elt F)) : W1 V (Proc.devRef .tc main_arg14) = V (Proc.devRef .tc main_arg14) := by
  unfold W1
  have h := at0_arg14 V
  generalize W0 V = W at h ⊢
  after_results_simp
  exact h

theorem at1_arg15 (V : Valuation τ sig (Elt F)) : W1 V (Proc.devRef .tc main_arg15) = V (Proc.devRef .tc main_arg15) := by
  unfold W1
  have h := at0_arg15 V
  generalize W0 V = W at h ⊢
  after_results_simp
  exact h

theorem at1_arg16 (V : Valuation τ sig (Elt F)) : W1 V (Proc.devRef .tc main_arg16) = V (Proc.devRef .tc main_arg16) := by
  unfold W1
  have h := at0_arg16 V
  generalize W0 V = W at h ⊢
  after_results_simp
  exact h

theorem at1_arg17 (V : Valuation τ sig (Elt F)) : W1 V (Proc.devRef .tc main_arg17) = V (Proc.devRef .tc main_arg17) := by
  unfold W1
  have h := at0_arg17 V
  generalize W0 V = W at h ⊢
  after_results_simp
  exact h

theorem at1_arg18 (V : Valuation τ sig (Elt F)) : W1 V (Proc.devRef .tc main_arg18) = V (Proc.devRef .tc main_arg18) := by
  unfold W1
  have h := at0_arg18 V
  generalize W0 V = W at h ⊢
  after_results_simp
  exact h

theorem at1_arg19 (V : Valuation τ sig (Elt F)) : W1 V (Proc.devRef .tc main_arg19) = V (Proc.devRef .tc main_arg19) := by
  unfold W1
  have h := at0_arg19 V
  generalize W0 V = W at h ⊢
  after_results_simp
  exact h

theorem at1_arg20 (V : Valuation τ sig (Elt F)) : W1 V (Proc.devRef .tc main_arg20) = V (Proc.devRef .tc main_arg20) := by
  unfold W1
  have h := at0_arg20 V
  generalize W0 V = W at h ⊢
  after_results_simp
  exact h

theorem at1_arg21 (V : Valuation τ sig (Elt F)) : W1 V (Proc.devRef .tc main_arg21) = V (Proc.devRef .tc main_arg21) := by
  unfold W1
  have h := at0_arg21 V
  generalize W0 V = W at h ⊢
  after_results_simp
  exact h

theorem at1_arg22 (V : Valuation τ sig (Elt F)) : W1 V (Proc.devRef .tc main_arg22) = V (Proc.devRef .tc main_arg22) := by
  unfold W1
  have h := at0_arg22 V
  generalize W0 V = W at h ⊢
  after_results_simp
  exact h

theorem at1_arg23 (V : Valuation τ sig (Elt F)) : W1 V (Proc.devRef .tc main_arg23) = V (Proc.devRef .tc main_arg23) := by
  unfold W1
  have h := at0_arg23 V
  generalize W0 V = W at h ⊢
  after_results_simp
  exact h

theorem at1_arg24 (V : Valuation τ sig (Elt F)) : W1 V (Proc.devRef .tc main_arg24) = V (Proc.devRef .tc main_arg24) := by
  unfold W1
  have h := at0_arg24 V
  generalize W0 V = W at h ⊢
  after_results_simp
  exact h

theorem at1_arg25 (V : Valuation τ sig (Elt F)) : W1 V (Proc.devRef .tc main_arg25) = V (Proc.devRef .tc main_arg25) := by
  unfold W1
  have h := at0_arg25 V
  generalize W0 V = W at h ⊢
  after_results_simp
  exact h

/-! ### After piece 2 -/

/-- The contents after the first 3 pieces of the list. -/
def W2 (V : Valuation τ sig (Elt F)) : Valuation τ sig (Elt F) := after opsC2 (W1 V)

theorem at2_arg3 (V : Valuation τ sig (Elt F)) : W2 V (Proc.devRef .tc main_arg3) = V (Proc.devRef .tc main_arg3) := by
  unfold W2
  have h := at1_arg3 V
  generalize W1 V = W at h ⊢
  after_results_simp
  exact h

theorem at2_arg1 (V : Valuation τ sig (Elt F)) : W2 V (Proc.devRef .tc main_arg1) = V (Proc.devRef .tc main_arg1) := by
  unfold W2
  have h := at1_arg1 V
  generalize W1 V = W at h ⊢
  after_results_simp
  exact h

theorem at2_arg5 (V : Valuation τ sig (Elt F)) : W2 V (Proc.devRef .tc main_arg5) = V (Proc.devRef .tc main_arg5) := by
  unfold W2
  have h := at1_arg5 V
  generalize W1 V = W at h ⊢
  after_results_simp
  exact h

theorem at2_arg0 (V : Valuation τ sig (Elt F)) : W2 V (Proc.devRef .tc main_arg0) = V (Proc.devRef .tc main_arg0) := by
  unfold W2
  have h := at1_arg0 V
  generalize W1 V = W at h ⊢
  after_results_simp
  exact h

theorem at2_arg14 (V : Valuation τ sig (Elt F)) : W2 V (Proc.devRef .tc main_arg14) = V (Proc.devRef .tc main_arg14) := by
  unfold W2
  have h := at1_arg14 V
  generalize W1 V = W at h ⊢
  after_results_simp
  exact h

theorem at2_arg15 (V : Valuation τ sig (Elt F)) : W2 V (Proc.devRef .tc main_arg15) = V (Proc.devRef .tc main_arg15) := by
  unfold W2
  have h := at1_arg15 V
  generalize W1 V = W at h ⊢
  after_results_simp
  exact h

theorem at2_arg16 (V : Valuation τ sig (Elt F)) : W2 V (Proc.devRef .tc main_arg16) = V (Proc.devRef .tc main_arg16) := by
  unfold W2
  have h := at1_arg16 V
  generalize W1 V = W at h ⊢
  after_results_simp
  exact h

theorem at2_arg17 (V : Valuation τ sig (Elt F)) : W2 V (Proc.devRef .tc main_arg17) = V (Proc.devRef .tc main_arg17) := by
  unfold W2
  have h := at1_arg17 V
  generalize W1 V = W at h ⊢
  after_results_simp
  exact h

theorem at2_arg18 (V : Valuation τ sig (Elt F)) : W2 V (Proc.devRef .tc main_arg18) = V (Proc.devRef .tc main_arg18) := by
  unfold W2
  have h := at1_arg18 V
  generalize W1 V = W at h ⊢
  after_results_simp
  exact h

theorem at2_arg19 (V : Valuation τ sig (Elt F)) : W2 V (Proc.devRef .tc main_arg19) = V (Proc.devRef .tc main_arg19) := by
  unfold W2
  have h := at1_arg19 V
  generalize W1 V = W at h ⊢
  after_results_simp
  exact h

theorem at2_arg20 (V : Valuation τ sig (Elt F)) : W2 V (Proc.devRef .tc main_arg20) = V (Proc.devRef .tc main_arg20) := by
  unfold W2
  have h := at1_arg20 V
  generalize W1 V = W at h ⊢
  after_results_simp
  exact h

theorem at2_arg21 (V : Valuation τ sig (Elt F)) : W2 V (Proc.devRef .tc main_arg21) = V (Proc.devRef .tc main_arg21) := by
  unfold W2
  have h := at1_arg21 V
  generalize W1 V = W at h ⊢
  after_results_simp
  exact h

theorem at2_v77 (V : Valuation τ sig (Elt F)) : W2 V (Proc.devRef .tc main_v77) = Cert.ReferenceIdeal.Read.val_main_v77 (F := F) (V (Proc.devRef .tc main_arg0)) (V (Proc.devRef .tc main_arg2)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold W2
  have h0 := at1_v47 V
  have h1 := at1_arg10 V
  have h2 := at1_arg11 V
  have h3 := at1_arg12 V
  have h4 := at1_arg13 V
  generalize W1 V = W at h0 h1 h2 h3 h4 ⊢
  after_results_simp
  simp only [h0, h1, h2, h3, h4]
  rfl

theorem at2_arg22 (V : Valuation τ sig (Elt F)) : W2 V (Proc.devRef .tc main_arg22) = V (Proc.devRef .tc main_arg22) := by
  unfold W2
  have h := at1_arg22 V
  generalize W1 V = W at h ⊢
  after_results_simp
  exact h

theorem at2_arg23 (V : Valuation τ sig (Elt F)) : W2 V (Proc.devRef .tc main_arg23) = V (Proc.devRef .tc main_arg23) := by
  unfold W2
  have h := at1_arg23 V
  generalize W1 V = W at h ⊢
  after_results_simp
  exact h

theorem at2_arg24 (V : Valuation τ sig (Elt F)) : W2 V (Proc.devRef .tc main_arg24) = V (Proc.devRef .tc main_arg24) := by
  unfold W2
  have h := at1_arg24 V
  generalize W1 V = W at h ⊢
  after_results_simp
  exact h

theorem at2_arg25 (V : Valuation τ sig (Elt F)) : W2 V (Proc.devRef .tc main_arg25) = V (Proc.devRef .tc main_arg25) := by
  unfold W2
  have h := at1_arg25 V
  generalize W1 V = W at h ⊢
  after_results_simp
  exact h

/-! ### After piece 3 -/

/-- The contents after the first 4 pieces of the list. -/
def W3 (V : Valuation τ sig (Elt F)) : Valuation τ sig (Elt F) := after opsC3 (W2 V)

theorem at3_v99 (V : Valuation τ sig (Elt F)) : W3 V (Proc.devRef .tc main_v99) = Cert.ReferenceIdeal.Read.val_main_v99 (F := F) (V (Proc.devRef .tc main_arg0)) (V (Proc.devRef .tc main_arg1)) (V (Proc.devRef .tc main_arg3)) (V (Proc.devRef .tc main_arg5)) (V (Proc.devRef .tc main_arg14)) (V (Proc.devRef .tc main_arg15)) := by
  unfold W3
  have h0 := at2_arg3 V
  have h1 := at2_arg1 V
  have h2 := at2_arg5 V
  have h3 := at2_arg0 V
  have h4 := at2_arg14 V
  have h5 := at2_arg15 V
  generalize W2 V = W at h0 h1 h2 h3 h4 h5 ⊢
  after_results_simp
  simp only [h0, h1, h2, h3, h4, h5]
  rfl

theorem at3_arg16 (V : Valuation τ sig (Elt F)) : W3 V (Proc.devRef .tc main_arg16) = V (Proc.devRef .tc main_arg16) := by
  unfold W3
  have h := at2_arg16 V
  generalize W2 V = W at h ⊢
  after_results_simp
  exact h

theorem at3_arg17 (V : Valuation τ sig (Elt F)) : W3 V (Proc.devRef .tc main_arg17) = V (Proc.devRef .tc main_arg17) := by
  unfold W3
  have h := at2_arg17 V
  generalize W2 V = W at h ⊢
  after_results_simp
  exact h

theorem at3_arg18 (V : Valuation τ sig (Elt F)) : W3 V (Proc.devRef .tc main_arg18) = V (Proc.devRef .tc main_arg18) := by
  unfold W3
  have h := at2_arg18 V
  generalize W2 V = W at h ⊢
  after_results_simp
  exact h

theorem at3_arg19 (V : Valuation τ sig (Elt F)) : W3 V (Proc.devRef .tc main_arg19) = V (Proc.devRef .tc main_arg19) := by
  unfold W3
  have h := at2_arg19 V
  generalize W2 V = W at h ⊢
  after_results_simp
  exact h

theorem at3_arg20 (V : Valuation τ sig (Elt F)) : W3 V (Proc.devRef .tc main_arg20) = V (Proc.devRef .tc main_arg20) := by
  unfold W3
  have h := at2_arg20 V
  generalize W2 V = W at h ⊢
  after_results_simp
  exact h

theorem at3_arg21 (V : Valuation τ sig (Elt F)) : W3 V (Proc.devRef .tc main_arg21) = V (Proc.devRef .tc main_arg21) := by
  unfold W3
  have h := at2_arg21 V
  generalize W2 V = W at h ⊢
  after_results_simp
  exact h

theorem at3_v77 (V : Valuation τ sig (Elt F)) : W3 V (Proc.devRef .tc main_v77) = Cert.ReferenceIdeal.Read.val_main_v77 (F := F) (V (Proc.devRef .tc main_arg0)) (V (Proc.devRef .tc main_arg2)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold W3
  have h := at2_v77 V
  generalize W2 V = W at h ⊢
  after_results_simp
  exact h

theorem at3_arg22 (V : Valuation τ sig (Elt F)) : W3 V (Proc.devRef .tc main_arg22) = V (Proc.devRef .tc main_arg22) := by
  unfold W3
  have h := at2_arg22 V
  generalize W2 V = W at h ⊢
  after_results_simp
  exact h

theorem at3_arg23 (V : Valuation τ sig (Elt F)) : W3 V (Proc.devRef .tc main_arg23) = V (Proc.devRef .tc main_arg23) := by
  unfold W3
  have h := at2_arg23 V
  generalize W2 V = W at h ⊢
  after_results_simp
  exact h

theorem at3_arg24 (V : Valuation τ sig (Elt F)) : W3 V (Proc.devRef .tc main_arg24) = V (Proc.devRef .tc main_arg24) := by
  unfold W3
  have h := at2_arg24 V
  generalize W2 V = W at h ⊢
  after_results_simp
  exact h

theorem at3_arg25 (V : Valuation τ sig (Elt F)) : W3 V (Proc.devRef .tc main_arg25) = V (Proc.devRef .tc main_arg25) := by
  unfold W3
  have h := at2_arg25 V
  generalize W2 V = W at h ⊢
  after_results_simp
  exact h

/-! ### After piece 4 -/

/-- The contents after the first 5 pieces of the list. -/
def W4 (V : Valuation τ sig (Elt F)) : Valuation τ sig (Elt F) := after opsC4 (W3 V)

theorem at4_v125 (V : Valuation τ sig (Elt F)) : W4 V (Proc.devRef .tc main_v125) = Cert.ReferenceIdeal.Read.val_main_v125 (F := F) (V (Proc.devRef .tc main_arg0)) (V (Proc.devRef .tc main_arg1)) (V (Proc.devRef .tc main_arg3)) (V (Proc.devRef .tc main_arg5)) (V (Proc.devRef .tc main_arg14)) (V (Proc.devRef .tc main_arg15)) (V (Proc.devRef .tc main_arg16)) (V (Proc.devRef .tc main_arg17)) := by
  unfold W4
  have h0 := at3_v99 V
  have h1 := at3_arg16 V
  have h2 := at3_arg17 V
  generalize W3 V = W at h0 h1 h2 ⊢
  after_results_simp
  simp only [h0, h1, h2]
  rfl

theorem at4_arg18 (V : Valuation τ sig (Elt F)) : W4 V (Proc.devRef .tc main_arg18) = V (Proc.devRef .tc main_arg18) := by
  unfold W4
  have h := at3_arg18 V
  generalize W3 V = W at h ⊢
  after_results_simp
  exact h

theorem at4_arg19 (V : Valuation τ sig (Elt F)) : W4 V (Proc.devRef .tc main_arg19) = V (Proc.devRef .tc main_arg19) := by
  unfold W4
  have h := at3_arg19 V
  generalize W3 V = W at h ⊢
  after_results_simp
  exact h

theorem at4_arg20 (V : Valuation τ sig (Elt F)) : W4 V (Proc.devRef .tc main_arg20) = V (Proc.devRef .tc main_arg20) := by
  unfold W4
  have h := at3_arg20 V
  generalize W3 V = W at h ⊢
  after_results_simp
  exact h

theorem at4_arg21 (V : Valuation τ sig (Elt F)) : W4 V (Proc.devRef .tc main_arg21) = V (Proc.devRef .tc main_arg21) := by
  unfold W4
  have h := at3_arg21 V
  generalize W3 V = W at h ⊢
  after_results_simp
  exact h

theorem at4_v77 (V : Valuation τ sig (Elt F)) : W4 V (Proc.devRef .tc main_v77) = Cert.ReferenceIdeal.Read.val_main_v77 (F := F) (V (Proc.devRef .tc main_arg0)) (V (Proc.devRef .tc main_arg2)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold W4
  have h := at3_v77 V
  generalize W3 V = W at h ⊢
  after_results_simp
  exact h

theorem at4_arg22 (V : Valuation τ sig (Elt F)) : W4 V (Proc.devRef .tc main_arg22) = V (Proc.devRef .tc main_arg22) := by
  unfold W4
  have h := at3_arg22 V
  generalize W3 V = W at h ⊢
  after_results_simp
  exact h

theorem at4_arg23 (V : Valuation τ sig (Elt F)) : W4 V (Proc.devRef .tc main_arg23) = V (Proc.devRef .tc main_arg23) := by
  unfold W4
  have h := at3_arg23 V
  generalize W3 V = W at h ⊢
  after_results_simp
  exact h

theorem at4_arg24 (V : Valuation τ sig (Elt F)) : W4 V (Proc.devRef .tc main_arg24) = V (Proc.devRef .tc main_arg24) := by
  unfold W4
  have h := at3_arg24 V
  generalize W3 V = W at h ⊢
  after_results_simp
  exact h

theorem at4_arg25 (V : Valuation τ sig (Elt F)) : W4 V (Proc.devRef .tc main_arg25) = V (Proc.devRef .tc main_arg25) := by
  unfold W4
  have h := at3_arg25 V
  generalize W3 V = W at h ⊢
  after_results_simp
  exact h

/-! ### After piece 5 -/

/-- The contents after the first 6 pieces of the list. -/
def W5 (V : Valuation τ sig (Elt F)) : Valuation τ sig (Elt F) := after opsC5 (W4 V)

theorem at5_v77 (V : Valuation τ sig (Elt F)) : W5 V (Proc.devRef .tc main_v77) = Cert.ReferenceIdeal.Read.val_main_v77 (F := F) (V (Proc.devRef .tc main_arg0)) (V (Proc.devRef .tc main_arg2)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold W5
  have h := at4_v77 V
  generalize W4 V = W at h ⊢
  after_results_simp
  exact h

theorem at5_v155 (V : Valuation τ sig (Elt F)) : W5 V (Proc.devRef .tc main_v155) = Cert.ReferenceIdeal.Read.val_main_v155 (F := F) (V (Proc.devRef .tc main_arg0)) (V (Proc.devRef .tc main_arg1)) (V (Proc.devRef .tc main_arg3)) (V (Proc.devRef .tc main_arg5)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  unfold W5
  have h0 := at4_v125 V
  have h1 := at4_arg18 V
  have h2 := at4_arg19 V
  have h3 := at4_arg20 V
  have h4 := at4_arg21 V
  generalize W4 V = W at h0 h1 h2 h3 h4 ⊢
  after_results_simp
  simp only [h0, h1, h2, h3, h4]
  rfl

theorem at5_arg22 (V : Valuation τ sig (Elt F)) : W5 V (Proc.devRef .tc main_arg22) = V (Proc.devRef .tc main_arg22) := by
  unfold W5
  have h := at4_arg22 V
  generalize W4 V = W at h ⊢
  after_results_simp
  exact h

theorem at5_arg23 (V : Valuation τ sig (Elt F)) : W5 V (Proc.devRef .tc main_arg23) = V (Proc.devRef .tc main_arg23) := by
  unfold W5
  have h := at4_arg23 V
  generalize W4 V = W at h ⊢
  after_results_simp
  exact h

theorem at5_arg24 (V : Valuation τ sig (Elt F)) : W5 V (Proc.devRef .tc main_arg24) = V (Proc.devRef .tc main_arg24) := by
  unfold W5
  have h := at4_arg24 V
  generalize W4 V = W at h ⊢
  after_results_simp
  exact h

theorem at5_arg25 (V : Valuation τ sig (Elt F)) : W5 V (Proc.devRef .tc main_arg25) = V (Proc.devRef .tc main_arg25) := by
  unfold W5
  have h := at4_arg25 V
  generalize W4 V = W at h ⊢
  after_results_simp
  exact h

/-! ### After piece 6 -/

/-- The contents after the first 7 pieces of the list. -/
def W6 (V : Valuation τ sig (Elt F)) : Valuation τ sig (Elt F) := after opsC6 (W5 V)

theorem at6_v186 (V : Valuation τ sig (Elt F)) : W6 V (Proc.devRef .tc main_v186) = Cert.ReferenceIdeal.Read.val_main_v186 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  unfold W6
  have h0 := at5_v77 V
  have h1 := at5_v155 V
  have h2 := at5_arg22 V
  have h3 := at5_arg23 V
  have h4 := at5_arg24 V
  have h5 := at5_arg25 V
  generalize W5 V = W at h0 h1 h2 h3 h4 h5 ⊢
  after_results_simp
  simp only [h0, h1, h2, h3, h4, h5]
  try rw [h0]
  try rw [h1]
  try rw [h2]
  try rw [h3]
  try rw [h4]
  try rw [h5]
  rfl

/-! ### The whole list -/

/-- After all 230 operations the result buffer holds the last stage of the arguments. -/
theorem after_ops (V : Valuation τ sig (Elt F)) :
    after (ops : List (HloOp τ sig (Elt F))) V (Proc.devRef .tc main_v186) = Cert.ReferenceIdeal.Read.val_main_v186 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  rw [ops_split]
  simp only [after_app]
  exact at6_v186 V

end Cert.ReferenceIdeal.Staged

end
-- ==== Proof.RefMain.lean ====
/-
  The two-pass program's run with its result named: every weakly fair execution ends, nothing faulting, with the result
  buffer at the last stage of the arguments and the arguments as launched.
-/
import proofs.«415859_j20203526161168_3_alg».proof.Proof.RefOps
import proofs.«415859_j20203526161168_3_alg».proof.Proof.RefRead
import proofs.«415859_j20203526161168_3_alg».proof.Proof.RefRun

set_option maxRecDepth 8192

noncomputable section

namespace Cert.ReferenceIdeal.Staged

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- No operation writes argument 0. -/
theorem kept_arg0 (V : Valuation τ sig (Elt F)) :
    after (ops : List (HloOp τ sig (Elt F))) V (Proc.devRef .tc main_arg0) = V (Proc.devRef .tc main_arg0) := by
  after_results_simp
/-- No operation writes argument 1. -/
theorem kept_arg1 (V : Valuation τ sig (Elt F)) :
    after (ops : List (HloOp τ sig (Elt F))) V (Proc.devRef .tc main_arg1) = V (Proc.devRef .tc main_arg1) := by
  after_results_simp
/-- No operation writes argument 2. -/
theorem kept_arg2 (V : Valuation τ sig (Elt F)) :
    after (ops : List (HloOp τ sig (Elt F))) V (Proc.devRef .tc main_arg2) = V (Proc.devRef .tc main_arg2) := by
  after_results_simp
/-- No operation writes argument 3. -/
theorem kept_arg3 (V : Valuation τ sig (Elt F)) :
    after (ops : List (HloOp τ sig (Elt F))) V (Proc.devRef .tc main_arg3) = V (Proc.devRef .tc main_arg3) := by
  after_results_simp
/-- No operation writes argument 4. -/
theorem kept_arg4 (V : Valuation τ sig (Elt F)) :
    after (ops : List (HloOp τ sig (Elt F))) V (Proc.devRef .tc main_arg4) = V (Proc.devRef .tc main_arg4) := by
  after_results_simp
/-- No operation writes argument 5. -/
theorem kept_arg5 (V : Valuation τ sig (Elt F)) :
    after (ops : List (HloOp τ sig (Elt F))) V (Proc.devRef .tc main_arg5) = V (Proc.devRef .tc main_arg5) := by
  after_results_simp
/-- No operation writes argument 6. -/
theorem kept_arg6 (V : Valuation τ sig (Elt F)) :
    after (ops : List (HloOp τ sig (Elt F))) V (Proc.devRef .tc main_arg6) = V (Proc.devRef .tc main_arg6) := by
  after_results_simp
/-- No operation writes argument 7. -/
theorem kept_arg7 (V : Valuation τ sig (Elt F)) :
    after (ops : List (HloOp τ sig (Elt F))) V (Proc.devRef .tc main_arg7) = V (Proc.devRef .tc main_arg7) := by
  after_results_simp
/-- No operation writes argument 8. -/
theorem kept_arg8 (V : Valuation τ sig (Elt F)) :
    after (ops : List (HloOp τ sig (Elt F))) V (Proc.devRef .tc main_arg8) = V (Proc.devRef .tc main_arg8) := by
  after_results_simp
/-- No operation writes argument 9. -/
theorem kept_arg9 (V : Valuation τ sig (Elt F)) :
    after (ops : List (HloOp τ sig (Elt F))) V (Proc.devRef .tc main_arg9) = V (Proc.devRef .tc main_arg9) := by
  after_results_simp
/-- No operation writes argument 10. -/
theorem kept_arg10 (V : Valuation τ sig (Elt F)) :
    after (ops : List (HloOp τ sig (Elt F))) V (Proc.devRef .tc main_arg10) = V (Proc.devRef .tc main_arg10) := by
  after_results_simp
/-- No operation writes argument 11. -/
theorem kept_arg11 (V : Valuation τ sig (Elt F)) :
    after (ops : List (HloOp τ sig (Elt F))) V (Proc.devRef .tc main_arg11) = V (Proc.devRef .tc main_arg11) := by
  after_results_simp
/-- No operation writes argument 12. -/
theorem kept_arg12 (V : Valuation τ sig (Elt F)) :
    after (ops : List (HloOp τ sig (Elt F))) V (Proc.devRef .tc main_arg12) = V (Proc.devRef .tc main_arg12) := by
  after_results_simp
/-- No operation writes argument 13. -/
theorem kept_arg13 (V : Valuation τ sig (Elt F)) :
    after (ops : List (HloOp τ sig (Elt F))) V (Proc.devRef .tc main_arg13) = V (Proc.devRef .tc main_arg13) := by
  after_results_simp
/-- No operation writes argument 14. -/
theorem kept_arg14 (V : Valuation τ sig (Elt F)) :
    after (ops : List (HloOp τ sig (Elt F))) V (Proc.devRef .tc main_arg14) = V (Proc.devRef .tc main_arg14) := by
  after_results_simp
/-- No operation writes argument 15. -/
theorem kept_arg15 (V : Valuation τ sig (Elt F)) :
    after (ops : List (HloOp τ sig (Elt F))) V (Proc.devRef .tc main_arg15) = V (Proc.devRef .tc main_arg15) := by
  after_results_simp
/-- No operation writes argument 16. -/
theorem kept_arg16 (V : Valuation τ sig (Elt F)) :
    after (ops : List (HloOp τ sig (Elt F))) V (Proc.devRef .tc main_arg16) = V (Proc.devRef .tc main_arg16) := by
  after_results_simp
/-- No operation writes argument 17. -/
theorem kept_arg17 (V : Valuation τ sig (Elt F)) :
    after (ops : List (HloOp τ sig (Elt F))) V (Proc.devRef .tc main_arg17) = V (Proc.devRef .tc main_arg17) := by
  after_results_simp
/-- No operation writes argument 18. -/
theorem kept_arg18 (V : Valuation τ sig (Elt F)) :
    after (ops : List (HloOp τ sig (Elt F))) V (Proc.devRef .tc main_arg18) = V (Proc.devRef .tc main_arg18) := by
  after_results_simp
/-- No operation writes argument 19. -/
theorem kept_arg19 (V : Valuation τ sig (Elt F)) :
    after (ops : List (HloOp τ sig (Elt F))) V (Proc.devRef .tc main_arg19) = V (Proc.devRef .tc main_arg19) := by
  after_results_simp
/-- No operation writes argument 20. -/
theorem kept_arg20 (V : Valuation τ sig (Elt F)) :
    after (ops : List (HloOp τ sig (Elt F))) V (Proc.devRef .tc main_arg20) = V (Proc.devRef .tc main_arg20) := by
  after_results_simp
/-- No operation writes argument 21. -/
theorem kept_arg21 (V : Valuation τ sig (Elt F)) :
    after (ops : List (HloOp τ sig (Elt F))) V (Proc.devRef .tc main_arg21) = V (Proc.devRef .tc main_arg21) := by
  after_results_simp
/-- No operation writes argument 22. -/
theorem kept_arg22 (V : Valuation τ sig (Elt F)) :
    after (ops : List (HloOp τ sig (Elt F))) V (Proc.devRef .tc main_arg22) = V (Proc.devRef .tc main_arg22) := by
  after_results_simp
/-- No operation writes argument 23. -/
theorem kept_arg23 (V : Valuation τ sig (Elt F)) :
    after (ops : List (HloOp τ sig (Elt F))) V (Proc.devRef .tc main_arg23) = V (Proc.devRef .tc main_arg23) := by
  after_results_simp
/-- No operation writes argument 24. -/
theorem kept_arg24 (V : Valuation τ sig (Elt F)) :
    after (ops : List (HloOp τ sig (Elt F))) V (Proc.devRef .tc main_arg24) = V (Proc.devRef .tc main_arg24) := by
  after_results_simp
/-- No operation writes argument 25. -/
theorem kept_arg25 (V : Valuation τ sig (Elt F)) :
    after (ops : List (HloOp τ sig (Elt F))) V (Proc.devRef .tc main_arg25) = V (Proc.devRef .tc main_arg25) := by
  after_results_simp

/-- The run: the result at the last stage of the launch contents of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v186)
        = Cert.ReferenceIdeal.Read.val_main_v186 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v186).trans (after_ops (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c)),
      (h c main_arg14).trans (kept_arg14 (launchContents m c)),
      (h c main_arg15).trans (kept_arg15 (launchContents m c)),
      (h c main_arg16).trans (kept_arg16 (launchContents m c)),
      (h c main_arg17).trans (kept_arg17 (launchContents m c)),
      (h c main_arg18).trans (kept_arg18 (launchContents m c)),
      (h c main_arg19).trans (kept_arg19 (launchContents m c)),
      (h c main_arg20).trans (kept_arg20 (launchContents m c)),
      (h c main_arg21).trans (kept_arg21 (launchContents m c)),
      (h c main_arg22).trans (kept_arg22 (launchContents m c)),
      (h c main_arg23).trans (kept_arg23 (launchContents m c)),
      (h c main_arg24).trans (kept_arg24 (launchContents m c)),
      (h c main_arg25).trans (kept_arg25 (launchContents m c))⟩)
    (run_seq scopedRefs_eq scopedSems_eq defs main (fun _ => ops) main_eq (fun _ => ops_sub) m ρ)

end Cert.ReferenceIdeal.Staged

end
-- ==== Proof.Spec.lean ====
/-
  The mathematics of the certificate, over plain index types: a two-layer batch-normalised perceptron on each of
  two branches, the branches concatenated and passed through a third normalised linear layer.  One side computes
  each column's mean and variance in two passes over all rows; the other splits the rows into ten tiles of
  ten thousand, keeps per tile the sum and the sum of squares centred at the tile's own mean, and recombines them by
  the decomposition of the total sum of squares into its within-tile and between-tile parts.  Over the reals the
  two agree; the statement below says so for the whole network.
-/
import Idealize.ShloMosaic.PureOps.Ideal

noncomputable section

namespace Cert.Spec

open Idealize.ShloMosaic

/-- An entry is a real number (neither infinity). -/
def IsReal (x : EReal) : Prop := ∃ r : ℝ, x = (r : EReal)

/-- Row r of tile t among 100000 rows cut into ten tiles of 10000. -/
def rowOf (t : Fin 10) (r : Fin 10000) : Fin 100000 := ⟨t.val * 10000 + r.val, by omega⟩

section Layers
variable {N K C : ℕ}

/-- The residual input of a branch: the aggregated messages plus the scaled features. -/
def resid (agg x : Fin N → Fin K → EReal) (s : EReal) : Fin N → Fin K → EReal :=
  fun r k => agg r k + s * x r k

/-- A linear layer: rows times a weight matrix, plus a bias row. -/
def lin (a : Fin N → Fin K → EReal) (w : Fin K → Fin C → EReal) (b : Fin C → EReal) : Fin N → Fin C → EReal :=
  fun r j => (∑ k, a r k * w k j) + b j

/-- Two 64-wide blocks side by side. -/
def cat (a b : Fin N → Fin 64 → EReal) : Fin N → Fin 128 → EReal :=
  fun r j => if h : j.val < 64 then a r ⟨j.val, h⟩ else b r ⟨j.val - 64, by omega⟩

/-- Two 64-long rows end to end. -/
def catv (a b : Fin 64 → EReal) : Fin 128 → EReal :=
  fun j => if h : j.val < 64 then a ⟨j.val, h⟩ else b ⟨j.val - 64, by omega⟩

/-- The left and right 64 columns of a 128-wide array. -/
def leftHalf (a : Fin N → Fin 128 → EReal) : Fin N → Fin 64 → EReal := fun r j => a r ⟨j.val, by omega⟩
def rightHalf (a : Fin N → Fin 128 → EReal) : Fin N → Fin 64 → EReal := fun r j => a r ⟨j.val + 64, by omega⟩

/-- Normalise each column by a given mean and variance, scale, shift, and clip below at z (zero). -/
def bnrelu (eps z : EReal) (h : Fin N → Fin C → EReal) (mean var g be : Fin C → EReal) : Fin N → Fin C → EReal :=
  fun r j => max (((h r j - mean j) * Ideal.rsqrt (var j + eps)) * g j + be j) z
end Layers

section Stats
variable {C : ℕ} (n tn z : EReal)

/-- Two-pass column mean over all rows (a sum started at z, divided by n). -/
def rMean (h : Fin 100000 → Fin C → EReal) : Fin C → EReal :=
  fun j => Ideal.div (z + ∑ r, h r j) n

/-- Two-pass biased column variance over all rows. -/
def rVar (h : Fin 100000 → Fin C → EReal) : Fin C → EReal :=
  fun j => Ideal.div (z + ∑ r, (h r j - rMean n z h j) * (h r j - rMean n z h j)) n

/-- Per tile: the column sums. -/
def tileSum (h : Fin 100000 → Fin C → EReal) : Fin 10 → Fin C → EReal :=
  fun t j => ∑ r : Fin 10000, h (rowOf t r) j

/-- Per tile: the column sums of squares centred at the tile's own mean. -/
def tileM2 (h : Fin 100000 → Fin C → EReal) : Fin 10 → Fin C → EReal :=
  fun t j => ∑ r : Fin 10000, (h (rowOf t r) j - Ideal.div (tileSum h t j) tn) * (h (rowOf t r) j - Ideal.div (tileSum h t j) tn)

/-- The mean recombined from the tiles' sums. -/
def kMean (S : Fin 10 → Fin C → EReal) : Fin C → EReal :=
  fun j => Ideal.div (z + ∑ t, S t j) n

/-- The variance recombined from the tiles: within-tile parts plus between-tile parts, over n, clipped below at z. -/
def kVar (S M2 : Fin 10 → Fin C → EReal) : Fin C → EReal :=
  fun j => max (Ideal.div ((z + ∑ t, M2 t j)
      + (z + ∑ t, tn * ((Ideal.div (S t j) tn - kMean n z S j) * (Ideal.div (S t j) tn - kMean n z S j)))) n) z
end Stats

/-- The network's inputs as plain arrays (the two aggregated message arrays included). -/
structure Inputs where
  x : Fin 100000 → Fin 64 → EReal
  aggU : Fin 100000 → Fin 64 → EReal
  aggB : Fin 100000 → Fin 64 → EReal
  s1 : EReal
  s2 : EReal
  uw1 : Fin 64 → Fin 64 → EReal
  ub1 : Fin 64 → EReal
  ug1 : Fin 64 → EReal
  ube1 : Fin 64 → EReal
  uw2 : Fin 64 → Fin 64 → EReal
  ub2 : Fin 64 → EReal
  ug2 : Fin 64 → EReal
  ube2 : Fin 64 → EReal
  bw1 : Fin 64 → Fin 64 → EReal
  bb1 : Fin 64 → EReal
  bg1 : Fin 64 → EReal
  bbe1 : Fin 64 → EReal
  bw2 : Fin 64 → Fin 64 → EReal
  bb2 : Fin 64 → EReal
  bg2 : Fin 64 → EReal
  bbe2 : Fin 64 → EReal
  cw : Fin 128 → Fin 64 → EReal
  cb : Fin 64 → EReal
  cg : Fin 64 → EReal
  cbe : Fin 64 → EReal

/-- Every entry of every input is a real number. -/
structure Inputs.Real (I : Inputs) : Prop where
  x : ∀ r k, IsReal (I.x r k)
  aggU : ∀ r k, IsReal (I.aggU r k)
  aggB : ∀ r k, IsReal (I.aggB r k)
  s1 : IsReal I.s1
  s2 : IsReal I.s2
  uw1 : ∀ k j, IsReal (I.uw1 k j)
  ub1 : ∀ j, IsReal (I.ub1 j)
  ug1 : ∀ j, IsReal (I.ug1 j)
  ube1 : ∀ j, IsReal (I.ube1 j)
  uw2 : ∀ k j, IsReal (I.uw2 k j)
  ub2 : ∀ j, IsReal (I.ub2 j)
  ug2 : ∀ j, IsReal (I.ug2 j)
  ube2 : ∀ j, IsReal (I.ube2 j)
  bw1 : ∀ k j, IsReal (I.bw1 k j)
  bb1 : ∀ j, IsReal (I.bb1 j)
  bg1 : ∀ j, IsReal (I.bg1 j)
  bbe1 : ∀ j, IsReal (I.bbe1 j)
  bw2 : ∀ k j, IsReal (I.bw2 k j)
  bb2 : ∀ j, IsReal (I.bb2 j)
  bg2 : ∀ j, IsReal (I.bg2 j)
  bbe2 : ∀ j, IsReal (I.bbe2 j)
  cw : ∀ k j, IsReal (I.cw k j)
  cb : ∀ j, IsReal (I.cb j)
  cg : ∀ j, IsReal (I.cg j)
  cbe : ∀ j, IsReal (I.cbe j)

section Network
variable (n tn eps z : EReal) (I : Inputs)

/-! ### The tiled side: 128-wide layers, statistics recombined from tiles -/

def h1K : Fin 100000 → Fin 128 → EReal :=
  cat (lin (resid I.aggU I.x I.s1) I.uw1 I.ub1) (lin (resid I.aggB I.x I.s2) I.bw1 I.bb1)
def mean1K : Fin 128 → EReal := kMean n z (tileSum (h1K I))
def var1K : Fin 128 → EReal := kVar n tn z (tileSum (h1K I)) (tileM2 tn (h1K I))
def a1K : Fin 100000 → Fin 128 → EReal :=
  bnrelu eps z (h1K I) (mean1K n z I) (var1K n tn z I) (catv I.ug1 I.bg1) (catv I.ube1 I.bbe1)
def h2K : Fin 100000 → Fin 128 → EReal :=
  cat (lin (leftHalf (a1K n tn eps z I)) I.uw2 I.ub2) (lin (rightHalf (a1K n tn eps z I)) I.bw2 I.bb2)
def mean2K : Fin 128 → EReal := kMean n z (tileSum (h2K n tn eps z I))
def var2K : Fin 128 → EReal := kVar n tn z (tileSum (h2K n tn eps z I)) (tileM2 tn (h2K n tn eps z I))
def a2K : Fin 100000 → Fin 128 → EReal :=
  bnrelu eps z (h2K n tn eps z I) (mean2K n tn eps z I) (var2K n tn eps z I) (catv I.ug2 I.bg2) (catv I.ube2 I.bbe2)
def hcK : Fin 100000 → Fin 64 → EReal := lin (a2K n tn eps z I) I.cw I.cb
def meancK : Fin 64 → EReal := kMean n z (tileSum (hcK n tn eps z I))
def varcK : Fin 64 → EReal := kVar n tn z (tileSum (hcK n tn eps z I)) (tileM2 tn (hcK n tn eps z I))
def outK : Fin 100000 → Fin 64 → EReal :=
  bnrelu eps z (hcK n tn eps z I) (meancK n tn eps z I) (varcK n tn eps z I) I.cg I.cbe

/-! ### The two-pass side: each branch 64 wide, statistics over all rows -/

def bnR {C : ℕ} (h : Fin 100000 → Fin C → EReal) (g be : Fin C → EReal) : Fin 100000 → Fin C → EReal :=
  bnrelu eps z h (rMean n z h) (rVar n z h) g be
def outUR : Fin 100000 → Fin 64 → EReal :=
  bnR n eps z (lin (bnR n eps z (lin (resid I.aggU I.x I.s1) I.uw1 I.ub1) I.ug1 I.ube1) I.uw2 I.ub2) I.ug2 I.ube2
def outBR : Fin 100000 → Fin 64 → EReal :=
  bnR n eps z (lin (bnR n eps z (lin (resid I.aggB I.x I.s2) I.bw1 I.bb1) I.bg1 I.bbe1) I.bw2 I.bb2) I.bg2 I.bbe2
def outR : Fin 100000 → Fin 64 → EReal :=
  bnR n eps z (lin (cat (outUR n eps z I) (outBR n eps z I)) I.cw I.cb) I.cg I.cbe

end Network

end Cert.Spec

end
-- ==== Proof.Conv.lean ====
/-
  Reading arrays of literal shapes as plain functions of their coordinates, and back; and the four float
  constants the programs spell, with the real numbers they denote.
-/
import Idealize.ShloMosaic.PureOps.Ideal
import Idealize.ShloMosaic.Lib.ValueIdx

noncomputable section

namespace Cert.Conv

open Idealize.ShloMosaic Idealize.ShloMosaic.ValueIdx

/-- A matrix read by row and column. -/
def toM {a b : ℕ} (v : (⟨2, ![a, b]⟩ : Shape).Idx → EReal) : Fin a → Fin b → EReal := fun r k => v (ix2 r k)
/-- A function of row and column as a matrix. -/
def ofM {a b : ℕ} (f : Fin a → Fin b → EReal) : (⟨2, ![a, b]⟩ : Shape).Idx → EReal := fun i => f (i 0) (i 1)
/-- A one-row matrix read by column. -/
def rowV {b : ℕ} (v : (⟨2, ![1, b]⟩ : Shape).Idx → EReal) : Fin b → EReal := fun j => v (ix2 0 j)
/-- A function of the column as a one-row matrix. -/
def ofRow {b : ℕ} (f : Fin b → EReal) : (⟨2, ![1, b]⟩ : Shape).Idx → EReal := fun i => f (i 1)
/-- A vector read by position. -/
def vec1 {b : ℕ} (v : (⟨1, ![b]⟩ : Shape).Idx → EReal) : Fin b → EReal := fun j => v (ix1 j)
/-- Ten one-row tiles read by tile and column. -/
def tiles {b : ℕ} (v : (⟨3, ![10, 1, b]⟩ : Shape).Idx → EReal) : Fin 10 → Fin b → EReal := fun t j => v (ix3 t 0 j)
/-- A function of tile and column as ten one-row tiles. -/
def ofTiles {b : ℕ} (f : Fin 10 → Fin b → EReal) : (⟨3, ![10, 1, b]⟩ : Shape).Idx → EReal := fun i => f (i 0) (i 2)
/-- The one entry of a 1×1 matrix. -/
def sc (v : (⟨2, ![1, 1]⟩ : Shape).Idx → EReal) : EReal := v (ix2 0 0)
/-- The one entry of a rank-0 array. -/
def sc0 (v : (⟨0, ![]⟩ : Shape).Idx → EReal) : EReal := v ix0

theorem toM_ofM {a b : ℕ} (f : Fin a → Fin b → EReal) : toM (ofM f) = f := rfl
theorem ofM_toM {a b : ℕ} (v : (⟨2, ![a, b]⟩ : Shape).Idx → EReal) : ofM (toM v) = v :=
  funext fun i => congrArg v (eq_ix2 i).symm
theorem rowV_ofRow {b : ℕ} (f : Fin b → EReal) : rowV (ofRow f) = f := rfl
theorem tiles_ofTiles {b : ℕ} (f : Fin 10 → Fin b → EReal) : tiles (ofTiles f) = f := rfl

/-- The row count 100000, the tile height 10000, the variance floor and zero, as the programs spell them. -/
abbrev cN : EReal := Ideal.ofBits .f32 0x47C35000#32
abbrev cT : EReal := Ideal.ofBits .f32 0x461C4000#32
abbrev cEps : EReal := Ideal.ofBits .f32 0x3727C5AC#32
abbrev cZ : EReal := Ideal.ofBits .f32 0x00000000#32
abbrev cOne : EReal := Ideal.ofBits .f32 0x3F800000#32

theorem cN_eq : cN = ((100000 : ℝ) : EReal) := by
  simp [cN, Ideal.ofBits, Ideal.ieee, -EReal.coe_mul]; norm_num
theorem cT_eq : cT = ((10000 : ℝ) : EReal) := by
  simp [cT, Ideal.ofBits, Ideal.ieee, -EReal.coe_mul]; norm_num
theorem cZ_eq : cZ = 0 := by
  simp [cZ, Ideal.ofBits, Ideal.ieee]
theorem cOne_eq : cOne = 1 := by
  simp [cOne, Ideal.ofBits, Ideal.ieee, -EReal.coe_mul]; norm_num
theorem cEps_pos : ∃ e : ℝ, 0 < e ∧ cEps = (e : EReal) := by
  refine ⟨_, ?_, by simp [cEps, Ideal.ofBits, Ideal.ieee, -EReal.coe_mul]; rfl⟩
  norm_num

end Cert.Conv

end
-- ==== Proof.Inputs.lean ====
/-
  The network's inputs gathered from arrays of the programs' literal shapes.
-/
import proofs.«415859_j20203526161168_3_alg».proof.Proof.Spec
import proofs.«415859_j20203526161168_3_alg».proof.Proof.Conv

noncomputable section

namespace Cert.Conv

open Idealize.ShloMosaic Idealize.ShloMosaic.ValueIdx Cert.Spec

abbrev A100000x64 : Type := (⟨2, ![100000, 64]⟩ : Shape).Idx → EReal
abbrev A64x64 : Type := (⟨2, ![64, 64]⟩ : Shape).Idx → EReal
abbrev A128x64 : Type := (⟨2, ![128, 64]⟩ : Shape).Idx → EReal
abbrev A64 : Type := (⟨1, ![64]⟩ : Shape).Idx → EReal
abbrev A0 : Type := (⟨0, ![]⟩ : Shape).Idx → EReal

/-- The inputs of the network from the programs' arrays: the features, the two aggregated message arrays, the two
    scalars whose successors scale the features, and the twenty weight arrays in the order of the signature. -/
def mkInputs (x aggU aggB : A100000x64) (e1 e2 : A0)
    (uw1 : A64x64) (ub1 ug1 ube1 : A64) (uw2 : A64x64) (ub2 ug2 ube2 : A64)
    (bw1 : A64x64) (bb1 bg1 bbe1 : A64) (bw2 : A64x64) (bb2 bg2 bbe2 : A64)
    (cw : A128x64) (cb cg cbe : A64) : Inputs where
  x := toM x
  aggU := toM aggU
  aggB := toM aggB
  s1 := cOne + sc0 e1
  s2 := cOne + sc0 e2
  uw1 := toM uw1
  ub1 := vec1 ub1
  ug1 := vec1 ug1
  ube1 := vec1 ube1
  uw2 := toM uw2
  ub2 := vec1 ub2
  ug2 := vec1 ug2
  ube2 := vec1 ube2
  bw1 := toM bw1
  bb1 := vec1 bb1
  bg1 := vec1 bg1
  bbe1 := vec1 bbe1
  bw2 := toM bw2
  bb2 := vec1 bb2
  bg2 := vec1 bg2
  bbe2 := vec1 bbe2
  cw := toM cw
  cb := vec1 cb
  cg := vec1 cg
  cbe := vec1 cbe

end Cert.Conv

end
-- ==== Proof.Entry.lean ====
/-
  The host operations before the first tiled layer: the two aggregated message arrays (rows gathered by one index row, added into the rows another index row names), the two scale factors, and the bias rows reshaped.
-/
import proofs.«415859_j20203526161168_3_alg».proof.Proof.Gen.KernelIdeal.Launch
import proofs.«415859_j20203526161168_3_alg».proof.Proof.Spec
import proofs.«415859_j20203526161168_3_alg».proof.Proof.Conv
import Idealize.ShloMosaic.Lib.StableHlo.Run

set_option maxRecDepth 16384

noncomputable section

namespace Cert.KernelIdeal.Entry

open Idealize.ShloMosaic Idealize.ShloMosaic.TcCoe Idealize.ShloMosaic.ValueIdx Idealize.SL.Sem Idealize.ShloMosaic.StableHlo
open Cert.KernelIdeal Cert.KernelIdeal.Gen Cert.Spec Cert.Conv

variable (W : Valuation τ sig (Elt Ideal))

/-- The aggregated messages of the first branch: rows of the features gathered by the second index row and added
    into the rows the first index row names. A negative gathering index counts from the end (100000 is added to it);
    the rows are added into an array of zeros. -/
def aggU (x : Vec Ideal S100000x64 .f32) (ui : IVec S2x3200000 32) : Vec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0
      (shapeCast S3200000 (extractStridedSlice S1x3200000 ![0, 0] ui slices_S2x3200000_S1x3200000_0_0)
        shapeCasts_S1x3200000_S3200000))
    (Host.gather gather_S100000x64_S3200000x1_S3200000x64_1_0_n_n_0_1_164 x
      (broadcastInDim S3200000x1 ![0] bcast_S3200000_S3200000x1_0
        (select
          (cmpi .slt
            (shapeCast S3200000 (extractStridedSlice S1x3200000 ![1, 0] ui slices_S2x3200000_S1x3200000_1_0)
              shapeCasts_S1x3200000_S3200000)
            (broadcastInDim S3200000 ![] bcast_S_S3200000 (constantI S_ 32 0#32)))
          (addi
            (shapeCast S3200000 (extractStridedSlice S1x3200000 ![1, 0] ui slices_S2x3200000_S1x3200000_1_0)
              shapeCasts_S1x3200000_S3200000)
            (broadcastInDim S3200000 ![] bcast_S_S3200000 (constantI S_ 32 100000#32)))
          (shapeCast S3200000 (extractStridedSlice S1x3200000 ![1, 0] ui slices_S2x3200000_S1x3200000_1_0)
            shapeCasts_S1x3200000_S3200000))))

/-- The aggregated messages of the second branch: rows of the boundary features gathered by the first index row and
    added into the rows the second index row names. A negative gathering index counts from the end (100000 is added
    to it); the rows are added into an array of zeros. -/
def aggB (y : Vec Ideal S100000x64 .f32) (bi : IVec S2x300000 32) : Vec Ideal S100000x64 .f32 :=
  Host.scatterAdd scatter_S100000x64_S300000x1_S300000x64_1_0_0_1
    (broadcastInDim S100000x64 ![] bcast_S_S100000x64 (constant (F := Ideal) S_ .f32 0x00000000#32))
    (broadcastInDim S300000x1 ![0] bcast_S300000_S300000x1_0
      (shapeCast S300000 (extractStridedSlice S1x300000 ![1, 0] bi slices_S2x300000_S1x300000_1_0)
        shapeCasts_S1x300000_S300000))
    (Host.gather gather_S100000x64_S300000x1_S300000x64_1_0_n_n_0_1_164 y
      (broadcastInDim S300000x1 ![0] bcast_S300000_S300000x1_0
        (select
          (cmpi .slt
            (shapeCast S300000 (extractStridedSlice S1x300000 ![0, 0] bi slices_S2x300000_S1x300000_0_0)
              shapeCasts_S1x300000_S300000)
            (broadcastInDim S300000 ![] bcast_S_S300000 (constantI S_ 32 0#32)))
          (addi
            (shapeCast S300000 (extractStridedSlice S1x300000 ![0, 0] bi slices_S2x300000_S1x300000_0_0)
              shapeCasts_S1x300000_S300000)
            (broadcastInDim S300000 ![] bcast_S_S300000 (constantI S_ 32 100000#32)))
          (shapeCast S300000 (extractStridedSlice S1x300000 ![0, 0] bi slices_S2x300000_S1x300000_0_0)
            shapeCasts_S1x300000_S300000))))

theorem e_aggU (x : Vec Ideal S100000x64 .f32) (ui : IVec S2x3200000 32)
    (hx : W (Proc.devRef .tc main_arg0) = x) (hi : W (Proc.devRef .tc main_arg2) = ui) :
    StableHlo.after hostOps0 W (Proc.devRef .tc main_v13) = aggU x ui := by
  subst hx hi
  show StableHlo.after hostOps0 W (Proc.devRef .tc main_v13) = _
  simp only [hostOps0]
  after_results_simp
  rfl

theorem e_aggB (y : Vec Ideal S100000x64 .f32) (bi : IVec S2x300000 32)
    (hy : W (Proc.devRef .tc main_arg1) = y) (hi : W (Proc.devRef .tc main_arg3) = bi) :
    StableHlo.after hostOps0 W (Proc.devRef .tc main_v27) = aggB y bi := by
  subst hy hi
  show StableHlo.after hostOps0 W (Proc.devRef .tc main_v27) = _
  simp only [hostOps0]
  after_results_simp
  rfl

/-- A sum of two real entries is real. -/
private theorem isReal_add {a b : EReal} (ha : IsReal a) (hb : IsReal b) : IsReal (a + b) := by
  obtain ⟨r, rfl⟩ := ha; obtain ⟨s, rfl⟩ := hb; exact ⟨r + s, (EReal.coe_add r s).symm⟩

/-- A finite sum of real entries is real. -/
private theorem isReal_sum {ι : Type} (s : Finset ι) (f : ι → EReal) (h : ∀ j, IsReal (f j)) : IsReal (∑ j ∈ s, f j) := by
  classical
  induction s using Finset.induction_on with
  | empty => exact ⟨0, by simp⟩
  | insert a s ha ih => rw [Finset.sum_insert ha]; exact isReal_add (h a) ih

/-- Rows added into an array of real entries, the rows real too, give real entries. -/
private theorem scatterAdd_real {s si su : Shape} {w : Nat} (d : ScatterDims s si su) (X : FVec Ideal s .f32) (idx : IVec si w)
    (upd : FVec Ideal su .f32) (hX : ∀ i, IsReal (X i)) (hu : ∀ j, IsReal (upd j)) (i : s.Idx) :
    IsReal (Host.scatterAdd (F := Ideal) (φ := .f32) d X idx upd i) := by
  show IsReal (Ideal.hostScatterAdd d X idx upd i)
  unfold Ideal.hostScatterAdd
  exact isReal_add (hX i) (isReal_sum _ _ hu)

/-- The zero array's entries are real. -/
private theorem zeros_real (i : S100000x64.Idx) :
    IsReal (broadcastInDim S100000x64 ![] bcast_S_S100000x64 (constant (F := Ideal) S_ .f32 0x00000000#32) i) := by
  show IsReal cZ
  exact ⟨0, cZ_eq⟩

/-- Sums of real entries are real: the aggregated arrays are real where the gathered array is. -/
theorem aggU_real (x : Vec Ideal S100000x64 .f32) (ui : IVec S2x3200000 32) (hx : ∀ i, IsReal (x i)) :
    ∀ i, IsReal (aggU x ui i) :=
  scatterAdd_real _ _ _ _ zeros_real fun j => hx _

theorem aggB_real (y : Vec Ideal S100000x64 .f32) (bi : IVec S2x300000 32) (hy : ∀ i, IsReal (y i)) :
    ∀ i, IsReal (aggB y bi i) :=
  scatterAdd_real _ _ _ _ zeros_real fun j => hy _

/-- A 64-long vector recast as one row, read by column. -/
private theorem reshape_row (a : Vec Ideal S64 .f32) :
    (fun i => shapeCast S1x64 a shapeCasts_S64_S1x64 i) = ofRow (vec1 a) := by
  funext i
  show a (Shape.reshapeEquiv shapeCasts_S64_S1x64 i) = a (ix1 (i 1))
  refine congrArg a (Shape.reshapeEquiv_eq_of_rowMajor _ ?_)
  rewrite [Shape.rowMajor_val_two, Shape.rowMajor_val_one]
  have h0 : (i 0).val < 1 := (i 0).isLt
  show (i 1).val = (i 0).val * 64 + (i 1).val
  omega

/-- One plus a scalar, recast as a 1×1 array. -/
private theorem reshape_one_add (e : Vec Ideal S_ .f32) :
    (fun i => shapeCast S1x1 (addf (constant (F := Ideal) S_ .f32 0x3F800000#32) e) shapeCasts_S_S1x1 i)
      = fun _ => cOne + sc0 e := by
  funext i
  show cOne + e (Shape.reshapeEquiv shapeCasts_S_S1x1 i) = cOne + e ix0
  rw [eq_ix0 (Shape.reshapeEquiv shapeCasts_S_S1x1 i)]

theorem e_s1 (e : Vec Ideal S_ .f32) (he : W (Proc.devRef .tc main_arg4) = e) :
    StableHlo.after hostOps0 W (Proc.devRef .tc main_v29) = fun _ => cOne + sc0 e := by
  subst he
  show StableHlo.after hostOps0 W (Proc.devRef .tc main_v29) = _
  simp only [hostOps0]
  after_results_simp
  exact reshape_one_add _

theorem e_s2 (e : Vec Ideal S_ .f32) (he : W (Proc.devRef .tc main_arg5) = e) :
    StableHlo.after hostOps0 W (Proc.devRef .tc main_v31) = fun _ => cOne + sc0 e := by
  subst he
  show StableHlo.after hostOps0 W (Proc.devRef .tc main_v31) = _
  simp only [hostOps0]
  after_results_simp
  exact reshape_one_add _

theorem e_ub1 (a : Vec Ideal S64 .f32) (ha : W (Proc.devRef .tc main_arg7) = a) :
    StableHlo.after hostOps0 W (Proc.devRef .tc main_v32) = ofRow (vec1 a) := by
  subst ha
  show StableHlo.after hostOps0 W (Proc.devRef .tc main_v32) = _
  simp only [hostOps0]
  after_results_simp
  exact reshape_row _

theorem e_bb1 (a : Vec Ideal S64 .f32) (ha : W (Proc.devRef .tc main_arg15) = a) :
    StableHlo.after hostOps0 W (Proc.devRef .tc main_v33) = ofRow (vec1 a) := by
  subst ha
  show StableHlo.after hostOps0 W (Proc.devRef .tc main_v33) = _
  simp only [hostOps0]
  after_results_simp
  exact reshape_row _

theorem e_ub2 (a : Vec Ideal S64 .f32) (ha : W (Proc.devRef .tc main_arg11) = a) :
    StableHlo.after hostOps0 W (Proc.devRef .tc main_v34) = ofRow (vec1 a) := by
  subst ha
  show StableHlo.after hostOps0 W (Proc.devRef .tc main_v34) = _
  simp only [hostOps0]
  after_results_simp
  exact reshape_row _

theorem e_bb2 (a : Vec Ideal S64 .f32) (ha : W (Proc.devRef .tc main_arg19) = a) :
    StableHlo.after hostOps0 W (Proc.devRef .tc main_v35) = ofRow (vec1 a) := by
  subst ha
  show StableHlo.after hostOps0 W (Proc.devRef .tc main_v35) = _
  simp only [hostOps0]
  after_results_simp
  exact reshape_row _

theorem e_cb (a : Vec Ideal S64 .f32) (ha : W (Proc.devRef .tc main_arg23) = a) :
    StableHlo.after hostOps0 W (Proc.devRef .tc main_v36) = ofRow (vec1 a) := by
  subst ha
  show StableHlo.after hostOps0 W (Proc.devRef .tc main_v36) = _
  simp only [hostOps0]
  after_results_simp
  exact reshape_row _

/-- A buffer none of these operations writes keeps its contents: each operation's result buffer is another one. -/
local macro "not_written " r:ident : tactic =>
  `(tactic| exact StableHlo.after_of_forall_not_mem (b := Proc.devRef .tc $r) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem e_keep_arg0 : StableHlo.after hostOps0 W (Proc.devRef .tc main_arg0) = W (Proc.devRef .tc main_arg0) := by
  not_written main_arg0

theorem e_keep_arg6 : StableHlo.after hostOps0 W (Proc.devRef .tc main_arg6) = W (Proc.devRef .tc main_arg6) := by
  not_written main_arg6

theorem e_keep_arg14 : StableHlo.after hostOps0 W (Proc.devRef .tc main_arg14) = W (Proc.devRef .tc main_arg14) := by
  not_written main_arg14

theorem e_keep_arg8 : StableHlo.after hostOps0 W (Proc.devRef .tc main_arg8) = W (Proc.devRef .tc main_arg8) := by
  not_written main_arg8

theorem e_keep_arg16 : StableHlo.after hostOps0 W (Proc.devRef .tc main_arg16) = W (Proc.devRef .tc main_arg16) := by
  not_written main_arg16

theorem e_keep_arg9 : StableHlo.after hostOps0 W (Proc.devRef .tc main_arg9) = W (Proc.devRef .tc main_arg9) := by
  not_written main_arg9

theorem e_keep_arg17 : StableHlo.after hostOps0 W (Proc.devRef .tc main_arg17) = W (Proc.devRef .tc main_arg17) := by
  not_written main_arg17

theorem e_keep_arg10 : StableHlo.after hostOps0 W (Proc.devRef .tc main_arg10) = W (Proc.devRef .tc main_arg10) := by
  not_written main_arg10

theorem e_keep_arg18 : StableHlo.after hostOps0 W (Proc.devRef .tc main_arg18) = W (Proc.devRef .tc main_arg18) := by
  not_written main_arg18

theorem e_keep_arg12 : StableHlo.after hostOps0 W (Proc.devRef .tc main_arg12) = W (Proc.devRef .tc main_arg12) := by
  not_written main_arg12

theorem e_keep_arg20 : StableHlo.after hostOps0 W (Proc.devRef .tc main_arg20) = W (Proc.devRef .tc main_arg20) := by
  not_written main_arg20

theorem e_keep_arg13 : StableHlo.after hostOps0 W (Proc.devRef .tc main_arg13) = W (Proc.devRef .tc main_arg13) := by
  not_written main_arg13

theorem e_keep_arg21 : StableHlo.after hostOps0 W (Proc.devRef .tc main_arg21) = W (Proc.devRef .tc main_arg21) := by
  not_written main_arg21

theorem e_keep_arg22 : StableHlo.after hostOps0 W (Proc.devRef .tc main_arg22) = W (Proc.devRef .tc main_arg22) := by
  not_written main_arg22

theorem e_keep_arg24 : StableHlo.after hostOps0 W (Proc.devRef .tc main_arg24) = W (Proc.devRef .tc main_arg24) := by
  not_written main_arg24

theorem e_keep_arg25 : StableHlo.after hostOps0 W (Proc.devRef .tc main_arg25) = W (Proc.devRef .tc main_arg25) := by
  not_written main_arg25

end Cert.KernelIdeal.Entry

end
-- ==== Proof.Stats.lean ====
/-
  The host operations between the tiled layers: the tiles' sums and centred sums of squares recombined into each column's mean and variance, and the scale and shift rows of the two branches joined end to end.
-/
import proofs.«415859_j20203526161168_3_alg».proof.Proof.Gen.KernelIdeal.Launch
import proofs.«415859_j20203526161168_3_alg».proof.Proof.Spec
import proofs.«415859_j20203526161168_3_alg».proof.Proof.Conv
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Stats

open Idealize.ShloMosaic Idealize.ShloMosaic.TcCoe Idealize.ShloMosaic.ValueIdx Idealize.SL.Sem Idealize.ShloMosaic.StableHlo
open Cert.KernelIdeal Cert.KernelIdeal.Gen Cert.Spec Cert.Conv

/-- A buffer that none of the listed operations writes holds afterwards what it held before: each operation's
    one written buffer is a different reference. -/
macro "not_written" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.reshape_writes, Finset.mem_singleton]
             repeat' apply And.intro
             all_goals exact StableHlo.devRef_ne_of_ne (by decide)))

/-! ### Reading the layout operations and the tile sum at coordinates -/

section Read
variable {C : ℕ}

/-- Ten one-row tiles flattened to ten rows: row t, column j is tile t's column j. -/
theorem flat_read (x : FVec Ideal ⟨3, ![10, 1, C]⟩ .f32) (h : (⟨3, ![10, 1, C]⟩ : Shape).ShapeCasts ⟨2, ![10, C]⟩)
    (t : Fin 10) (j : Fin C) : shapeCast ⟨2, ![10, C]⟩ x h (ix2 t j) = x (ix3 t 0 j) :=
  shapeCast_apply x h (ix2 t j) (ix3 t 0 j) (by
    rw [Shape.rowMajor_val_three, Shape.rowMajor_val_two]
    show (t.val * 1 + 0) * C + j.val = t.val * C + j.val
    rw [Nat.mul_one, Nat.add_zero])

/-- A row as a one-row matrix: column j of the row is the row's entry j. -/
theorem row_read (v : FVec Ideal ⟨1, ![C]⟩ .f32) (h : (⟨1, ![C]⟩ : Shape).ShapeCasts ⟨2, ![1, C]⟩)
    (i : (⟨2, ![1, C]⟩ : Shape).Idx) : shapeCast ⟨2, ![1, C]⟩ v h i = v (ix1 (i 1)) :=
  shapeCast_apply v h i (ix1 (i 1)) (by
    rw [Shape.rowMajor_val_one, Shape.rowMajor_val_two]
    have h0 : (i 0).val = 0 := by have := idx2_lt0 i; omega
    show (i 1).val = (i 0).val * C + (i 1).val
    rw [h0, Nat.zero_mul, Nat.zero_add])

/-- The sum over the ten rows, started at the given scalar. -/
theorem sum_read (y : FVec Ideal ⟨2, ![10, C]⟩ .f32) (c : FVec Ideal S_ .f32)
    (h : (⟨2, ![10, C]⟩ : Shape).ReducesTo [0] ⟨1, ![C]⟩) (hu : 0 < S_.numel) (j : Fin C) :
    Host.reduceAdd y c h hu (ix1 j) = c (Shape.Idx.first hu) + ∑ t : Fin 10, y (ix2 t j) := by
  have hR : (⟨2, ![10, C]⟩ : Shape).Reduces [0] ⟨1, ![C]⟩ := ⟨h.1, Nat.one_pos, h.2⟩
  simp only [Host.reduceAdd, Ideal.hostReduceAdd_def]
  rw [Ideal.hostReduceAdd_single h hR]
  refine congrArg (_ + ·) (Finset.sum_congr rfl fun k _ => ?_)
  exact congrArg y (funext fun a => Fin.ext (by match a with | ⟨0, _⟩ => rfl | ⟨1, _⟩ => rfl))

/-- A scalar spread over an array reads the scalar everywhere. -/
theorem splat_read {t : Shape} (c : FVec Ideal S_ .f32) (h : S_.BroadcastsInDim t (![] : Fin 0 → Fin t.rank)) (i : t.Idx) :
    broadcastInDim t ![] h c i = c ix0 :=
  broadcastInDim_apply _ h c i ix0 (fun a => a.elim0)

/-- A row spread to a one-row matrix. -/
theorem rowb_read (v : FVec Ideal ⟨1, ![C]⟩ .f32)
    (h : (⟨1, ![C]⟩ : Shape).BroadcastsInDim ⟨2, ![1, C]⟩ (![1] : Fin 1 → Fin 2))
    (i : (⟨2, ![1, C]⟩ : Shape).Idx) : broadcastInDim ⟨2, ![1, C]⟩ ![1] h v i = v (ix1 (i 1)) :=
  broadcastInDim_apply _ h v i (ix1 (i 1)) (fun a => match a with
    | ⟨0, _⟩ => by
      show (i 1).val = if C = 1 then 0 else (i 1).val
      split
      · have := idx2_lt1 i; omega
      · rfl)

/-- A one-row matrix repeated down ten rows. -/
theorem colb_read (u : FVec Ideal ⟨2, ![1, C]⟩ .f32)
    (h : (⟨2, ![1, C]⟩ : Shape).BroadcastsInDim ⟨2, ![10, C]⟩ (![0, 1] : Fin 2 → Fin 2))
    (i : (⟨2, ![10, C]⟩ : Shape).Idx) : broadcastInDim ⟨2, ![10, C]⟩ ![0, 1] h u i = u (ix2 0 (i 1)) :=
  broadcastInDim_apply _ h u i (ix2 0 (i 1)) (fun a => match a with
    | ⟨0, _⟩ => by show 0 = if (1 : Nat) = 1 then 0 else (i 0).val; rw [if_pos rfl]
    | ⟨1, _⟩ => by
      show (i 1).val = if C = 1 then 0 else (i 1).val
      split
      · have := idx2_lt1 i; omega
      · rfl)

end Read

/-- Two 64-long rows joined end to end, read at a position. -/
theorem cat_read (a b : FVec Ideal S64 .f32) (h : Shape.Concatenates [S64, S64] S128 0) (j : Fin 128) :
    concatenate S128 0 [⟨S64, a⟩, ⟨S64, b⟩] h (ix1 j) = catv (vec1 a) (vec1 b) j := by
  by_cases hj : j.val < 64
  · rw [show catv (vec1 a) (vec1 b) j = vec1 a ⟨j.val, hj⟩ from dif_pos hj]
    exact concatenate_pair_apply_left 0 a b h (ix1 j) rfl (ix1 ⟨j.val, hj⟩) (fun c => match c with | ⟨0, _⟩ => rfl)
  · rw [show catv (vec1 a) (vec1 b) j = vec1 b ⟨j.val - 64, by omega⟩ from dif_neg hj]
    exact concatenate_pair_apply_right 0 a b h (ix1 j) rfl rfl (ix1 ⟨j.val - 64, by omega⟩)
      (fun c hc => match c with | ⟨0, _⟩ => absurd rfl hc) (by show (j.val - 64) + 64 = j.val; omega)

/-! ### The recombination as the operations compute it, and what it is column by column -/

section Ops
variable {C : ℕ}
  (h32 : (⟨3, ![10, 1, C]⟩ : Shape).ShapeCasts ⟨2, ![10, C]⟩)
  (hred : (⟨2, ![10, C]⟩ : Shape).ReducesTo [0] ⟨1, ![C]⟩)
  (hu : 0 < S_.numel)
  (hb1 : S_.BroadcastsInDim ⟨1, ![C]⟩ (![] : Fin 0 → Fin 1))
  (hb2 : S_.BroadcastsInDim ⟨2, ![10, C]⟩ (![] : Fin 0 → Fin 2))
  (hbr : (⟨1, ![C]⟩ : Shape).BroadcastsInDim ⟨2, ![1, C]⟩ (![1] : Fin 1 → Fin 2))
  (hbc : (⟨2, ![1, C]⟩ : Shape).BroadcastsInDim ⟨2, ![10, C]⟩ (![0, 1] : Fin 2 → Fin 2))

/-- The mean row: the tiles' sums added up, over the row count. -/
def meanOps (S : FVec Ideal ⟨3, ![10, 1, C]⟩ .f32) : FVec Ideal ⟨1, ![C]⟩ .f32 :=
  Host.divf (Host.reduceAdd (shapeCast ⟨2, ![10, C]⟩ S h32) (constant (F := Ideal) S_ .f32 0x00000000#32) hred hu)
    (broadcastInDim ⟨1, ![C]⟩ ![] hb1 (constant (F := Ideal) S_ .f32 0x47C35000#32))

/-- Each tile's mean less the overall mean. -/
def devOps (S : FVec Ideal ⟨3, ![10, 1, C]⟩ .f32) : FVec Ideal ⟨2, ![10, C]⟩ .f32 :=
  subf (Host.divf (shapeCast ⟨2, ![10, C]⟩ S h32) (broadcastInDim ⟨2, ![10, C]⟩ ![] hb2 (constant (F := Ideal) S_ .f32 0x461C4000#32)))
    (broadcastInDim ⟨2, ![10, C]⟩ ![0, 1] hbc (broadcastInDim ⟨2, ![1, C]⟩ ![1] hbr (meanOps h32 hred hu hb1 S)))

/-- The variance row: within-tile plus between-tile sums of squares, over the row count, clipped below at zero. -/
def varOps (S M2 : FVec Ideal ⟨3, ![10, 1, C]⟩ .f32) : FVec Ideal ⟨1, ![C]⟩ .f32 :=
  maximumf
    (Host.divf
      (addf (Host.reduceAdd (shapeCast ⟨2, ![10, C]⟩ M2 h32) (constant (F := Ideal) S_ .f32 0x00000000#32) hred hu)
        (Host.reduceAdd
          (mulf (broadcastInDim ⟨2, ![10, C]⟩ ![] hb2 (constant (F := Ideal) S_ .f32 0x461C4000#32))
            (mulf (devOps h32 hred hu hb1 hb2 hbr hbc S) (devOps h32 hred hu hb1 hb2 hbr hbc S)))
          (constant (F := Ideal) S_ .f32 0x00000000#32) hred hu))
      (broadcastInDim ⟨1, ![C]⟩ ![] hb1 (constant (F := Ideal) S_ .f32 0x47C35000#32)))
    (broadcastInDim ⟨1, ![C]⟩ ![] hb1 (constant (F := Ideal) S_ .f32 0x00000000#32))

theorem meanOps_apply (S : FVec Ideal ⟨3, ![10, 1, C]⟩ .f32) (j : Fin C) :
    meanOps h32 hred hu hb1 S (ix1 j) = kMean cN cZ (tiles S) j := by
  show Ideal.div (Host.reduceAdd (shapeCast ⟨2, ![10, C]⟩ S h32) (constant (F := Ideal) S_ .f32 0x00000000#32) hred hu (ix1 j))
      (broadcastInDim ⟨1, ![C]⟩ ![] hb1 (constant (F := Ideal) S_ .f32 0x47C35000#32) (ix1 j)) = _
  rw [sum_read, splat_read]
  simp only [flat_read]
  rfl

theorem devOps_apply (S : FVec Ideal ⟨3, ![10, 1, C]⟩ .f32) (t : Fin 10) (j : Fin C) :
    devOps h32 hred hu hb1 hb2 hbr hbc S (ix2 t j) = Ideal.div (tiles S t j) cT - kMean cN cZ (tiles S) j := by
  show Ideal.div (shapeCast ⟨2, ![10, C]⟩ S h32 (ix2 t j)) (broadcastInDim ⟨2, ![10, C]⟩ ![] hb2 (constant (F := Ideal) S_ .f32 0x461C4000#32) (ix2 t j))
      - broadcastInDim ⟨2, ![10, C]⟩ ![0, 1] hbc (broadcastInDim ⟨2, ![1, C]⟩ ![1] hbr (meanOps h32 hred hu hb1 S)) (ix2 t j) = _
  rw [flat_read, splat_read, colb_read, rowb_read]
  show _ - meanOps h32 hred hu hb1 S (ix1 j) = _
  rw [meanOps_apply]
  rfl

theorem varOps_apply (S M2 : FVec Ideal ⟨3, ![10, 1, C]⟩ .f32) (j : Fin C) :
    varOps h32 hred hu hb1 hb2 hbr hbc S M2 (ix1 j) = kVar cN cT cZ (tiles S) (tiles M2) j := by
  show max (Ideal.div
      (Host.reduceAdd (shapeCast ⟨2, ![10, C]⟩ M2 h32) (constant (F := Ideal) S_ .f32 0x00000000#32) hred hu (ix1 j)
        + Host.reduceAdd
          (mulf (broadcastInDim ⟨2, ![10, C]⟩ ![] hb2 (constant (F := Ideal) S_ .f32 0x461C4000#32))
            (mulf (devOps h32 hred hu hb1 hb2 hbr hbc S) (devOps h32 hred hu hb1 hb2 hbr hbc S)))
          (constant (F := Ideal) S_ .f32 0x00000000#32) hred hu (ix1 j))
      (broadcastInDim ⟨1, ![C]⟩ ![] hb1 (constant (F := Ideal) S_ .f32 0x47C35000#32) (ix1 j)))
    (broadcastInDim ⟨1, ![C]⟩ ![] hb1 (constant (F := Ideal) S_ .f32 0x00000000#32) (ix1 j)) = _
  rw [sum_read, sum_read, splat_read, splat_read]
  simp only [flat_read, mulf_apply, splat_read, devOps_apply]
  rfl

end Ops

variable (W : Valuation τ sig (Elt Ideal))

/-! ### The host operations between region 0 and region 1 -/

theorem s1_mean (S : Vec Ideal S10x1x128 .f32) (hS : W (Proc.devRef .tc main_v37_1) = S) :
    StableHlo.after hostOps1 W (Proc.devRef .tc main_v58) = ofRow (kMean cN cZ (tiles S)) := by
  subst hS
  show StableHlo.after hostOps1 W (Proc.devRef .tc main_v58) = _
  after_results_simp
  refine funext fun (i : S1x128.Idx) => ?_
  show shapeCast S1x128 (meanOps shapeCasts_S10x1x128_S10x128 reducesTo_S10x128_S128_d0 h_S_ bcast_S_S128
    (W (Proc.devRef .tc main_v37_1))) shapeCasts_S128_S1x128 i = _
  exact (row_read _ _ i).trans (meanOps_apply _ _ _ _ _ (i 1))

theorem s1_var (S M2 : Vec Ideal S10x1x128 .f32) (hS : W (Proc.devRef .tc main_v37_1) = S) (hM : W (Proc.devRef .tc main_v37_2) = M2) :
    StableHlo.after hostOps1 W (Proc.devRef .tc main_v59) = ofRow (kVar cN cT cZ (tiles S) (tiles M2)) := by
  subst hS hM
  show StableHlo.after hostOps1 W (Proc.devRef .tc main_v59) = _
  after_results_simp
  refine funext fun (i : S1x128.Idx) => ?_
  show shapeCast S1x128 (varOps shapeCasts_S10x1x128_S10x128 reducesTo_S10x128_S128_d0 h_S_ bcast_S_S128 bcast_S_S10x128
    bcast_S128_S1x128_1 bcast_S1x128_S10x128_0_1
    (W (Proc.devRef .tc main_v37_1)) (W (Proc.devRef .tc main_v37_2))) shapeCasts_S128_S1x128 i = _
  exact (row_read _ _ i).trans (varOps_apply _ _ _ _ _ _ _ _ _ (i 1))

theorem s1_g (a b : Vec Ideal S64 .f32) (ha : W (Proc.devRef .tc main_arg8) = a) (hb : W (Proc.devRef .tc main_arg16) = b) :
    StableHlo.after hostOps1 W (Proc.devRef .tc main_v61) = ofRow (catv (vec1 a) (vec1 b)) := by
  subst ha hb
  show StableHlo.after hostOps1 W (Proc.devRef .tc main_v61) = _
  after_results_simp
  refine funext fun (i : S1x128.Idx) => ?_
  show shapeCast S1x128 (concatenate S128 0 [⟨S64, W (Proc.devRef .tc main_arg8)⟩, ⟨S64, W (Proc.devRef .tc main_arg16)⟩]
    concatenates_S64_S64_S128_d0) shapeCasts_S128_S1x128 i = _
  exact (row_read _ _ i).trans (cat_read _ _ _ (i 1))

theorem s1_be (a b : Vec Ideal S64 .f32) (ha : W (Proc.devRef .tc main_arg9) = a) (hb : W (Proc.devRef .tc main_arg17) = b) :
    StableHlo.after hostOps1 W (Proc.devRef .tc main_v63) = ofRow (catv (vec1 a) (vec1 b)) := by
  subst ha hb
  show StableHlo.after hostOps1 W (Proc.devRef .tc main_v63) = _
  after_results_simp
  refine funext fun (i : S1x128.Idx) => ?_
  show shapeCast S1x128 (concatenate S128 0 [⟨S64, W (Proc.devRef .tc main_arg9)⟩, ⟨S64, W (Proc.devRef .tc main_arg17)⟩]
    concatenates_S64_S64_S128_d0) shapeCasts_S128_S1x128 i = _
  exact (row_read _ _ i).trans (cat_read _ _ _ (i 1))

theorem s1_keep_h : StableHlo.after hostOps1 W (Proc.devRef .tc main_v37_0) = W (Proc.devRef .tc main_v37_0) := by
  not_written hostOps1

theorem s1_keep_uw2 : StableHlo.after hostOps1 W (Proc.devRef .tc main_arg10) = W (Proc.devRef .tc main_arg10) := by
  not_written hostOps1

theorem s1_keep_ub2 : StableHlo.after hostOps1 W (Proc.devRef .tc main_v34) = W (Proc.devRef .tc main_v34) := by
  not_written hostOps1

theorem s1_keep_bw2 : StableHlo.after hostOps1 W (Proc.devRef .tc main_arg18) = W (Proc.devRef .tc main_arg18) := by
  not_written hostOps1

theorem s1_keep_bb2 : StableHlo.after hostOps1 W (Proc.devRef .tc main_v35) = W (Proc.devRef .tc main_v35) := by
  not_written hostOps1

theorem s1_keep_cw : StableHlo.after hostOps1 W (Proc.devRef .tc main_arg22) = W (Proc.devRef .tc main_arg22) := by
  not_written hostOps1

theorem s1_keep_cb : StableHlo.after hostOps1 W (Proc.devRef .tc main_v36) = W (Proc.devRef .tc main_v36) := by
  not_written hostOps1

theorem s1_keep_cg : StableHlo.after hostOps1 W (Proc.devRef .tc main_arg24) = W (Proc.devRef .tc main_arg24) := by
  not_written hostOps1

theorem s1_keep_cbe : StableHlo.after hostOps1 W (Proc.devRef .tc main_arg25) = W (Proc.devRef .tc main_arg25) := by
  not_written hostOps1

theorem s1_keep_ug2 : StableHlo.after hostOps1 W (Proc.devRef .tc main_arg12) = W (Proc.devRef .tc main_arg12) := by
  not_written hostOps1

theorem s1_keep_bg2 : StableHlo.after hostOps1 W (Proc.devRef .tc main_arg20) = W (Proc.devRef .tc main_arg20) := by
  not_written hostOps1

theorem s1_keep_ube2 : StableHlo.after hostOps1 W (Proc.devRef .tc main_arg13) = W (Proc.devRef .tc main_arg13) := by
  not_written hostOps1

theorem s1_keep_bbe2 : StableHlo.after hostOps1 W (Proc.devRef .tc main_arg21) = W (Proc.devRef .tc main_arg21) := by
  not_written hostOps1

/-! ### The host operations between region 1 and region 2 -/

theorem s2_mean (S : Vec Ideal S10x1x128 .f32) (hS : W (Proc.devRef .tc main_v64_1) = S) :
    StableHlo.after hostOps2 W (Proc.devRef .tc main_v85) = ofRow (kMean cN cZ (tiles S)) := by
  subst hS
  show StableHlo.after hostOps2 W (Proc.devRef .tc main_v85) = _
  after_results_simp
  refine funext fun (i : S1x128.Idx) => ?_
  show shapeCast S1x128 (meanOps shapeCasts_S10x1x128_S10x128 reducesTo_S10x128_S128_d0 h_S_ bcast_S_S128
    (W (Proc.devRef .tc main_v64_1))) shapeCasts_S128_S1x128 i = _
  exact (row_read _ _ i).trans (meanOps_apply _ _ _ _ _ (i 1))

theorem s2_var (S M2 : Vec Ideal S10x1x128 .f32) (hS : W (Proc.devRef .tc main_v64_1) = S) (hM : W (Proc.devRef .tc main_v64_2) = M2) :
    StableHlo.after hostOps2 W (Proc.devRef .tc main_v86) = ofRow (kVar cN cT cZ (tiles S) (tiles M2)) := by
  subst hS hM
  show StableHlo.after hostOps2 W (Proc.devRef .tc main_v86) = _
  after_results_simp
  refine funext fun (i : S1x128.Idx) => ?_
  show shapeCast S1x128 (varOps shapeCasts_S10x1x128_S10x128 reducesTo_S10x128_S128_d0 h_S_ bcast_S_S128 bcast_S_S10x128
    bcast_S128_S1x128_1 bcast_S1x128_S10x128_0_1
    (W (Proc.devRef .tc main_v64_1)) (W (Proc.devRef .tc main_v64_2))) shapeCasts_S128_S1x128 i = _
  exact (row_read _ _ i).trans (varOps_apply _ _ _ _ _ _ _ _ _ (i 1))

theorem s2_g (a b : Vec Ideal S64 .f32) (ha : W (Proc.devRef .tc main_arg12) = a) (hb : W (Proc.devRef .tc main_arg20) = b) :
    StableHlo.after hostOps2 W (Proc.devRef .tc main_v88) = ofRow (catv (vec1 a) (vec1 b)) := by
  subst ha hb
  show StableHlo.after hostOps2 W (Proc.devRef .tc main_v88) = _
  after_results_simp
  refine funext fun (i : S1x128.Idx) => ?_
  show shapeCast S1x128 (concatenate S128 0 [⟨S64, W (Proc.devRef .tc main_arg12)⟩, ⟨S64, W (Proc.devRef .tc main_arg20)⟩]
    concatenates_S64_S64_S128_d0) shapeCasts_S128_S1x128 i = _
  exact (row_read _ _ i).trans (cat_read _ _ _ (i 1))

theorem s2_be (a b : Vec Ideal S64 .f32) (ha : W (Proc.devRef .tc main_arg13) = a) (hb : W (Proc.devRef .tc main_arg21) = b) :
    StableHlo.after hostOps2 W (Proc.devRef .tc main_v90) = ofRow (catv (vec1 a) (vec1 b)) := by
  subst ha hb
  show StableHlo.after hostOps2 W (Proc.devRef .tc main_v90) = _
  after_results_simp
  refine funext fun (i : S1x128.Idx) => ?_
  show shapeCast S1x128 (concatenate S128 0 [⟨S64, W (Proc.devRef .tc main_arg13)⟩, ⟨S64, W (Proc.devRef .tc main_arg21)⟩]
    concatenates_S64_S64_S128_d0) shapeCasts_S128_S1x128 i = _
  exact (row_read _ _ i).trans (cat_read _ _ _ (i 1))

theorem s2_keep_h : StableHlo.after hostOps2 W (Proc.devRef .tc main_v64_0) = W (Proc.devRef .tc main_v64_0) := by
  not_written hostOps2

theorem s2_keep_cw : StableHlo.after hostOps2 W (Proc.devRef .tc main_arg22) = W (Proc.devRef .tc main_arg22) := by
  not_written hostOps2

theorem s2_keep_cb : StableHlo.after hostOps2 W (Proc.devRef .tc main_v36) = W (Proc.devRef .tc main_v36) := by
  not_written hostOps2

theorem s2_keep_cg : StableHlo.after hostOps2 W (Proc.devRef .tc main_arg24) = W (Proc.devRef .tc main_arg24) := by
  not_written hostOps2

theorem s2_keep_cbe : StableHlo.after hostOps2 W (Proc.devRef .tc main_arg25) = W (Proc.devRef .tc main_arg25) := by
  not_written hostOps2

/-! ### The host operations between region 2 and region 3 -/

theorem s3_mean (S : Vec Ideal S10x1x64 .f32) (hS : W (Proc.devRef .tc main_v91_1) = S) :
    StableHlo.after hostOps3 W (Proc.devRef .tc main_v112) = ofRow (kMean cN cZ (tiles S)) := by
  subst hS
  show StableHlo.after hostOps3 W (Proc.devRef .tc main_v112) = _
  after_results_simp
  refine funext fun (i : S1x64.Idx) => ?_
  show shapeCast S1x64 (meanOps shapeCasts_S10x1x64_S10x64 reducesTo_S10x64_S64_d0 h_S_ bcast_S_S64
    (W (Proc.devRef .tc main_v91_1))) shapeCasts_S64_S1x64 i = _
  exact (row_read _ _ i).trans (meanOps_apply _ _ _ _ _ (i 1))

theorem s3_var (S M2 : Vec Ideal S10x1x64 .f32) (hS : W (Proc.devRef .tc main_v91_1) = S) (hM : W (Proc.devRef .tc main_v91_2) = M2) :
    StableHlo.after hostOps3 W (Proc.devRef .tc main_v113) = ofRow (kVar cN cT cZ (tiles S) (tiles M2)) := by
  subst hS hM
  show StableHlo.after hostOps3 W (Proc.devRef .tc main_v113) = _
  after_results_simp
  refine funext fun (i : S1x64.Idx) => ?_
  show shapeCast S1x64 (varOps shapeCasts_S10x1x64_S10x64 reducesTo_S10x64_S64_d0 h_S_ bcast_S_S64 bcast_S_S10x64
    bcast_S64_S1x64_1 bcast_S1x64_S10x64_0_1
    (W (Proc.devRef .tc main_v91_1)) (W (Proc.devRef .tc main_v91_2))) shapeCasts_S64_S1x64 i = _
  exact (row_read _ _ i).trans (varOps_apply _ _ _ _ _ _ _ _ _ (i 1))

theorem s3_g (a : Vec Ideal S64 .f32) (ha : W (Proc.devRef .tc main_arg24) = a) :
    StableHlo.after hostOps3 W (Proc.devRef .tc main_v114) = ofRow (vec1 a) := by
  subst ha
  show StableHlo.after hostOps3 W (Proc.devRef .tc main_v114) = _
  after_results_simp
  refine funext fun (i : S1x64.Idx) => ?_
  show shapeCast S1x64 (W (Proc.devRef .tc main_arg24)) shapeCasts_S64_S1x64 i = _
  exact row_read _ _ i

theorem s3_be (a : Vec Ideal S64 .f32) (ha : W (Proc.devRef .tc main_arg25) = a) :
    StableHlo.after hostOps3 W (Proc.devRef .tc main_v115) = ofRow (vec1 a) := by
  subst ha
  show StableHlo.after hostOps3 W (Proc.devRef .tc main_v115) = _
  after_results_simp
  refine funext fun (i : S1x64.Idx) => ?_
  show shapeCast S1x64 (W (Proc.devRef .tc main_arg25)) shapeCasts_S64_S1x64 i = _
  exact row_read _ _ i

theorem s3_keep_h : StableHlo.after hostOps3 W (Proc.devRef .tc main_v91_0) = W (Proc.devRef .tc main_v91_0) := by
  not_written hostOps3

end Cert.KernelIdeal.Stats

end
-- ==== Proof.Layer1.lean ====
/-
  The first tiled layer, as whole arrays: what its three output arrays hold once every tile has been written back,
  as functions of the arrays the layer finds when it starts.
-/
import proofs.«415859_j20203526161168_3_alg».proof.Proof.Gen.KernelIdeal.Frame
import proofs.«415859_j20203526161168_3_alg».proof.Proof.Spec
import proofs.«415859_j20203526161168_3_alg».proof.Proof.Conv
import Idealize.ShloMosaic.Lib.Pipeline.Value
import Idealize.ShloMosaic.Lib.ValueIdx
import Idealize.ShloMosaic.PureOps.Ideal.Laws

set_option maxRecDepth 16384

noncomputable section

namespace Cert.KernelIdeal.Layer1

open Idealize.ShloMosaic Idealize.ShloMosaic.TcCoe Idealize.ShloMosaic.ValueIdx Idealize.SL.Sem
open Cert.KernelIdeal Cert.KernelIdeal.Gen Cert.Spec Cert.Conv

variable (V : (c : Dev nD) → (b : Ref sig .tc) → Buf (Elt Ideal) ((c : Thread nD τ).loc b)) (c : Dev nD)

/-! ### The body's arithmetic on one tile, entry by entry -/

/-- Which entries meet in the matrix product at an entry of the result: the left operand's row and the right
    operand's column, along the one shared index. -/
theorem lhs_D64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_D64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_D64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_D64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product of a tile's rows with a 64×64 matrix, started from zero, at one entry: the row against the column. -/
theorem matmul64_apply (a : FVec Ideal S10000x64 .f32) (w : FVec Ideal S64x64 .f32) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_D64_0 _ _
    | ⟨1, _⟩ => exact (lhs_D64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_D64_0 _ _).trans hk
    | ⟨1, _⟩ => exact rhs_D64_1 _ _)
  rw [el, er]

/-- The one entry of a 1×1 block, read at position (0, 0). -/
theorem extract_sc (v0 : FVec Ideal S1x1 .f32) (h : ∀ a, (![0, 0] : Fin 2 → Nat) a < S1x1.size a) :
    extractAt ![0, 0] v0 h = sc v0 := by
  unfold extractAt sc
  congr 1
  funext a
  match a with
  | ⟨0, _⟩ => rfl
  | ⟨1, _⟩ => rfl

/-- A bias row spread down a tile's rows, at one entry. -/
theorem bias_apply (v18 : FVec Ideal S1x64 .f32) (p : Fin 10000) (q : Fin 64) :
    broadcastTo S10000x64 (shapeCast S1x64 v18 shapeCasts_S1x64_S1x64) broadcasts_S1x64_S10000x64 (ix2 p q) = rowV v18 q := by
  rw [shapeCast_self]
  refine (broadcastTo_apply v18 broadcasts_S1x64_S10000x64 (ix2 p q) (ix2 0 q) (fun a => ?_)).trans rfl
  match a with
  | ⟨0, _⟩ => rfl
  | ⟨1, _⟩ => rfl

/-- One branch of the layer on a tile, at one entry: the linear layer of the residual input. -/
theorem branch_apply (v0 : FVec Ideal S1x1 .f32) (v4 v6 : FVec Ideal S10000x64 .f32) (v16 : FVec Ideal S64x64 .f32)
    (v18 : FVec Ideal S1x64 .f32) (p : Fin 10000) (q : Fin 64) :
    addf (matmul dot_S10000x64_S64x64_S10000x64_1_0_0_1_n_n none
        (addf (shapeCast S10000x64 v4 shapeCasts_S10000x64_S10000x64) (mulf (broadcast S10000x64 (extractAt ![0, 0] v0 inpos_S1x1_p0_0)) v6))
        v16 (constant (F := Ideal) S10000x64 .f32 0x00000000#32))
      (broadcastTo S10000x64 (shapeCast S1x64 v18 shapeCasts_S1x64_S1x64) broadcasts_S1x64_S10000x64) (ix2 p q)
      = lin (resid (toM v4) (toM v6) (sc v0)) (toM v16) (rowV v18) p q := by
  rw [addf_apply, matmul64_apply, bias_apply, shapeCast_self, extract_sc]
  rfl

/-- The layer's pre-activation on a tile, at one entry: the two branches' linear layers side by side. -/
theorem pay4_apply (v0 v2 : FVec Ideal S1x1 .f32) (v4 v6 v10 v12 : FVec Ideal S10000x64 .f32) (v16 : FVec Ideal S64x64 .f32)
    (v18 : FVec Ideal S1x64 .f32) (v22 : FVec Ideal S64x64 .f32) (v24 : FVec Ideal S1x64 .f32) (p : Fin 10000) (q : Fin 128) :
    k0_pay4 (F := Ideal) v0 v2 v4 v6 v10 v12 v16 v18 v22 v24 (ix2 p q)
      = cat (lin (resid (toM v4) (toM v6) (sc v0)) (toM v16) (rowV v18)) (lin (resid (toM v10) (toM v12) (sc v2)) (toM v22) (rowV v24)) p q := by
  unfold k0_pay4 cat
  by_cases hq : q.val < 64
  · rw [dif_pos hq]
    refine (concatenate_pair_apply_left (t := S10000x128) (s₁ := S10000x64) (s₂ := S10000x64) (1 : Fin 2) _ _ concatenates_S10000x64_S10000x64_S10000x128_d1 (ix2 p q) rfl (ix2 p (⟨q.val, hq⟩ : Fin 64)) (fun b => ?_)).trans ?_
    · match b with
      | ⟨0, _⟩ => rfl
      | ⟨1, _⟩ => rfl
    · exact branch_apply v0 v4 v6 v16 v18 p ⟨q.val, hq⟩
  · rw [dif_neg hq]
    have hq' : q.val - 64 < 64 := by have := q.isLt; omega
    refine (concatenate_pair_apply_right (t := S10000x128) (s₁ := S10000x64) (s₂ := S10000x64) (1 : Fin 2) _ _ concatenates_S10000x64_S10000x64_S10000x128_d1 (ix2 p q) rfl rfl (ix2 p (⟨q.val - 64, hq'⟩ : Fin 64)) (fun b hb => ?_) ?_).trans ?_
    · match b with
      | ⟨0, _⟩ => rfl
      | ⟨1, _⟩ => exact absurd rfl hb
    · show q.val - 64 + 64 = q.val; omega
    · exact branch_apply v2 v10 v12 v22 v24 p ⟨q.val - 64, hq'⟩

/-- Storing through the narrower format changes nothing. -/
theorem pay1_apply (v28 : FVec Ideal S10000x128 .f32) (j : S10000x128.Idx) : k0_pay1 (F := Ideal) v28 j = v28 j := rfl

/-- A column sum over a tile's 10000 rows, as a one-row block, at one entry. -/
theorem colsum_apply (src : FVec Ideal S10000x128 .f32) (q : Fin 128) :
    shapeCast S1x128 (multiReduction (F := Ideal) .add [0] S128 src 0x00000000#32 reduces_S10000x128_S128 (.inl rfl) rfl) shapeCasts_S128_S1x128 (ix2 0 q)
      = ∑ r : Fin 10000, src (ix2 r q) := by
  refine (shapeCast_apply _ shapeCasts_S128_S1x128 (ix2 0 q) (ix1 q) ?_).trans ?_
  · rw [Shape.rowMajor_val_one, Shape.rowMajor_val_two]
    show q.val = 0 * 128 + q.val
    omega
  · refine (Ideal.multiReduction_add_single src _ reduces_S10000x128_S128 (.inl rfl) rfl (ix1 q)).trans ?_
    refine Finset.sum_congr rfl fun r _ => congrArg src ?_
    funext a
    match a with
    | ⟨0, _⟩ => rfl
    | ⟨1, _⟩ => rfl

/-- The tile's column sums, at one entry. -/
theorem pay5_apply (v0 v2 : FVec Ideal S1x1 .f32) (v4 v6 v10 v12 : FVec Ideal S10000x64 .f32) (v16 : FVec Ideal S64x64 .f32)
    (v18 : FVec Ideal S1x64 .f32) (v22 : FVec Ideal S64x64 .f32) (v24 : FVec Ideal S1x64 .f32) (q : Fin 128) :
    k0_pay5 (F := Ideal) v0 v2 v4 v6 v10 v12 v16 v18 v22 v24 (ix2 0 q)
      = ∑ r : Fin 10000, k0_pay4 (F := Ideal) v0 v2 v4 v6 v10 v12 v16 v18 v22 v24 (ix2 r q) := by
  unfold k0_pay5
  exact colsum_apply _ q

/-- The tile's entries centred at the tile's own column means, at one entry. -/
theorem pay6_apply (v0 v2 : FVec Ideal S1x1 .f32) (v4 v6 v10 v12 : FVec Ideal S10000x64 .f32) (v16 : FVec Ideal S64x64 .f32)
    (v18 : FVec Ideal S1x64 .f32) (v22 : FVec Ideal S64x64 .f32) (v24 : FVec Ideal S1x64 .f32) (p : Fin 10000) (q : Fin 128) :
    k0_pay6 (F := Ideal) v0 v2 v4 v6 v10 v12 v16 v18 v22 v24 (ix2 p q)
      = k0_pay4 (F := Ideal) v0 v2 v4 v6 v10 v12 v16 v18 v22 v24 (ix2 p q)
        - Ideal.div (k0_pay5 (F := Ideal) v0 v2 v4 v6 v10 v12 v16 v18 v22 v24 (ix2 0 q)) cT := by
  unfold k0_pay6
  rw [subf_apply]
  congr 1

/-- A one-row block stored as a 1×1-row tile, at one entry. -/
theorem pay2_apply (v30 : FVec Ideal S1x128 .f32) (q : Fin 128) : k0_pay2 (F := Ideal) v30 (ix3 0 0 q) = v30 (ix2 0 q) := by
  unfold k0_pay2
  refine shapeCast_apply v30 shapeCasts_S1x128_S1x1x128 (ix3 0 0 q) (ix2 0 q) ?_
  rw [Shape.rowMajor_val_two, Shape.rowMajor_val_three]
  show 0 * 128 + q.val = (0 * 1 + 0) * 128 + q.val
  omega

/-- The column sums of squares over a tile's rows, stored as a 1×1-row tile, at one entry. -/
theorem pay3_apply (v34 : FVec Ideal S10000x128 .f32) (q : Fin 128) :
    k0_pay3 (F := Ideal) v34 (ix3 0 0 q) = ∑ r : Fin 10000, v34 (ix2 r q) * v34 (ix2 r q) := by
  unfold k0_pay3
  refine (shapeCast_apply _ shapeCasts_S1x128_S1x1x128 (ix3 0 0 q) (ix2 0 q) ?_).trans ?_
  · rw [Shape.rowMajor_val_two, Shape.rowMajor_val_three]
    show 0 * 128 + q.val = (0 * 1 + 0) * 128 + q.val
    omega
  · exact colsum_apply (mulf v34 v34) q

/-! ### The tiles: where a tile's blocks sit in their arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point as a tile number. -/
def tOf (t : Fin cfg0.N) : Fin 10 := Fin.cast N_0 t

theorem tOf_val (t : Fin cfg0.N) : (tOf t).val = t.val := rfl

/-- The block index of every window at every tile: the row-tiled arrays move with the tile, the small ones stay. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 3) = t.val ∧ win0_10.index t (1 : Fin 3) = 0 ∧ win0_10.index t (2 : Fin 3) = 0)
    ∧ (win0_11.index t (0 : Fin 3) = t.val ∧ win0_11.index t (1 : Fin 3) = 0 ∧ win0_11.index t (2 : Fin 3) = 0) :=
  (by decide +kernel : ∀ t : Fin grid0.N, _)

/-- The two scales and the weights and biases are read whole at every tile. -/
theorem whole0 (t : Fin cfg0.N) : (iblk0 V c 0 t : FVec Ideal S1x1 .f32) = V c (Pipeline.arrRef spec0 0) := by
  obtain ⟨e0, e1⟩ := (idx_facts t).1
  funext j
  show V c (Pipeline.arrRef spec0 0) (((cfg0.win 0).blk t).view.emb j) = V c (Pipeline.arrRef spec0 0) j
  refine congrArg _ (funext fun a => Fin.ext ?_)
  match a with
  | ⟨0, _⟩ => show win0_0.index t (0 : Fin 2) * 1 + 1 * (j 0).val = (j 0).val; omega
  | ⟨1, _⟩ => show win0_0.index t (1 : Fin 2) * 1 + 1 * (j 1).val = (j 1).val; omega
theorem whole1 (t : Fin cfg0.N) : (iblk0 V c 1 t : FVec Ideal S1x1 .f32) = V c (Pipeline.arrRef spec0 1) := by
  obtain ⟨e0, e1⟩ := (idx_facts t).2.1
  funext j
  show V c (Pipeline.arrRef spec0 1) (((cfg0.win 1).blk t).view.emb j) = V c (Pipeline.arrRef spec0 1) j
  refine congrArg _ (funext fun a => Fin.ext ?_)
  match a with
  | ⟨0, _⟩ => show win0_1.index t (0 : Fin 2) * 1 + 1 * (j 0).val = (j 0).val; omega
  | ⟨1, _⟩ => show win0_1.index t (1 : Fin 2) * 1 + 1 * (j 1).val = (j 1).val; omega
theorem whole5 (t : Fin cfg0.N) : (iblk0 V c 5 t : FVec Ideal S64x64 .f32) = V c (Pipeline.arrRef spec0 5) := by
  obtain ⟨e0, e1⟩ := (idx_facts t).2.2.2.2.2.1
  funext j
  show V c (Pipeline.arrRef spec0 5) (((cfg0.win 5).blk t).view.emb j) = V c (Pipeline.arrRef spec0 5) j
  refine congrArg _ (funext fun a => Fin.ext ?_)
  match a with
  | ⟨0, _⟩ => show win0_5.index t (0 : Fin 2) * 64 + 1 * (j 0).val = (j 0).val; omega
  | ⟨1, _⟩ => show win0_5.index t (1 : Fin 2) * 64 + 1 * (j 1).val = (j 1).val; omega
theorem whole6 (t : Fin cfg0.N) : (iblk0 V c 6 t : FVec Ideal S1x64 .f32) = V c (Pipeline.arrRef spec0 6) := by
  obtain ⟨e0, e1⟩ := (idx_facts t).2.2.2.2.2.2.1
  funext j
  show V c (Pipeline.arrRef spec0 6) (((cfg0.win 6).blk t).view.emb j) = V c (Pipeline.arrRef spec0 6) j
  refine congrArg _ (funext fun a => Fin.ext ?_)
  match a with
  | ⟨0, _⟩ => show win0_6.index t (0 : Fin 2) * 1 + 1 * (j 0).val = (j 0).val; omega
  | ⟨1, _⟩ => show win0_6.index t (1 : Fin 2) * 64 + 1 * (j 1).val = (j 1).val; omega
theorem whole7 (t : Fin cfg0.N) : (iblk0 V c 7 t : FVec Ideal S64x64 .f32) = V c (Pipeline.arrRef spec0 7) := by
  obtain ⟨e0, e1⟩ := (idx_facts t).2.2.2.2.2.2.2.1
  funext j
  show V c (Pipeline.arrRef spec0 7) (((cfg0.win 7).blk t).view.emb j) = V c (Pipeline.arrRef spec0 7) j
  refine congrArg _ (funext fun a => Fin.ext ?_)
  match a with
  | ⟨0, _⟩ => show win0_7.index t (0 : Fin 2) * 64 + 1 * (j 0).val = (j 0).val; omega
  | ⟨1, _⟩ => show win0_7.index t (1 : Fin 2) * 64 + 1 * (j 1).val = (j 1).val; omega
theorem whole8 (t : Fin cfg0.N) : (iblk0 V c 8 t : FVec Ideal S1x64 .f32) = V c (Pipeline.arrRef spec0 8) := by
  obtain ⟨e0, e1⟩ := (idx_facts t).2.2.2.2.2.2.2.2.1
  funext j
  show V c (Pipeline.arrRef spec0 8) (((cfg0.win 8).blk t).view.emb j) = V c (Pipeline.arrRef spec0 8) j
  refine congrArg _ (funext fun a => Fin.ext ?_)
  match a with
  | ⟨0, _⟩ => show win0_8.index t (0 : Fin 2) * 1 + 1 * (j 0).val = (j 0).val; omega
  | ⟨1, _⟩ => show win0_8.index t (1 : Fin 2) * 64 + 1 * (j 1).val = (j 1).val; omega

/-- A row-tiled input's block at a tile holds the tile's rows of its array. -/
theorem tile2 (t : Fin cfg0.N) (p : Fin 10000) (k : Fin 64) :
    (iblk0 V c 2 t : FVec Ideal S10000x64 .f32) (ix2 p k) = (V c (Pipeline.arrRef spec0 2) : FVec Ideal S100000x64 .f32) (ix2 (rowOf (tOf t) p) k) := by
  obtain ⟨e0, e1⟩ := (idx_facts t).2.2.1
  show V c (Pipeline.arrRef spec0 2) (((cfg0.win 2).blk t).view.emb (ix2 p k)) = V c (Pipeline.arrRef spec0 2) (ix2 (rowOf (tOf t) p) k)
  refine congrArg _ (funext fun a => Fin.ext ?_)
  match a with
  | ⟨0, _⟩ => show win0_2.index t (0 : Fin 2) * 10000 + 1 * p.val = t.val * 10000 + p.val; omega
  | ⟨1, _⟩ => show win0_2.index t (1 : Fin 2) * 64 + 1 * k.val = k.val; omega
theorem tile3 (t : Fin cfg0.N) (p : Fin 10000) (k : Fin 64) :
    (iblk0 V c 3 t : FVec Ideal S10000x64 .f32) (ix2 p k) = (V c (Pipeline.arrRef spec0 3) : FVec Ideal S100000x64 .f32) (ix2 (rowOf (tOf t) p) k) := by
  obtain ⟨e0, e1⟩ := (idx_facts t).2.2.2.1
  show V c (Pipeline.arrRef spec0 3) (((cfg0.win 3).blk t).view.emb (ix2 p k)) = V c (Pipeline.arrRef spec0 3) (ix2 (rowOf (tOf t) p) k)
  refine congrArg _ (funext fun a => Fin.ext ?_)
  match a with
  | ⟨0, _⟩ => show win0_3.index t (0 : Fin 2) * 10000 + 1 * p.val = t.val * 10000 + p.val; omega
  | ⟨1, _⟩ => show win0_3.index t (1 : Fin 2) * 64 + 1 * k.val = k.val; omega
theorem tile4 (t : Fin cfg0.N) (p : Fin 10000) (k : Fin 64) :
    (iblk0 V c 4 t : FVec Ideal S10000x64 .f32) (ix2 p k) = (V c (Pipeline.arrRef spec0 4) : FVec Ideal S100000x64 .f32) (ix2 (rowOf (tOf t) p) k) := by
  obtain ⟨e0, e1⟩ := (idx_facts t).2.2.2.2.1
  show V c (Pipeline.arrRef spec0 4) (((cfg0.win 4).blk t).view.emb (ix2 p k)) = V c (Pipeline.arrRef spec0 4) (ix2 (rowOf (tOf t) p) k)
  refine congrArg _ (funext fun a => Fin.ext ?_)
  match a with
  | ⟨0, _⟩ => show win0_4.index t (0 : Fin 2) * 10000 + 1 * p.val = t.val * 10000 + p.val; omega
  | ⟨1, _⟩ => show win0_4.index t (1 : Fin 2) * 64 + 1 * k.val = k.val; omega

variable (s1 s2 : Vec Ideal S1x1 .f32) (agU x agB : Vec Ideal S100000x64 .f32)
  (uw1 bw1 : Vec Ideal S64x64 .f32) (ub1 bb1 : Vec Ideal S1x64 .f32)

/-- The layer's pre-activation, 128 wide: the two branches' linear layers side by side. -/
def h1 : Fin 100000 → Fin 128 → EReal :=
  cat (lin (resid (toM agU) (toM x) (sc s1)) (toM uw1) (rowV ub1)) (lin (resid (toM agB) (toM x) (sc s2)) (toM bw1) (rowV bb1))

/-! ### One tile's pre-activation is the tile's rows of the whole pre-activation -/

theorem h1_tile (A0 A1 : FVec Ideal S1x1 .f32) (A2 A3 A4 : FVec Ideal S100000x64 .f32) (A5 A7 : FVec Ideal S64x64 .f32)
    (A6 A8 : FVec Ideal S1x64 .f32) (B0 B1 : FVec Ideal S1x1 .f32) (B2 B3 B4 : FVec Ideal S10000x64 .f32)
    (B5 B7 : FVec Ideal S64x64 .f32) (B6 B8 : FVec Ideal S1x64 .f32) (t : Fin 10)
    (e0 : B0 = A0) (e1 : B1 = A1) (e5 : B5 = A5) (e6 : B6 = A6) (e7 : B7 = A7) (e8 : B8 = A8)
    (e2 : ∀ p k, B2 (ix2 p k) = A2 (ix2 (rowOf t p) k)) (e3 : ∀ p k, B3 (ix2 p k) = A3 (ix2 (rowOf t p) k))
    (e4 : ∀ p k, B4 (ix2 p k) = A4 (ix2 (rowOf t p) k)) (p : Fin 10000) (q : Fin 128) :
    cat (lin (resid (toM B2) (toM B3) (sc B0)) (toM B5) (rowV B6)) (lin (resid (toM B4) (toM B3) (sc B1)) (toM B7) (rowV B8)) p q
      = h1 A0 A1 A2 A3 A4 A5 A7 A6 A8 (rowOf t p) q := by
  subst e0 e1 e5 e6 e7 e8
  have f2 : toM B2 = fun p k => toM A2 (rowOf t p) k := funext fun p => funext fun k => e2 p k
  have f3 : toM B3 = fun p k => toM A3 (rowOf t p) k := funext fun p => funext fun k => e3 p k
  have f4 : toM B4 = fun p k => toM A4 (rowOf t p) k := funext fun p => funext fun k => e4 p k
  rw [f2, f3, f4]
  rfl

/-- The pre-activation of the arrays the layer finds when it starts. -/
abbrev h1V : Fin 100000 → Fin 128 → EReal :=
  h1 (V c (Pipeline.arrRef spec0 0)) (V c (Pipeline.arrRef spec0 1)) (V c (Pipeline.arrRef spec0 2)) (V c (Pipeline.arrRef spec0 3))
    (V c (Pipeline.arrRef spec0 4)) (V c (Pipeline.arrRef spec0 5)) (V c (Pipeline.arrRef spec0 7)) (V c (Pipeline.arrRef spec0 6))
    (V c (Pipeline.arrRef spec0 8))

/-- What the body computes at tile t, row p, column q: the pre-activation at row p of tile t. -/
theorem point (t : Fin cfg0.N) (p : Fin 10000) (q : Fin 128) :
    k0_pay4 (F := Ideal) (iblk0 V c 0 t) (iblk0 V c 1 t) (iblk0 V c 2 t) (iblk0 V c 3 t) (iblk0 V c 4 t) (iblk0 V c 3 t)
        (iblk0 V c 5 t) (iblk0 V c 6 t) (iblk0 V c 7 t) (iblk0 V c 8 t) (ix2 p q)
      = h1V V c (rowOf (tOf t) p) q :=
  (pay4_apply _ _ _ _ _ _ _ _ _ _ p q).trans
    (h1_tile _ _ _ _ _ _ _ _ _ _ _ _ _ _ _ _ _ _ (tOf t) (whole0 V c t) (whole1 V c t) (whole5 V c t) (whole6 V c t) (whole7 V c t)
      (whole8 V c t) (tile2 V c t) (tile3 V c t) (tile4 V c t) p q)

/-! ### Output 9: the pre-activation itself -/

/-- What tile t leaves at an entry of its block is the pre-activation at the entry's place in the array. -/
theorem point9 (t : Fin cfg0.N) (j : S10000x128.Idx) :
    k0_pay1 (F := Ideal) (k0_pay4 (iblk0 V c 0 t) (iblk0 V c 1 t) (iblk0 V c 2 t) (iblk0 V c 3 t) (iblk0 V c 4 t) (iblk0 V c 3 t)
      (iblk0 V c 5 t) (iblk0 V c 6 t) (iblk0 V c 7 t) (iblk0 V c 8 t)) j
    = ofM (h1V V c) (((cfg0.win 9).blk t).view.emb j) := by
  obtain ⟨e0, e1⟩ := (idx_facts t).2.2.2.2.2.2.2.2.2.1
  obtain ⟨p, q, rfl⟩ : ∃ (p : Fin 10000) (q : Fin 128), j = ix2 p q := ⟨j 0, j 1, eq_ix2 j⟩
  rw [pay1_apply, point]
  show h1V V c (rowOf (tOf t) p) q = h1V V c ((((cfg0.win 9).blk t).view.emb (ix2 p q)) 0) ((((cfg0.win 9).blk t).view.emb (ix2 p q)) 1)
  have r0 : (((cfg0.win 9).blk t).view.emb (ix2 p q)) 0 = rowOf (tOf t) p :=
    Fin.ext (by show win0_9.index t (0 : Fin 2) * 10000 + 1 * p.val = t.val * 10000 + p.val; omega)
  have r1 : (((cfg0.win 9).blk t).view.emb (ix2 p q)) 1 = q :=
    Fin.ext (by show win0_9.index t (1 : Fin 2) * 128 + 1 * q.val = q.val; omega)
  rw [r0, r1]

theorem flushed9 (t : Fin cfg0.N) :
    (dat0 (F := Ideal) V c).flushed 9 t = ((cfg0.win 9).blk t).view.read (Elt Ideal) (ofM (h1V V c)) := by
  show (cfg0.win 9).cut (grid0.coords t) ((dat0 V c).after 9 t) = _
  rw [after0_9]
  unfold out0_9
  rw [View.canon_unit_zero hz2]
  simp only [View.ld_unit_zero (S := S1x1) hz2, View.ld_unit_zero (S := S10000x64) hz2, View.ld_unit_zero (S := S64x64) hz2,
    View.ld_unit_zero (S := S1x64) hz2]
  funext j
  exact point9 V c t j

theorem mem_blk9 (t : Fin cfg0.N) (i : S100000x128.Idx) :
    i ∈ ((cfg0.win 9).blk t).view.set ↔ ∀ a : Fin 2, win0_9.index t a * S10000x128.size a ≤ (i a).val ∧ (i a).val < win0_9.index t a * S10000x128.size a + S10000x128.size a := by
  show i ∈ ((View.whole main_v37_0).slice (win0_9.rect t)).set ↔ _
  rw [View.set_slice_whole, Rect.mem_set_unit]
  exact Iff.rfl

/-- Row r lies in the block of tile r / 10000. -/
theorem cover9 (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  refine ⟨t, flush0_9 t, ?_⟩
  rw [mem_blk9]
  obtain ⟨e0, e1⟩ := (idx_facts t).2.2.2.2.2.2.2.2.2.1
  have ht : t.val = (i 0).val / 10000 := rfl
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 128 ≤ (i 1).val ∧ (i 1).val < win0_9.index t (1 : Fin 2) * 128 + 128; omega

theorem final9 : (dat0 (F := Ideal) V c).arrAt 9 cfg0.N = ofM (h1V V c) :=
  (dat0 V c).arrAt_eq_of_cover 9 (ofM (h1V V c)) (fun t _ => flushed9 V c t) cover9

/-! ### Output 10: each tile's column sums -/

theorem point10 (t : Fin cfg0.N) (j : S1x1x128.Idx) :
    k0_pay2 (F := Ideal) (k0_pay5 (iblk0 V c 0 t) (iblk0 V c 1 t) (iblk0 V c 2 t) (iblk0 V c 3 t) (iblk0 V c 4 t) (iblk0 V c 3 t)
      (iblk0 V c 5 t) (iblk0 V c 6 t) (iblk0 V c 7 t) (iblk0 V c 8 t)) j
    = ofTiles (tileSum (h1V V c)) (((cfg0.win 10).blk t).view.emb j) := by
  obtain ⟨e0, e1, e2⟩ := (idx_facts t).2.2.2.2.2.2.2.2.2.2.1
  obtain ⟨a, b, q, rfl⟩ : ∃ (a : Fin 1) (b : Fin 1) (q : Fin 128), j = ix3 a b q := ⟨j 0, j 1, j 2, eq_ix3 j⟩
  obtain rfl : a = 0 := Subsingleton.elim _ _
  obtain rfl : b = 0 := Subsingleton.elim _ _
  show _ = (tileSum (h1V V c)) ((((cfg0.win 10).blk t).view.emb (ix3 0 0 q)) 0) ((((cfg0.win 10).blk t).view.emb (ix3 0 0 q)) 2)
  have r0 : (((cfg0.win 10).blk t).view.emb (ix3 0 0 q)) 0 = tOf t :=
    Fin.ext (by show win0_10.index t (0 : Fin 3) * 1 + 1 * 0 = t.val; omega)
  have r2 : (((cfg0.win 10).blk t).view.emb (ix3 0 0 q)) 2 = q :=
    Fin.ext (by show win0_10.index t (2 : Fin 3) * 128 + 1 * q.val = q.val; omega)
  rw [r0, r2]
  rw [pay2_apply, pay5_apply]
  exact Finset.sum_congr rfl fun r _ => point V c t r q

theorem flushed10 (t : Fin cfg0.N) :
    (dat0 (F := Ideal) V c).flushed 10 t = ((cfg0.win 10).blk t).view.read (Elt Ideal) (ofTiles (tileSum (h1V V c))) := by
  show (cfg0.win 10).cut (grid0.coords t) ((dat0 V c).after 10 t) = _
  rw [after0_10]
  unfold out0_10
  rw [View.canon_unit_zero hz3]
  simp only [View.ld_unit_zero (S := S1x1) hz2, View.ld_unit_zero (S := S10000x64) hz2, View.ld_unit_zero (S := S64x64) hz2,
    View.ld_unit_zero (S := S1x64) hz2]
  funext j
  exact point10 V c t j

theorem mem_blk10 (t : Fin cfg0.N) (i : S10x1x128.Idx) :
    i ∈ ((cfg0.win 10).blk t).view.set ↔ ∀ a : Fin 3, win0_10.index t a * S1x1x128.size a ≤ (i a).val ∧ (i a).val < win0_10.index t a * S1x1x128.size a + S1x1x128.size a := by
  show i ∈ ((View.whole main_v37_1).slice (win0_10.rect t)).set ↔ _
  rw [View.set_slice_whole, Rect.mem_set_unit]
  exact Iff.rfl

/-- Tile t's one row lies in the block of tile t. -/
theorem cover10 (i : S10x1x128.Idx) : ∃ t : Fin cfg0.N, (cfg0.win 10).flush t = true ∧ i ∈ ((cfg0.win 10).blk t).view.set := by
  have hi0 : (i 0).val < 10 := (i 0).isLt
  have hi1 : (i 1).val < 1 := (i 1).isLt
  have hi2 : (i 2).val < 128 := (i 2).isLt
  have hN : cfg0.N = 10 := N_0
  let t : Fin cfg0.N := ⟨(i 0).val, by rw [hN]; omega⟩
  refine ⟨t, flush0_10 t, ?_⟩
  rw [mem_blk10]
  obtain ⟨e0, e1, e2⟩ := (idx_facts t).2.2.2.2.2.2.2.2.2.2.1
  have ht : t.val = (i 0).val := rfl
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1 ≤ (i 1).val ∧ (i 1).val < win0_10.index t (1 : Fin 3) * 1 + 1; omega
  | ⟨2, _⟩ => show win0_10.index t (2 : Fin 3) * 128 ≤ (i 2).val ∧ (i 2).val < win0_10.index t (2 : Fin 3) * 128 + 128; omega

theorem final10 : (dat0 (F := Ideal) V c).arrAt 10 cfg0.N = ofTiles (tileSum (h1V V c)) :=
  (dat0 V c).arrAt_eq_of_cover 10 (ofTiles (tileSum (h1V V c))) (fun t _ => flushed10 V c t) cover10

/-! ### Output 11: each tile's column sums of squares about the tile's own means -/

theorem point11 (t : Fin cfg0.N) (j : S1x1x128.Idx) :
    k0_pay3 (F := Ideal) (k0_pay6 (iblk0 V c 0 t) (iblk0 V c 1 t) (iblk0 V c 2 t) (iblk0 V c 3 t) (iblk0 V c 4 t) (iblk0 V c 3 t)
      (iblk0 V c 5 t) (iblk0 V c 6 t) (iblk0 V c 7 t) (iblk0 V c 8 t)) j
    = ofTiles (tileM2 cT (h1V V c)) (((cfg0.win 11).blk t).view.emb j) := by
  obtain ⟨e0, e1, e2⟩ := (idx_facts t).2.2.2.2.2.2.2.2.2.2.2
  obtain ⟨a, b, q, rfl⟩ : ∃ (a : Fin 1) (b : Fin 1) (q : Fin 128), j = ix3 a b q := ⟨j 0, j 1, j 2, eq_ix3 j⟩
  obtain rfl : a = 0 := Subsingleton.elim _ _
  obtain rfl : b = 0 := Subsingleton.elim _ _
  show _ = (tileM2 cT (h1V V c)) ((((cfg0.win 11).blk t).view.emb (ix3 0 0 q)) 0) ((((cfg0.win 11).blk t).view.emb (ix3 0 0 q)) 2)
  have r0 : (((cfg0.win 11).blk t).view.emb (ix3 0 0 q)) 0 = tOf t :=
    Fin.ext (by show win0_11.index t (0 : Fin 3) * 1 + 1 * 0 = t.val; omega)
  have r2 : (((cfg0.win 11).blk t).view.emb (ix3 0 0 q)) 2 = q :=
    Fin.ext (by show win0_11.index t (2 : Fin 3) * 128 + 1 * q.val = q.val; omega)
  rw [r0, r2]
  rw [pay3_apply]
  have hs : k0_pay5 (F := Ideal) (iblk0 V c 0 t) (iblk0 V c 1 t) (iblk0 V c 2 t) (iblk0 V c 3 t) (iblk0 V c 4 t) (iblk0 V c 3 t)
      (iblk0 V c 5 t) (iblk0 V c 6 t) (iblk0 V c 7 t) (iblk0 V c 8 t) (ix2 0 q) = tileSum (h1V V c) (tOf t) q := by
    rw [pay5_apply]
    exact Finset.sum_congr rfl fun r _ => point V c t r q
  refine Finset.sum_congr rfl fun r _ => ?_
  rw [pay6_apply, point, hs]

theorem flushed11 (t : Fin cfg0.N) :
    (dat0 (F := Ideal) V c).flushed 11 t = ((cfg0.win 11).blk t).view.read (Elt Ideal) (ofTiles (tileM2 cT (h1V V c))) := by
  show (cfg0.win 11).cut (grid0.coords t) ((dat0 V c).after 11 t) = _
  rw [after0_11]
  unfold out0_11
  rw [View.canon_unit_zero hz3]
  simp only [View.ld_unit_zero (S := S1x1) hz2, View.ld_unit_zero (S := S10000x64) hz2, View.ld_unit_zero (S := S64x64) hz2,
    View.ld_unit_zero (S := S1x64) hz2]
  funext j
  exact point11 V c t j

theorem mem_blk11 (t : Fin cfg0.N) (i : S10x1x128.Idx) :
    i ∈ ((cfg0.win 11).blk t).view.set ↔ ∀ a : Fin 3, win0_11.index t a * S1x1x128.size a ≤ (i a).val ∧ (i a).val < win0_11.index t a * S1x1x128.size a + S1x1x128.size a := by
  show i ∈ ((View.whole main_v37_2).slice (win0_11.rect t)).set ↔ _
  rw [View.set_slice_whole, Rect.mem_set_unit]
  exact Iff.rfl

/-- Tile t's one row lies in the block of tile t. -/
theorem cover11 (i : S10x1x128.Idx) : ∃ t : Fin cfg0.N, (cfg0.win 11).flush t = true ∧ i ∈ ((cfg0.win 11).blk t).view.set := by
  have hi0 : (i 0).val < 10 := (i 0).isLt
  have hi1 : (i 1).val < 1 := (i 1).isLt
  have hi2 : (i 2).val < 128 := (i 2).isLt
  have hN : cfg0.N = 10 := N_0
  let t : Fin cfg0.N := ⟨(i 0).val, by rw [hN]; omega⟩
  refine ⟨t, flush0_11 t, ?_⟩
  rw [mem_blk11]
  obtain ⟨e0, e1, e2⟩ := (idx_facts t).2.2.2.2.2.2.2.2.2.2.2
  have ht : t.val = (i 0).val := rfl
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 1 ≤ (i 1).val ∧ (i 1).val < win0_11.index t (1 : Fin 3) * 1 + 1; omega
  | ⟨2, _⟩ => show win0_11.index t (2 : Fin 3) * 128 ≤ (i 2).val ∧ (i 2).val < win0_11.index t (2 : Fin 3) * 128 + 128; omega

theorem final11 : (dat0 (F := Ideal) V c).arrAt 11 cfg0.N = ofTiles (tileM2 cT (h1V V c)) :=
  (dat0 V c).arrAt_eq_of_cover 11 (ofTiles (tileM2 cT (h1V V c))) (fun t _ => flushed11 V c t) cover11

/-! ### The three output arrays -/

theorem out_h1
    (h0 : V c (Pipeline.arrRef spec0 0) = s1) (h1' : V c (Pipeline.arrRef spec0 1) = s2)
    (h2 : V c (Pipeline.arrRef spec0 2) = agU) (h3 : V c (Pipeline.arrRef spec0 3) = x)
    (h4 : V c (Pipeline.arrRef spec0 4) = agB) (h5 : V c (Pipeline.arrRef spec0 5) = uw1)
    (h6 : V c (Pipeline.arrRef spec0 6) = ub1) (h7 : V c (Pipeline.arrRef spec0 7) = bw1)
    (h8 : V c (Pipeline.arrRef spec0 8) = bb1) :
    (dat0 (F := Ideal) V c).arrAt 9 cfg0.N = ofM (h1 s1 s2 agU x agB uw1 bw1 ub1 bb1) := by
  subst h0 h1' h2 h3 h4 h5 h6 h7 h8
  exact final9 V c

theorem out_sum
    (h0 : V c (Pipeline.arrRef spec0 0) = s1) (h1' : V c (Pipeline.arrRef spec0 1) = s2)
    (h2 : V c (Pipeline.arrRef spec0 2) = agU) (h3 : V c (Pipeline.arrRef spec0 3) = x)
    (h4 : V c (Pipeline.arrRef spec0 4) = agB) (h5 : V c (Pipeline.arrRef spec0 5) = uw1)
    (h6 : V c (Pipeline.arrRef spec0 6) = ub1) (h7 : V c (Pipeline.arrRef spec0 7) = bw1)
    (h8 : V c (Pipeline.arrRef spec0 8) = bb1) :
    (dat0 (F := Ideal) V c).arrAt 10 cfg0.N = ofTiles (tileSum (h1 s1 s2 agU x agB uw1 bw1 ub1 bb1)) := by
  subst h0 h1' h2 h3 h4 h5 h6 h7 h8
  exact final10 V c

theorem out_m2
    (h0 : V c (Pipeline.arrRef spec0 0) = s1) (h1' : V c (Pipeline.arrRef spec0 1) = s2)
    (h2 : V c (Pipeline.arrRef spec0 2) = agU) (h3 : V c (Pipeline.arrRef spec0 3) = x)
    (h4 : V c (Pipeline.arrRef spec0 4) = agB) (h5 : V c (Pipeline.arrRef spec0 5) = uw1)
    (h6 : V c (Pipeline.arrRef spec0 6) = ub1) (h7 : V c (Pipeline.arrRef spec0 7) = bw1)
    (h8 : V c (Pipeline.arrRef spec0 8) = bb1) :
    (dat0 (F := Ideal) V c).arrAt 11 cfg0.N = ofTiles (tileM2 cT (h1 s1 s2 agU x agB uw1 bw1 ub1 bb1)) := by
  subst h0 h1' h2 h3 h4 h5 h6 h7 h8
  exact final11 V c

end Cert.KernelIdeal.Layer1

end
-- ==== Proof.Layer2.lean ====
/-
  The second tiled layer, as whole arrays: the first layer's output normalised, scaled, shifted and clipped, then each half through its own linear layer; and the tiles' statistics of the result.

  The road: the body's arithmetic is read at one entry of a block (the clipped entry, each half's product with its weights as a
  sum over the 64 shared positions, the two halves side by side, the column sums over the block's 10000 rows); a point's blocks are
  entries of the arrays (row p of point t's block is row t × 10000 + p); so what each point writes back is its block of one
  whole-array function, and the ten blocks tile each output array.
-/
import proofs.«415859_j20203526161168_3_alg».proof.Proof.Gen.KernelIdeal.Frame
import proofs.«415859_j20203526161168_3_alg».proof.Proof.Spec
import proofs.«415859_j20203526161168_3_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Idealize.ShloMosaic Idealize.ShloMosaic.TcCoe Idealize.ShloMosaic.ValueIdx Idealize.SL.Sem
open Cert.KernelIdeal Cert.KernelIdeal.Gen Cert.Spec Cert.Conv

variable (V : (c : Dev nD) → (b : Ref sig .tc) → Buf (Elt Ideal) ((c : Thread nD τ).loc b)) (c : Dev nD)
variable (hin : Vec Ideal S100000x128 .bf16) (mean var g be : Vec Ideal S1x128 .f32)
  (uw2 bw2 : Vec Ideal S64x64 .f32) (ub2 bb2 : Vec Ideal S1x64 .f32)

/-- The normalised, clipped activation, 128 wide. -/
def act : Fin 100000 → Fin 128 → EReal :=
  bnrelu cEps cZ (toM hin) (rowV mean) (rowV var) (rowV g) (rowV be)

/-- The layer's pre-activation, 128 wide: each half of the activation through its branch's linear layer. -/
def h2 : Fin 100000 → Fin 128 → EReal :=
  cat (lin (leftHalf (act hin mean var g be)) (toM uw2) (rowV ub2)) (lin (rightHalf (act hin mean var g be)) (toM bw2) (rowV bb2))

/-! ### The body's arithmetic at an entry -/

/-- The normalised, scaled, shifted and clipped block at an entry. -/
theorem pay6_apply (x0 : Vec Ideal S10000x128 .bf16) (x1 x2 x3 x4 : Vec Ideal S1x128 .f32) (p : Fin 10000) (q : Fin 128) :
    k1_pay6 (F := Ideal) x0 x1 x2 x3 x4 (ix2 p q)
      = max (((x0 (ix2 p q) - x1 (ix2 0 q)) * Ideal.rsqrt (x2 (ix2 0 q) + cEps)) * x3 (ix2 0 q) + x4 (ix2 0 q)) cZ := by
  unfold k1_pay6
  simp only [shapeCast_self]
  simp only [maximumf_apply, addf_apply, mulf_apply, subf_apply, extf_apply, broadcast_apply, broadcastTo_1b_ab_apply]
  rfl

/-! ### The matrix product at an entry -/

theorem lhs_dot_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_dot_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_dot_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_dot_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of rows times a 64 by 64 matrix, from zero, at an entry: the sum over the shared index. -/
theorem matmul_zero_apply (a : FVec Ideal S10000x64 .f32) (w : FVec Ideal S64x64 .f32) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ### The two branches, side by side -/

/-- The left branch's linear layer on a block at an entry. -/
theorem pay7_apply (x0 : Vec Ideal S10000x128 .bf16) (x1 x2 x3 x4 : Vec Ideal S1x128 .f32) (x5 : Vec Ideal S64x64 .f32)
    (x6 : Vec Ideal S1x64 .f32) (p : Fin 10000) (q : Fin 64) :
    k1_pay7 (F := Ideal) x0 x1 x2 x3 x4 x5 x6 (ix2 p q)
      = (∑ k : Fin 64, k1_pay6 (F := Ideal) x0 x1 x2 x3 x4 (ix2 p ⟨k.val, by omega⟩) * x5 (ix2 k q)) + x6 (ix2 0 q) := by
  unfold k1_pay7
  simp only [shapeCast_self]
  refine (addf_apply _ _ _).trans ?_
  rw [broadcastTo_1b_ab_apply x6, matmul_zero_apply]
  refine congrArg (· + x6 (ix2 0 q)) (Finset.sum_congr rfl fun k _ => ?_)
  rw [slice2_axis1_eq]
  refine congrArg (fun z => k1_pay6 (F := Ideal) x0 x1 x2 x3 x4 (ix2 p z) * x5 (ix2 k q)) (Fin.ext ?_)
  show 0 + k.val = k.val
  omega

/-- The right branch's product on a block at an entry. -/
theorem pay8_apply (x0 : Vec Ideal S10000x128 .bf16) (x1 x2 x3 x4 : Vec Ideal S1x128 .f32) (x7 : Vec Ideal S64x64 .f32)
    (p : Fin 10000) (q : Fin 64) :
    k1_pay8 (F := Ideal) x0 x1 x2 x3 x4 x7 (ix2 p q)
      = ∑ k : Fin 64, k1_pay6 (F := Ideal) x0 x1 x2 x3 x4 (ix2 p ⟨k.val + 64, by omega⟩) * x7 (ix2 k q) := by
  unfold k1_pay8
  rw [matmul_zero_apply]
  refine Finset.sum_congr rfl fun k _ => ?_
  rw [slice2_axis1_eq]
  refine congrArg (fun z => k1_pay6 (F := Ideal) x0 x1 x2 x3 x4 (ix2 p z) * x7 (ix2 k q)) (Fin.ext ?_)
  show 64 + k.val = k.val + 64
  omega

/-- The right branch's bias row under every row of a block. -/
theorem pay9_apply (x8 : Vec Ideal S1x64 .f32) (p : Fin 10000) (q : Fin 64) :
    k1_pay9 (F := Ideal) x8 (ix2 p q) = x8 (ix2 0 q) := by
  unfold k1_pay9
  simp only [shapeCast_self]
  exact broadcastTo_1b_ab_apply x8 _ p q

/-- Two 64-wide blocks side by side (the second the sum of two), at an entry. -/
theorem pay1_apply (v31 v33 v36 : FVec Ideal S10000x64 .f32) (p : Fin 10000) (q : Fin 128) :
    k1_pay1 (F := Ideal) v31 v33 v36 (ix2 p q)
      = if h : q.val < 64 then v31 (ix2 p ⟨q.val, h⟩)
        else v33 (ix2 p ⟨q.val - 64, by omega⟩) + v36 (ix2 p ⟨q.val - 64, by omega⟩) := by
  unfold k1_pay1
  by_cases h : q.val < 64
  · rw [dif_pos h]
    refine concatenate_pair_apply_left (1 : Fin S10000x128.rank) v31 (addf v33 v36) _ (ix2 p q) rfl (ix2 p ⟨q.val, h⟩) fun b => ?_
    match b with
    | ⟨0, _⟩ => rfl
    | ⟨1, _⟩ => rfl
  · rw [dif_neg h]
    refine (concatenate_pair_apply_right (1 : Fin S10000x128.rank) v31 (addf v33 v36) _ (ix2 p q) rfl rfl (ix2 p ⟨q.val - 64, by omega⟩) (fun b hb => ?_) ?_).trans rfl
    · match b with
      | ⟨0, _⟩ => rfl
      | ⟨1, _⟩ => exact absurd rfl hb
    · show q.val - 64 + 64 = q.val
      omega

/-- The layer on any number of rows: normalise, scale, shift, clip; each half through its own linear layer. -/
def layer {N : ℕ} (X : Fin N → Fin 128 → EReal) (mean var g be : Fin 128 → EReal) (uw bw : Fin 64 → Fin 64 → EReal)
    (ub bb : Fin 64 → EReal) : Fin N → Fin 128 → EReal :=
  cat (lin (leftHalf (bnrelu cEps cZ X mean var g be)) uw ub) (lin (rightHalf (bnrelu cEps cZ X mean var g be)) bw bb)

/-- What the body computes from a block of rows is the layer on those rows. -/
theorem block_apply (x0 : Vec Ideal S10000x128 .bf16) (x1 x2 x3 x4 : Vec Ideal S1x128 .f32) (x5 x7 : Vec Ideal S64x64 .f32)
    (x6 x8 : Vec Ideal S1x64 .f32) (p : Fin 10000) (q : Fin 128) :
    k1_pay1 (F := Ideal) (k1_pay7 x0 x1 x2 x3 x4 x5 x6) (k1_pay8 x0 x1 x2 x3 x4 x7) (k1_pay9 x8) (ix2 p q)
      = layer (toM x0) (rowV x1) (rowV x2) (rowV x3) (rowV x4) (toM x5) (toM x7) (rowV x6) (rowV x8) p q := by
  rw [pay1_apply]
  unfold layer cat
  by_cases h : q.val < 64
  · rw [dif_pos h, dif_pos h, pay7_apply]
    unfold lin
    refine congrArg (· + x6 (ix2 0 ⟨q.val, h⟩)) (Finset.sum_congr rfl fun k _ => ?_)
    rw [pay6_apply]
    rfl
  · rw [dif_neg h, dif_neg h, pay8_apply, pay9_apply]
    unfold lin
    refine congrArg (· + x8 (ix2 0 ⟨q.val - 64, by omega⟩)) (Finset.sum_congr rfl fun k _ => ?_)
    rw [pay6_apply]
    rfl

/-! ### The tile statistics at an entry -/

/-- Over a column, the row coordinate put back in front. -/
theorem lift_ix (h : S10000x128.Reduces [0] S128) (q : Fin 128) (r : Fin 10000) : h.lift (ix1 q) r = ix2 r q :=
  funext fun a => Fin.ext (match a with | ⟨0, _⟩ => rfl | ⟨1, _⟩ => rfl)

/-- A sum over a block's rows, kept as one row: at a column, the sum of that column. -/
theorem rowsum_apply (X : FVec Ideal S10000x128 .f32) (u : Fin 1) (q : Fin 128) :
    shapeCast S1x128 (multiReduction (F := Ideal) .add [0] S128 X 0x00000000#32 reduces_S10000x128_S128 (.inl rfl) rfl) shapeCasts_S128_S1x128 (ix2 u q)
      = ∑ r : Fin 10000, X (ix2 r q) := by
  rw [shapeCast_a_1a_apply]
  refine (Ideal.multiReduction_add_single X _ reduces_S10000x128_S128 _ _ (ix1 q)).trans ?_
  exact Finset.sum_congr rfl fun r _ => congrArg X (lift_ix _ q r)

/-- The column sums of what the body computes. -/
theorem pay2_apply (a b d : FVec Ideal S10000x64 .f32) (u : Fin 1) (q : Fin 128) :
    k1_pay2 (F := Ideal) a b d (ix2 u q) = ∑ r : Fin 10000, k1_pay1 (F := Ideal) a b d (ix2 r q) := by
  unfold k1_pay2
  exact rowsum_apply _ u q

/-- The column sums as a tile. -/
theorem pay4_apply (a b d : FVec Ideal S10000x64 .f32) (u v : Fin 1) (q : Fin 128) :
    k1_pay4 (F := Ideal) a b d (ix3 u v q) = k1_pay2 (F := Ideal) a b d (ix2 v q) := by
  unfold k1_pay4
  exact shapeCast_ab_1ab_apply _ _ u v q

/-- The column sums of squares about the block's own column means, as a tile. -/
theorem pay5_apply (a b d : FVec Ideal S10000x64 .f32) (u v : Fin 1) (q : Fin 128) :
    k1_pay5 (F := Ideal) a b d (ix3 u v q)
      = ∑ r : Fin 10000, (k1_pay1 (F := Ideal) a b d (ix2 r q) - Ideal.div (k1_pay2 (F := Ideal) a b d (ix2 0 q)) cT)
          * (k1_pay1 (F := Ideal) a b d (ix2 r q) - Ideal.div (k1_pay2 (F := Ideal) a b d (ix2 0 q)) cT) := by
  unfold k1_pay5
  rw [shapeCast_ab_1ab_apply]
  refine (rowsum_apply _ v q).trans ?_
  refine Finset.sum_congr rfl fun r _ => ?_
  simp only [mulf_apply, subf_apply, broadcastTo_1b_ab_apply]
  rfl

/-! ### Zero offsets, and where each window's block sits at a grid point -/

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the row-blocked windows move with the point, the others stay. -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0)
    ∧ (win1_10.index t (0 : Fin 3) = t.val ∧ win1_10.index t (1 : Fin 3) = 0 ∧ win1_10.index t (2 : Fin 3) = 0)
    ∧ (win1_11.index t (0 : Fin 3) = t.val ∧ win1_11.index t (1 : Fin 3) = 0 ∧ win1_11.index t (2 : Fin 3) = 0) :=
  (by decide +kernel : ∀ t : Fin grid1.N, _)

/-! ### The windows' blocks as entries of the arrays -/

/-- The region's input arrays as it finds them, at their literal types. -/
def A0 : Vec Ideal S100000x128 .bf16 := V c (Pipeline.arrRef spec1 0)
def A1 : Vec Ideal S1x128 .f32 := V c (Pipeline.arrRef spec1 1)
def A2 : Vec Ideal S1x128 .f32 := V c (Pipeline.arrRef spec1 2)
def A3 : Vec Ideal S1x128 .f32 := V c (Pipeline.arrRef spec1 3)
def A4 : Vec Ideal S1x128 .f32 := V c (Pipeline.arrRef spec1 4)
def A5 : Vec Ideal S64x64 .f32 := V c (Pipeline.arrRef spec1 5)
def A6 : Vec Ideal S1x64 .f32 := V c (Pipeline.arrRef spec1 6)
def A7 : Vec Ideal S64x64 .f32 := V c (Pipeline.arrRef spec1 7)
def A8 : Vec Ideal S1x64 .f32 := V c (Pipeline.arrRef spec1 8)

/-- A grid point as a tile number. -/
def pt (t : Fin cfg1.N) : Fin 10 := ⟨t.val, t.isLt⟩

/-- The row-blocked input's block at a point holds that tile's rows. -/
theorem iblk0_apply (t : Fin cfg1.N) (p : Fin 10000) (q : Fin 128) :
    (iblk1 (F := Ideal) V c 0 t : Vec Ideal S10000x128 .bf16) (ix2 p q) = A0 V c (ix2 (rowOf (pt t) p) q) := by
  unfold iblk1 A0
  rw [View.read_apply]
  show V c (Pipeline.arrRef spec1 0) _ = V c (Pipeline.arrRef spec1 0) _
  congr 1
  funext a
  apply Fin.ext
  match a with
  | ⟨0, _⟩ =>
    show win1_0.index t (0 : Fin 2) * 10000 + 1 * p.val = t.val * 10000 + p.val
    rw [(idx_facts t).1.1]; omega
  | ⟨1, _⟩ =>
    show win1_0.index t (1 : Fin 2) * 128 + 1 * q.val = q.val
    rw [(idx_facts t).1.2]; omega

/-- The same, read by row and column. -/
theorem iblk0_toM (t : Fin cfg1.N) (r : Fin 10000) (k : Fin 128) :
    toM (iblk1 (F := Ideal) V c 0 t : Vec Ideal S10000x128 .bf16) r k = toM (A0 V c) (rowOf (pt t) r) k := by
  unfold toM
  exact iblk0_apply V c t r k

/-- The windows over whole arrays hold them at every point. -/
theorem iblk1_eq (t : Fin cfg1.N) : (iblk1 (F := Ideal) V c 1 t : Vec Ideal S1x128 .f32) = A1 V c := by
  funext j
  unfold iblk1 A1
  rw [View.read_apply]
  show V c (Pipeline.arrRef spec1 1) _ = V c (Pipeline.arrRef spec1 1) _
  congr 1
  funext a
  apply Fin.ext
  match a with
  | ⟨0, _⟩ =>
    show win1_1.index t (0 : Fin 2) * 1 + 1 * (j 0).val = (j 0).val
    rw [(idx_facts t).2.1.1]; omega
  | ⟨1, _⟩ =>
    show win1_1.index t (1 : Fin 2) * 128 + 1 * (j 1).val = (j 1).val
    rw [(idx_facts t).2.1.2]; omega

theorem iblk2_eq (t : Fin cfg1.N) : (iblk1 (F := Ideal) V c 2 t : Vec Ideal S1x128 .f32) = A2 V c := by
  funext j
  unfold iblk1 A2
  rw [View.read_apply]
  show V c (Pipeline.arrRef spec1 2) _ = V c (Pipeline.arrRef spec1 2) _
  congr 1
  funext a
  apply Fin.ext
  match a with
  | ⟨0, _⟩ =>
    show win1_2.index t (0 : Fin 2) * 1 + 1 * (j 0).val = (j 0).val
    rw [(idx_facts t).2.2.1.1]; omega
  | ⟨1, _⟩ =>
    show win1_2.index t (1 : Fin 2) * 128 + 1 * (j 1).val = (j 1).val
    rw [(idx_facts t).2.2.1.2]; omega

theorem iblk3_eq (t : Fin cfg1.N) : (iblk1 (F := Ideal) V c 3 t : Vec Ideal S1x128 .f32) = A3 V c := by
  funext j
  unfold iblk1 A3
  rw [View.read_apply]
  show V c (Pipeline.arrRef spec1 3) _ = V c (Pipeline.arrRef spec1 3) _
  congr 1
  funext a
  apply Fin.ext
  match a with
  | ⟨0, _⟩ =>
    show win1_3.index t (0 : Fin 2) * 1 + 1 * (j 0).val = (j 0).val
    rw [(idx_facts t).2.2.2.1.1]; omega
  | ⟨1, _⟩ =>
    show win1_3.index t (1 : Fin 2) * 128 + 1 * (j 1).val = (j 1).val
    rw [(idx_facts t).2.2.2.1.2]; omega

theorem iblk4_eq (t : Fin cfg1.N) : (iblk1 (F := Ideal) V c 4 t : Vec Ideal S1x128 .f32) = A4 V c := by
  funext j
  unfold iblk1 A4
  rw [View.read_apply]
  show V c (Pipeline.arrRef spec1 4) _ = V c (Pipeline.arrRef spec1 4) _
  congr 1
  funext a
  apply Fin.ext
  match a with
  | ⟨0, _⟩ =>
    show win1_4.index t (0 : Fin 2) * 1 + 1 * (j 0).val = (j 0).val
    rw [(idx_facts t).2.2.2.2.1.1]; omega
  | ⟨1, _⟩ =>
    show win1_4.index t (1 : Fin 2) * 128 + 1 * (j 1).val = (j 1).val
    rw [(idx_facts t).2.2.2.2.1.2]; omega

theorem iblk5_eq (t : Fin cfg1.N) : (iblk1 (F := Ideal) V c 5 t : Vec Ideal S64x64 .f32) = A5 V c := by
  funext j
  unfold iblk1 A5
  rw [View.read_apply]
  show V c (Pipeline.arrRef spec1 5) _ = V c (Pipeline.arrRef spec1 5) _
  congr 1
  funext a
  apply Fin.ext
  match a with
  | ⟨0, _⟩ =>
    show win1_5.index t (0 : Fin 2) * 64 + 1 * (j 0).val = (j 0).val
    rw [(idx_facts t).2.2.2.2.2.1.1]; omega
  | ⟨1, _⟩ =>
    show win1_5.index t (1 : Fin 2) * 64 + 1 * (j 1).val = (j 1).val
    rw [(idx_facts t).2.2.2.2.2.1.2]; omega

theorem iblk6_eq (t : Fin cfg1.N) : (iblk1 (F := Ideal) V c 6 t : Vec Ideal S1x64 .f32) = A6 V c := by
  funext j
  unfold iblk1 A6
  rw [View.read_apply]
  show V c (Pipeline.arrRef spec1 6) _ = V c (Pipeline.arrRef spec1 6) _
  congr 1
  funext a
  apply Fin.ext
  match a with
  | ⟨0, _⟩ =>
    show win1_6.index t (0 : Fin 2) * 1 + 1 * (j 0).val = (j 0).val
    rw [(idx_facts t).2.2.2.2.2.2.1.1]; omega
  | ⟨1, _⟩ =>
    show win1_6.index t (1 : Fin 2) * 64 + 1 * (j 1).val = (j 1).val
    rw [(idx_facts t).2.2.2.2.2.2.1.2]; omega

theorem iblk7_eq (t : Fin cfg1.N) : (iblk1 (F := Ideal) V c 7 t : Vec Ideal S64x64 .f32) = A7 V c := by
  funext j
  unfold iblk1 A7
  rw [View.read_apply]
  show V c (Pipeline.arrRef spec1 7) _ = V c (Pipeline.arrRef spec1 7) _
  congr 1
  funext a
  apply Fin.ext
  match a with
  | ⟨0, _⟩ =>
    show win1_7.index t (0 : Fin 2) * 64 + 1 * (j 0).val = (j 0).val
    rw [(idx_facts t).2.2.2.2.2.2.2.1.1]; omega
  | ⟨1, _⟩ =>
    show win1_7.index t (1 : Fin 2) * 64 + 1 * (j 1).val = (j 1).val
    rw [(idx_facts t).2.2.2.2.2.2.2.1.2]; omega

theorem iblk8_eq (t : Fin cfg1.N) : (iblk1 (F := Ideal) V c 8 t : Vec Ideal S1x64 .f32) = A8 V c := by
  funext j
  unfold iblk1 A8
  rw [View.read_apply]
  show V c (Pipeline.arrRef spec1 8) _ = V c (Pipeline.arrRef spec1 8) _
  congr 1
  funext a
  apply Fin.ext
  match a with
  | ⟨0, _⟩ =>
    show win1_8.index t (0 : Fin 2) * 1 + 1 * (j 0).val = (j 0).val
    rw [(idx_facts t).2.2.2.2.2.2.2.2.1.1]; omega
  | ⟨1, _⟩ =>
    show win1_8.index t (1 : Fin 2) * 64 + 1 * (j 1).val = (j 1).val
    rw [(idx_facts t).2.2.2.2.2.2.2.2.1.2]; omega

/-! ### What each point writes back to the layer's array, and the blocks tile it -/

/-- The layer on the arrays the region finds. -/
def H2 : Fin 100000 → Fin 128 → EReal :=
  layer (toM (A0 V c)) (rowV (A1 V c)) (rowV (A2 V c)) (rowV (A3 V c)) (rowV (A4 V c)) (toM (A5 V c)) (toM (A7 V c))
    (rowV (A6 V c)) (rowV (A8 V c))

/-- The layer on a point's blocks is the layer's rows of that tile. -/
theorem layer_blk (t : Fin cfg1.N) (p : Fin 10000) (q : Fin 128) :
    layer (toM (iblk1 (F := Ideal) V c 0 t : Vec Ideal S10000x128 .bf16)) (rowV (iblk1 (F := Ideal) V c 1 t : Vec Ideal S1x128 .f32)) (rowV (iblk1 (F := Ideal) V c 2 t : Vec Ideal S1x128 .f32)) (rowV (iblk1 (F := Ideal) V c 3 t : Vec Ideal S1x128 .f32)) (rowV (iblk1 (F := Ideal) V c 4 t : Vec Ideal S1x128 .f32)) (toM (iblk1 (F := Ideal) V c 5 t : Vec Ideal S64x64 .f32)) (toM (iblk1 (F := Ideal) V c 7 t : Vec Ideal S64x64 .f32)) (rowV (iblk1 (F := Ideal) V c 6 t : Vec Ideal S1x64 .f32)) (rowV (iblk1 (F := Ideal) V c 8 t : Vec Ideal S1x64 .f32)) p q = H2 V c (rowOf (pt t) p) q := by
  have h0 : toM (iblk1 (F := Ideal) V c 0 t : Vec Ideal S10000x128 .bf16) = fun r k => toM (A0 V c) (rowOf (pt t) r) k :=
    funext fun r => funext fun k => iblk0_toM V c t r k
  rw [h0, iblk1_eq, iblk2_eq, iblk3_eq, iblk4_eq, iblk5_eq, iblk6_eq, iblk7_eq, iblk8_eq]
  rfl

/-- What the body computes at a point, entry by entry: the layer's rows of that tile. -/
theorem body_apply (t : Fin cfg1.N) (p : Fin 10000) (q : Fin 128) :
    k1_pay1 (F := Ideal) (k1_pay7 (iblk1 V c 0 t) (iblk1 V c 1 t) (iblk1 V c 2 t) (iblk1 V c 3 t) (iblk1 V c 4 t) (iblk1 V c 5 t) (iblk1 V c 6 t)) (k1_pay8 (iblk1 V c 0 t) (iblk1 V c 1 t) (iblk1 V c 2 t) (iblk1 V c 3 t) (iblk1 V c 4 t) (iblk1 V c 7 t)) (k1_pay9 (iblk1 V c 8 t)) (ix2 p q) = H2 V c (rowOf (pt t) p) q :=
  (block_apply _ _ _ _ _ _ _ _ _ p q).trans (layer_blk V c t p q)

/-- Equal coordinates, equal entries. -/
theorem apply_congr {a b : ℕ} (f : Fin a → Fin b → EReal) {r r' : Fin a} {k k' : Fin b} (hr : r.val = r'.val) (hk : k.val = k'.val) :
    f r k = f r' k' := by
  rw [Fin.ext hr, Fin.ext hk]

/-- What a point writes back to the layer's array is that array's block at the point. -/
theorem flushed9_eq (t : Fin cfg1.N) :
    (dat1 (F := Ideal) V c).flushed 9 t = ((cfg1.win 9).blk t).view.read (Elt Ideal) (ofM (H2 V c)) := by
  show (cfg1.win 9).cut (grid1.coords t) ((dat1 V c).after 9 t) = _
  rw [after1_9]
  unfold out1_9
  rw [View.canon_unit_zero hz2]
  simp only [View.ld_unit_zero (S := S10000x128) hz2, View.ld_unit_zero (S := S1x128) hz2, View.ld_unit_zero (S := S64x64) hz2, View.ld_unit_zero (S := S1x64) hz2]
  funext j
  obtain ⟨p, q, rfl⟩ : ∃ (p : Fin 10000) (q : Fin 128), j = ix2 p q := ⟨j 0, j 1, eq_ix2 j⟩
  rw [View.read_apply]
  refine (body_apply V c t p q).trans ?_
  refine apply_congr (H2 V c) ?_ ?_
  · show t.val * 10000 + p.val = win1_9.index t (0 : Fin 2) * 10000 + 1 * p.val
    rw [(idx_facts t).2.2.2.2.2.2.2.2.2.1.1]; omega
  · show q.val = win1_9.index t (1 : Fin 2) * 128 + 1 * q.val
    rw [(idx_facts t).2.2.2.2.2.2.2.2.2.1.2]; omega

/-- An index of the layer's array is in a point's block iff each coordinate is in the block's range. -/
theorem mem_blk9 (t : Fin cfg1.N) (i : S100000x128.Idx) :
    i ∈ ((cfg1.win 9).blk t).view.set ↔ ∀ a : Fin 2, win1_9.index t a * S10000x128.size a ≤ (i a).val ∧ (i a).val < win1_9.index t a * S10000x128.size a + S10000x128.size a := by
  show i ∈ ((View.whole main_v64_0).slice (win1_9.rect t)).set ↔ _
  rw [View.set_slice_whole, Rect.mem_set_unit]
  exact Iff.rfl

/-- Row r lies in the block of point r / 10000. -/
theorem cover9 (i : S100000x128.Idx) : ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht⟩ : ∃ t : Fin cfg1.N, t.val = (i 0).val / 10000 := ⟨⟨(i 0).val / 10000, by rw [show cfg1.N = 10 from N_1]; omega⟩, rfl⟩
  refine ⟨t, flush1_9 t, ?_⟩
  rw [mem_blk9]
  intro a
  match a with
  | ⟨0, _⟩ =>
    show win1_9.index t (0 : Fin 2) * 10000 ≤ (i 0).val ∧ (i 0).val < win1_9.index t (0 : Fin 2) * 10000 + 10000
    rw [(idx_facts t).2.2.2.2.2.2.2.2.2.1.1, ht]; omega
  | ⟨1, _⟩ =>
    show win1_9.index t (1 : Fin 2) * 128 ≤ (i 1).val ∧ (i 1).val < win1_9.index t (1 : Fin 2) * 128 + 128
    rw [(idx_facts t).2.2.2.2.2.2.2.2.2.1.2]; omega

/-- The layer's array after all ten points. -/
theorem final9 : (dat1 (F := Ideal) V c).arrAt 9 cfg1.N = ofM (H2 V c) :=
  (dat1 (F := Ideal) V c).arrAt_eq_of_cover 9 (ofM (H2 V c)) (fun t _ => flushed9_eq V c t) cover9

/-! ### The tile statistics of a point's block are the layer's tile statistics -/

/-- A block's column sums are the tile's. -/
theorem blk_sum (t : Fin cfg1.N) (u : Fin 1) (q : Fin 128) :
    k1_pay2 (F := Ideal) (k1_pay7 (iblk1 V c 0 t) (iblk1 V c 1 t) (iblk1 V c 2 t) (iblk1 V c 3 t) (iblk1 V c 4 t) (iblk1 V c 5 t) (iblk1 V c 6 t)) (k1_pay8 (iblk1 V c 0 t) (iblk1 V c 1 t) (iblk1 V c 2 t) (iblk1 V c 3 t) (iblk1 V c 4 t) (iblk1 V c 7 t)) (k1_pay9 (iblk1 V c 8 t)) (ix2 u q) = tileSum (H2 V c) (pt t) q :=
  (pay2_apply _ _ _ u q).trans (Finset.sum_congr rfl fun r _ => body_apply V c t r q)

/-- A block's column sums of squares, centred at the block's own column means, are the tile's. -/
theorem blk_m2 (t : Fin cfg1.N) (u v : Fin 1) (q : Fin 128) :
    k1_pay5 (F := Ideal) (k1_pay7 (iblk1 V c 0 t) (iblk1 V c 1 t) (iblk1 V c 2 t) (iblk1 V c 3 t) (iblk1 V c 4 t) (iblk1 V c 5 t) (iblk1 V c 6 t)) (k1_pay8 (iblk1 V c 0 t) (iblk1 V c 1 t) (iblk1 V c 2 t) (iblk1 V c 3 t) (iblk1 V c 4 t) (iblk1 V c 7 t)) (k1_pay9 (iblk1 V c 8 t)) (ix3 u v q) = tileM2 cT (H2 V c) (pt t) q := by
  refine (pay5_apply _ _ _ u v q).trans ?_
  unfold tileM2
  refine Finset.sum_congr rfl fun r _ => ?_
  rw [body_apply V c t r q, blk_sum V c t 0 q]

/-- What a point writes back to the tiles' sums is that tile's sums. -/
theorem flushed10_eq (t : Fin cfg1.N) :
    (dat1 (F := Ideal) V c).flushed 10 t = ((cfg1.win 10).blk t).view.read (Elt Ideal) (ofTiles (tileSum (H2 V c))) := by
  show (cfg1.win 10).cut (grid1.coords t) ((dat1 V c).after 10 t) = _
  rw [after1_10]
  unfold out1_10
  rw [View.canon_unit_zero hz3]
  simp only [View.ld_unit_zero (S := S10000x128) hz2, View.ld_unit_zero (S := S1x128) hz2, View.ld_unit_zero (S := S64x64) hz2, View.ld_unit_zero (S := S1x64) hz2]
  funext j
  obtain ⟨u, v, q, rfl⟩ : ∃ (u v : Fin 1) (q : Fin 128), j = ix3 u v q := ⟨j 0, j 1, j 2, eq_ix3 j⟩
  rw [View.read_apply]
  refine ((pay4_apply _ _ _ u v q).trans (blk_sum V c t v q)).trans ?_
  refine apply_congr (tileSum (H2 V c)) ?_ ?_
  · show t.val = win1_10.index t (0 : Fin 3) * 1 + 1 * u.val
    rw [(idx_facts t).2.2.2.2.2.2.2.2.2.2.1.1]; omega
  · show q.val = win1_10.index t (2 : Fin 3) * 128 + 1 * q.val
    rw [(idx_facts t).2.2.2.2.2.2.2.2.2.2.1.2.2]; omega

theorem mem_blk10 (t : Fin cfg1.N) (i : S10x1x128.Idx) :
    i ∈ ((cfg1.win 10).blk t).view.set ↔ ∀ a : Fin 3, win1_10.index t a * S1x1x128.size a ≤ (i a).val ∧ (i a).val < win1_10.index t a * S1x1x128.size a + S1x1x128.size a := by
  show i ∈ ((View.whole main_v64_1).slice (win1_10.rect t)).set ↔ _
  rw [View.set_slice_whole, Rect.mem_set_unit]
  exact Iff.rfl

/-- Tile s is the block of point s. -/
theorem cover10 (i : S10x1x128.Idx) : ∃ t : Fin cfg1.N, (cfg1.win 10).flush t = true ∧ i ∈ ((cfg1.win 10).blk t).view.set := by
  have hi0 : (i 0).val < 10 := (i 0).isLt
  have hi1 : (i 1).val < 1 := (i 1).isLt
  have hi2 : (i 2).val < 128 := (i 2).isLt
  obtain ⟨t, ht⟩ : ∃ t : Fin cfg1.N, t.val = (i 0).val := ⟨⟨(i 0).val, by rw [show cfg1.N = 10 from N_1]; omega⟩, rfl⟩
  refine ⟨t, flush1_10 t, ?_⟩
  rw [mem_blk10]
  intro a
  match a with
  | ⟨0, _⟩ =>
    show win1_10.index t (0 : Fin 3) * 1 ≤ (i 0).val ∧ (i 0).val < win1_10.index t (0 : Fin 3) * 1 + 1
    rw [(idx_facts t).2.2.2.2.2.2.2.2.2.2.1.1, ht]; omega
  | ⟨1, _⟩ =>
    show win1_10.index t (1 : Fin 3) * 1 ≤ (i 1).val ∧ (i 1).val < win1_10.index t (1 : Fin 3) * 1 + 1
    rw [(idx_facts t).2.2.2.2.2.2.2.2.2.2.1.2.1]; omega
  | ⟨2, _⟩ =>
    show win1_10.index t (2 : Fin 3) * 128 ≤ (i 2).val ∧ (i 2).val < win1_10.index t (2 : Fin 3) * 128 + 128
    rw [(idx_facts t).2.2.2.2.2.2.2.2.2.2.1.2.2]; omega

theorem final10 : (dat1 (F := Ideal) V c).arrAt 10 cfg1.N = ofTiles (tileSum (H2 V c)) :=
  (dat1 (F := Ideal) V c).arrAt_eq_of_cover 10 (ofTiles (tileSum (H2 V c))) (fun t _ => flushed10_eq V c t) cover10

/-- What a point writes back to the tiles' centred sums of squares is that tile's. -/
theorem flushed11_eq (t : Fin cfg1.N) :
    (dat1 (F := Ideal) V c).flushed 11 t = ((cfg1.win 11).blk t).view.read (Elt Ideal) (ofTiles (tileM2 cT (H2 V c))) := by
  show (cfg1.win 11).cut (grid1.coords t) ((dat1 V c).after 11 t) = _
  rw [after1_11]
  unfold out1_11
  rw [View.canon_unit_zero hz3]
  simp only [View.ld_unit_zero (S := S10000x128) hz2, View.ld_unit_zero (S := S1x128) hz2, View.ld_unit_zero (S := S64x64) hz2, View.ld_unit_zero (S := S1x64) hz2]
  funext j
  obtain ⟨u, v, q, rfl⟩ : ∃ (u v : Fin 1) (q : Fin 128), j = ix3 u v q := ⟨j 0, j 1, j 2, eq_ix3 j⟩
  rw [View.read_apply]
  refine (blk_m2 V c t u v q).trans ?_
  refine apply_congr (tileM2 cT (H2 V c)) ?_ ?_
  · show t.val = win1_11.index t (0 : Fin 3) * 1 + 1 * u.val
    rw [(idx_facts t).2.2.2.2.2.2.2.2.2.2.2.1]; omega
  · show q.val = win1_11.index t (2 : Fin 3) * 128 + 1 * q.val
    rw [(idx_facts t).2.2.2.2.2.2.2.2.2.2.2.2.2]; omega

theorem mem_blk11 (t : Fin cfg1.N) (i : S10x1x128.Idx) :
    i ∈ ((cfg1.win 11).blk t).view.set ↔ ∀ a : Fin 3, win1_11.index t a * S1x1x128.size a ≤ (i a).val ∧ (i a).val < win1_11.index t a * S1x1x128.size a + S1x1x128.size a := by
  show i ∈ ((View.whole main_v64_2).slice (win1_11.rect t)).set ↔ _
  rw [View.set_slice_whole, Rect.mem_set_unit]
  exact Iff.rfl

/-- Tile s is the block of point s. -/
theorem cover11 (i : S10x1x128.Idx) : ∃ t : Fin cfg1.N, (cfg1.win 11).flush t = true ∧ i ∈ ((cfg1.win 11).blk t).view.set := by
  have hi0 : (i 0).val < 10 := (i 0).isLt
  have hi1 : (i 1).val < 1 := (i 1).isLt
  have hi2 : (i 2).val < 128 := (i 2).isLt
  obtain ⟨t, ht⟩ : ∃ t : Fin cfg1.N, t.val = (i 0).val := ⟨⟨(i 0).val, by rw [show cfg1.N = 10 from N_1]; omega⟩, rfl⟩
  refine ⟨t, flush1_11 t, ?_⟩
  rw [mem_blk11]
  intro a
  match a with
  | ⟨0, _⟩ =>
    show win1_11.index t (0 : Fin 3) * 1 ≤ (i 0).val ∧ (i 0).val < win1_11.index t (0 : Fin 3) * 1 + 1
    rw [(idx_facts t).2.2.2.2.2.2.2.2.2.2.2.1, ht]; omega
  | ⟨1, _⟩ =>
    show win1_11.index t (1 : Fin 3) * 1 ≤ (i 1).val ∧ (i 1).val < win1_11.index t (1 : Fin 3) * 1 + 1
    rw [(idx_facts t).2.2.2.2.2.2.2.2.2.2.2.2.1]; omega
  | ⟨2, _⟩ =>
    show win1_11.index t (2 : Fin 3) * 128 ≤ (i 2).val ∧ (i 2).val < win1_11.index t (2 : Fin 3) * 128 + 128
    rw [(idx_facts t).2.2.2.2.2.2.2.2.2.2.2.2.2]; omega

theorem final11 : (dat1 (F := Ideal) V c).arrAt 11 cfg1.N = ofTiles (tileM2 cT (H2 V c)) :=
  (dat1 (F := Ideal) V c).arrAt_eq_of_cover 11 (ofTiles (tileM2 cT (H2 V c))) (fun t _ => flushed11_eq V c t) cover11

/-! ### The three arrays, under the naming of the region's inputs -/

/-- Under the naming of the region's inputs, the layer on the arrays the region finds is the layer. -/
theorem H2_eq (e0 : V c (Pipeline.arrRef spec1 0) = hin) (e1 : V c (Pipeline.arrRef spec1 1) = mean) (e2 : V c (Pipeline.arrRef spec1 2) = var) (e3 : V c (Pipeline.arrRef spec1 3) = g) (e4 : V c (Pipeline.arrRef spec1 4) = be) (e5 : V c (Pipeline.arrRef spec1 5) = uw2) (e6 : V c (Pipeline.arrRef spec1 6) = ub2) (e7 : V c (Pipeline.arrRef spec1 7) = bw2) (e8 : V c (Pipeline.arrRef spec1 8) = bb2) :
    H2 V c = h2 hin mean var g be uw2 bw2 ub2 bb2 := by
  subst e0 e1 e2 e3 e4 e5 e6 e7 e8
  rfl

theorem out_h2 (e0 : V c (Pipeline.arrRef spec1 0) = hin) (e1 : V c (Pipeline.arrRef spec1 1) = mean) (e2 : V c (Pipeline.arrRef spec1 2) = var) (e3 : V c (Pipeline.arrRef spec1 3) = g) (e4 : V c (Pipeline.arrRef spec1 4) = be) (e5 : V c (Pipeline.arrRef spec1 5) = uw2) (e6 : V c (Pipeline.arrRef spec1 6) = ub2) (e7 : V c (Pipeline.arrRef spec1 7) = bw2) (e8 : V c (Pipeline.arrRef spec1 8) = bb2) :
    (dat1 (F := Ideal) V c).arrAt 9 cfg1.N = ofM (h2 hin mean var g be uw2 bw2 ub2 bb2) :=
  (final9 V c).trans (congrArg ofM (H2_eq V c hin mean var g be uw2 bw2 ub2 bb2 e0 e1 e2 e3 e4 e5 e6 e7 e8))

theorem out_sum (e0 : V c (Pipeline.arrRef spec1 0) = hin) (e1 : V c (Pipeline.arrRef spec1 1) = mean) (e2 : V c (Pipeline.arrRef spec1 2) = var) (e3 : V c (Pipeline.arrRef spec1 3) = g) (e4 : V c (Pipeline.arrRef spec1 4) = be) (e5 : V c (Pipeline.arrRef spec1 5) = uw2) (e6 : V c (Pipeline.arrRef spec1 6) = ub2) (e7 : V c (Pipeline.arrRef spec1 7) = bw2) (e8 : V c (Pipeline.arrRef spec1 8) = bb2) :
    (dat1 (F := Ideal) V c).arrAt 10 cfg1.N = ofTiles (tileSum (h2 hin mean var g be uw2 bw2 ub2 bb2)) :=
  (final10 V c).trans (congrArg (fun f => ofTiles (tileSum f)) (H2_eq V c hin mean var g be uw2 bw2 ub2 bb2 e0 e1 e2 e3 e4 e5 e6 e7 e8))

theorem out_m2 (e0 : V c (Pipeline.arrRef spec1 0) = hin) (e1 : V c (Pipeline.arrRef spec1 1) = mean) (e2 : V c (Pipeline.arrRef spec1 2) = var) (e3 : V c (Pipeline.arrRef spec1 3) = g) (e4 : V c (Pipeline.arrRef spec1 4) = be) (e5 : V c (Pipeline.arrRef spec1 5) = uw2) (e6 : V c (Pipeline.arrRef spec1 6) = ub2) (e7 : V c (Pipeline.arrRef spec1 7) = bw2) (e8 : V c (Pipeline.arrRef spec1 8) = bb2) :
    (dat1 (F := Ideal) V c).arrAt 11 cfg1.N = ofTiles (tileM2 cT (h2 hin mean var g be uw2 bw2 ub2 bb2)) :=
  (final11 V c).trans (congrArg (fun f => ofTiles (tileM2 cT f)) (H2_eq V c hin mean var g be uw2 bw2 ub2 bb2 e0 e1 e2 e3 e4 e5 e6 e7 e8))

end Cert.KernelIdeal.Layer2

end
-- ==== Proof.Layer3.lean ====
/-
  The combining layer, as whole arrays: the second layer's output normalised, scaled, shifted and clipped, then through the 128-to-64 linear layer; and the tiles' statistics of the result.

  The road: the body's arithmetic is read at one entry of a block (the clipped entry, the product with the weights as a sum over
  the 128 shared positions, the column sums over the block's 10000 rows); a point's blocks are entries of the arrays (row p of
  point t's block is row t × 10000 + p); so what each point writes back is its block of one whole-array function, and the ten
  blocks tile each output array.
-/
import proofs.«415859_j20203526161168_3_alg».proof.Proof.Gen.KernelIdeal.Frame
import proofs.«415859_j20203526161168_3_alg».proof.Proof.Spec
import proofs.«415859_j20203526161168_3_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer3

open Idealize.ShloMosaic Idealize.ShloMosaic.TcCoe Idealize.ShloMosaic.ValueIdx Idealize.SL.Sem
open Cert.KernelIdeal Cert.KernelIdeal.Gen Cert.Spec Cert.Conv

variable (V : (c : Dev nD) → (b : Ref sig .tc) → Buf (Elt Ideal) ((c : Thread nD τ).loc b)) (c : Dev nD)
variable (hin : Vec Ideal S100000x128 .bf16) (mean var g be : Vec Ideal S1x128 .f32)
  (cw : Vec Ideal S128x64 .f32) (cb : Vec Ideal S1x64 .f32)

/-- The layer's pre-activation, 64 wide. -/
def hc : Fin 100000 → Fin 64 → EReal :=
  lin (bnrelu cEps cZ (toM hin) (rowV mean) (rowV var) (rowV g) (rowV be)) (toM cw) (rowV cb)

/-! ### Zero offsets, and where each window's block sits at a grid point -/

theorem hz2 : (![0, 0] : Fin 2 → Nat) = fun _ => 0 := funext fun a => by fin_cases a <;> rfl
theorem hz3 : (![0, 0, 0] : Fin 3 → Nat) = fun _ => 0 := funext fun a => by fin_cases a <;> rfl

theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 3) = t.val ∧ win2_8.index t (1 : Fin 3) = 0 ∧ win2_8.index t (2 : Fin 3) = 0
    ∧ win2_9.index t (0 : Fin 3) = t.val ∧ win2_9.index t (1 : Fin 3) = 0 ∧ win2_9.index t (2 : Fin 3) = 0 :=
  (by decide +kernel : ∀ t : Fin grid2.N, _)

/-! ### The body's arithmetic at an index -/

/-- One entry of the normalised, scaled, shifted and clipped block. -/
def act (x0 : Vec Ideal S10000x128 .bf16) (x1 x2 x3 x4 : Vec Ideal S1x128 .f32) (p : Fin 10000) (k : Fin 128) : EReal :=
  max (((x0 (ix2 p k) - x1 (ix2 0 k)) * Ideal.rsqrt (x2 (ix2 0 k) + cEps)) * x3 (ix2 0 k) + x4 (ix2 0 k)) cZ

/-- The block that is multiplied by the weights: the body's operations up to the clip. -/
def actV (v0 : Vec Ideal S10000x128 .bf16) (v3 v7 v14 v18 : Vec Ideal S1x128 .f32) : FVec Ideal S10000x128 .f32 :=
  maximumf
    (addf
      (mulf
        (mulf
          (subf (extf .f32 (shapeCast S10000x128 v0 shapeCasts_S10000x128_S10000x128) bitsLt_bf16_f32)
            (broadcastTo S10000x128 (shapeCast S1x128 v3 shapeCasts_S1x128_S1x128) broadcasts_S1x128_S10000x128))
          (broadcastTo S10000x128
            (rsqrt (addf (shapeCast S1x128 v7 shapeCasts_S1x128_S1x128) (broadcast S1x128 (Scalar.ofBits (F := Ideal) .f32 0x3727C5AC#32))))
            broadcasts_S1x128_S10000x128))
        (broadcastTo S10000x128 (shapeCast S1x128 v14 shapeCasts_S1x128_S1x128) broadcasts_S1x128_S10000x128))
      (broadcastTo S10000x128 (shapeCast S1x128 v18 shapeCasts_S1x128_S1x128) broadcasts_S1x128_S10000x128))
    (broadcast S10000x128 (Scalar.ofBits (F := Ideal) .f32 0x00000000#32))

theorem actV_apply (v0 : Vec Ideal S10000x128 .bf16) (v3 v7 v14 v18 : Vec Ideal S1x128 .f32) (p : Fin 10000) (k : Fin 128) :
    actV v0 v3 v7 v14 v18 (ix2 p k) = act v0 v3 v7 v14 v18 p k := by
  unfold actV act
  simp only [shapeCast_self]
  show max (((v0 (ix2 p k) - broadcastTo S10000x128 v3 broadcasts_S1x128_S10000x128 (ix2 p k))
      * broadcastTo S10000x128 (rsqrt (addf v7 (broadcast S1x128 (Scalar.ofBits (F := Ideal) .f32 0x3727C5AC#32)))) broadcasts_S1x128_S10000x128 (ix2 p k))
      * broadcastTo S10000x128 v14 broadcasts_S1x128_S10000x128 (ix2 p k)
      + broadcastTo S10000x128 v18 broadcasts_S1x128_S10000x128 (ix2 p k)) cZ = _
  rw [broadcastTo_1b_ab_apply, broadcastTo_1b_ab_apply, broadcastTo_1b_ab_apply, broadcastTo_1b_ab_apply]
  rfl

theorem pay4_eq (v0 : Vec Ideal S10000x128 .bf16) (v3 v7 v14 v18 : Vec Ideal S1x128 .f32) (v24 : Vec Ideal S128x64 .f32) (v26 : Vec Ideal S1x64 .f32) :
    k2_pay4 v0 v3 v7 v14 v18 v24 v26
      = addf (matmul (φ₁ := .f32) (φ₂ := .f32) dot_S10000x128_S128x64_S10000x64_1_0_0_1_n_n none (actV v0 v3 v7 v14 v18) (v24 : FVec Ideal S128x64 .f32) (constant S10000x64 .f32 0x00000000#32))
          (broadcastTo S10000x64 (shapeCast S1x64 v26 shapeCasts_S1x64_S1x64) broadcasts_S1x64_S10000x64) := rfl

/-! ### The matrix product at an index -/

theorem lhs_dot_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_dot_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_dot_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_dot_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A block times the weights into a zero accumulator: row times column, summed over the 128 shared positions. -/
theorem matmul_ix (A : FVec Ideal S10000x128 .f32) (W : FVec Ideal S128x64 .f32) (p : Fin 10000) (q : Fin 64) :
    matmul (φ₁ := .f32) (φ₂ := .f32) dot_S10000x128_S128x64_S10000x64_1_0_0_1_n_n none A W (constant S10000x64 .f32 0x00000000#32) (ix2 p q)
      = ∑ k : Fin 128, A (ix2 p k) * W (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The layer's pre-activation at a block's entry: the clipped block times the weights, plus the bias. -/
theorem pay4_apply (v0 : Vec Ideal S10000x128 .bf16) (v3 v7 v14 v18 : Vec Ideal S1x128 .f32) (v24 : Vec Ideal S128x64 .f32) (v26 : Vec Ideal S1x64 .f32)
    (p : Fin 10000) (q : Fin 64) :
    k2_pay4 v0 v3 v7 v14 v18 v24 v26 (ix2 p q) = (∑ k : Fin 128, act v0 v3 v7 v14 v18 p k * v24 (ix2 k q)) + v26 (ix2 0 q) := by
  rw [pay4_eq]
  show matmul (φ₁ := .f32) (φ₂ := .f32) dot_S10000x128_S128x64_S10000x64_1_0_0_1_n_n none (actV v0 v3 v7 v14 v18) (v24 : FVec Ideal S128x64 .f32) (constant S10000x64 .f32 0x00000000#32) (ix2 p q)
      + broadcastTo S10000x64 (shapeCast S1x64 v26 shapeCasts_S1x64_S1x64) broadcasts_S1x64_S10000x64 (ix2 p q) = _
  rw [matmul_ix, broadcastTo_1b_ab_apply, shapeCast_self]
  congr 1
  exact Finset.sum_congr rfl fun k _ => by rw [actV_apply]

/-! ### The tile statistics at an index -/

/-- Over a column index, the row coordinate put back in front. -/
theorem lift_ix (h : S10000x64.Reduces [0] S64) (q : Fin 64) (r : Fin 10000) : h.lift (ix1 q) r = ix2 r q :=
  funext fun a => Fin.ext (match a with | ⟨0, _⟩ => rfl | ⟨1, _⟩ => rfl)

/-- A sum over the block's rows, kept as one row: at a column, the sum of that column. -/
theorem rowsum_apply (X : FVec Ideal S10000x64 .f32) (u : Fin 1) (q : Fin 64) :
    shapeCast S1x64 (multiReduction (F := Ideal) .add [0] S64 X 0x00000000#32 reduces_S10000x64_S64 (.inl rfl) rfl) shapeCasts_S64_S1x64 (ix2 u q)
      = ∑ r : Fin 10000, X (ix2 r q) := by
  rw [shapeCast_a_1a_apply]
  refine (Ideal.multiReduction_add_single X _ reduces_S10000x64_S64 _ _ (ix1 q)).trans ?_
  exact Finset.sum_congr rfl fun r _ => congrArg X (lift_ix _ q r)

theorem pay5_apply (v0 : Vec Ideal S10000x128 .bf16) (v3 v7 v14 v18 : Vec Ideal S1x128 .f32) (v24 : Vec Ideal S128x64 .f32) (v26 : Vec Ideal S1x64 .f32)
    (u : Fin 1) (q : Fin 64) :
    k2_pay5 v0 v3 v7 v14 v18 v24 v26 (ix2 u q) = ∑ r : Fin 10000, k2_pay4 v0 v3 v7 v14 v18 v24 v26 (ix2 r q) := by
  unfold k2_pay5
  exact rowsum_apply _ u q

theorem pay6_apply (v0 : Vec Ideal S10000x128 .bf16) (v3 v7 v14 v18 : Vec Ideal S1x128 .f32) (v24 : Vec Ideal S128x64 .f32) (v26 : Vec Ideal S1x64 .f32)
    (u : Fin 1) (q : Fin 64) :
    k2_pay6 v0 v3 v7 v14 v18 v24 v26 (ix2 u q)
      = ∑ r : Fin 10000, (k2_pay4 v0 v3 v7 v14 v18 v24 v26 (ix2 r q) - Ideal.div (k2_pay5 v0 v3 v7 v14 v18 v24 v26 (ix2 0 q)) cT)
          * (k2_pay4 v0 v3 v7 v14 v18 v24 v26 (ix2 r q) - Ideal.div (k2_pay5 v0 v3 v7 v14 v18 v24 v26 (ix2 0 q)) cT) := by
  unfold k2_pay6
  refine (rowsum_apply _ u q).trans ?_
  refine Finset.sum_congr rfl fun r _ => ?_
  show (k2_pay4 v0 v3 v7 v14 v18 v24 v26 (ix2 r q)
        - broadcastTo S10000x64 (divf (k2_pay5 v0 v3 v7 v14 v18 v24 v26) (broadcast S1x64 (Scalar.ofBits (F := Ideal) .f32 0x461C4000#32))) broadcasts_S1x64_S10000x64 (ix2 r q))
      * (k2_pay4 v0 v3 v7 v14 v18 v24 v26 (ix2 r q)
        - broadcastTo S10000x64 (divf (k2_pay5 v0 v3 v7 v14 v18 v24 v26) (broadcast S1x64 (Scalar.ofBits (F := Ideal) .f32 0x461C4000#32))) broadcasts_S1x64_S10000x64 (ix2 r q)) = _
  rw [broadcastTo_1b_ab_apply]
  rfl

theorem pay1_apply (X : FVec Ideal S10000x64 .f32) (j : S10000x64.Idx) : k2_pay1 X j = X j := rfl

theorem pay2_apply (Y : FVec Ideal S1x64 .f32) (a b : Fin 1) (q : Fin 64) : k2_pay2 Y (ix3 a b q) = Y (ix2 b q) := by
  unfold k2_pay2
  exact shapeCast_ab_1ab_apply Y _ a b q

theorem pay3_apply (Y : FVec Ideal S1x64 .f32) (a b : Fin 1) (q : Fin 64) : k2_pay3 Y (ix3 a b q) = Y (ix2 b q) := by
  unfold k2_pay3
  exact shapeCast_ab_1ab_apply Y _ a b q

/-! ### The windows' blocks as entries of the arrays -/

theorem iblk0_apply (t : Fin cfg2.N) (p : Fin 10000) (k : Fin 128) (R : Fin 100000) (hR : R.val = t.val * 10000 + p.val) :
    (iblk2 V c 0 t : Vec Ideal S10000x128 .bf16) (ix2 p k) = (V c (Pipeline.arrRef spec2 0) : Vec Ideal S100000x128 .bf16) (ix2 R k) := by
  obtain ⟨e0, e1, -⟩ := idx_facts t
  unfold iblk2
  rw [View.read_apply]
  show (V c (Pipeline.arrRef spec2 0) : Vec Ideal S100000x128 .bf16) _ = _
  congr 1
  funext a; apply Fin.ext
  match a with
  | ⟨0, _⟩ => show win2_0.index t 0 * 10000 + 1 * p.val = R.val; rw [e0, hR]; omega
  | ⟨1, _⟩ => show win2_0.index t 1 * 128 + 1 * k.val = k.val; rw [e1]; omega

theorem iblk1_apply (t : Fin cfg2.N) (u : Fin 1) (k : Fin 128) :
    (iblk2 V c 1 t : Vec Ideal S1x128 .f32) (ix2 u k) = (V c (Pipeline.arrRef spec2 1) : Vec Ideal S1x128 .f32) (ix2 0 k) := by
  obtain ⟨-, -, e0, e1, -⟩ := idx_facts t
  unfold iblk2
  rw [View.read_apply]
  show (V c (Pipeline.arrRef spec2 1) : Vec Ideal S1x128 .f32) _ = _
  congr 1
  funext a; apply Fin.ext
  match a with
  | ⟨0, _⟩ => show win2_1.index t 0 * 1 + 1 * u.val = 0; rw [e0]; omega
  | ⟨1, _⟩ => show win2_1.index t 1 * 128 + 1 * k.val = k.val; rw [e1]; omega

theorem iblk2_apply (t : Fin cfg2.N) (u : Fin 1) (k : Fin 128) :
    (iblk2 V c 2 t : Vec Ideal S1x128 .f32) (ix2 u k) = (V c (Pipeline.arrRef spec2 2) : Vec Ideal S1x128 .f32) (ix2 0 k) := by
  obtain ⟨-, -, -, -, e0, e1, -⟩ := idx_facts t
  unfold iblk2
  rw [View.read_apply]
  show (V c (Pipeline.arrRef spec2 2) : Vec Ideal S1x128 .f32) _ = _
  congr 1
  funext a; apply Fin.ext
  match a with
  | ⟨0, _⟩ => show win2_2.index t 0 * 1 + 1 * u.val = 0; rw [e0]; omega
  | ⟨1, _⟩ => show win2_2.index t 1 * 128 + 1 * k.val = k.val; rw [e1]; omega

theorem iblk3_apply (t : Fin cfg2.N) (u : Fin 1) (k : Fin 128) :
    (iblk2 V c 3 t : Vec Ideal S1x128 .f32) (ix2 u k) = (V c (Pipeline.arrRef spec2 3) : Vec Ideal S1x128 .f32) (ix2 0 k) := by
  obtain ⟨-, -, -, -, -, -, e0, e1, -⟩ := idx_facts t
  unfold iblk2
  rw [View.read_apply]
  show (V c (Pipeline.arrRef spec2 3) : Vec Ideal S1x128 .f32) _ = _
  congr 1
  funext a; apply Fin.ext
  match a with
  | ⟨0, _⟩ => show win2_3.index t 0 * 1 + 1 * u.val = 0; rw [e0]; omega
  | ⟨1, _⟩ => show win2_3.index t 1 * 128 + 1 * k.val = k.val; rw [e1]; omega

theorem iblk4_apply (t : Fin cfg2.N) (u : Fin 1) (k : Fin 128) :
    (iblk2 V c 4 t : Vec Ideal S1x128 .f32) (ix2 u k) = (V c (Pipeline.arrRef spec2 4) : Vec Ideal S1x128 .f32) (ix2 0 k) := by
  obtain ⟨-, -, -, -, -, -, -, -, e0, e1, -⟩ := idx_facts t
  unfold iblk2
  rw [View.read_apply]
  show (V c (Pipeline.arrRef spec2 4) : Vec Ideal S1x128 .f32) _ = _
  congr 1
  funext a; apply Fin.ext
  match a with
  | ⟨0, _⟩ => show win2_4.index t 0 * 1 + 1 * u.val = 0; rw [e0]; omega
  | ⟨1, _⟩ => show win2_4.index t 1 * 128 + 1 * k.val = k.val; rw [e1]; omega

theorem iblk5_apply (t : Fin cfg2.N) (k : Fin 128) (q : Fin 64) :
    (iblk2 V c 5 t : Vec Ideal S128x64 .f32) (ix2 k q) = (V c (Pipeline.arrRef spec2 5) : Vec Ideal S128x64 .f32) (ix2 k q) := by
  obtain ⟨-, -, -, -, -, -, -, -, -, -, e0, e1, -⟩ := idx_facts t
  unfold iblk2
  rw [View.read_apply]
  show (V c (Pipeline.arrRef spec2 5) : Vec Ideal S128x64 .f32) _ = _
  congr 1
  funext a; apply Fin.ext
  match a with
  | ⟨0, _⟩ => show win2_5.index t 0 * 128 + 1 * k.val = k.val; rw [e0]; omega
  | ⟨1, _⟩ => show win2_5.index t 1 * 64 + 1 * q.val = q.val; rw [e1]; omega

theorem iblk6_apply (t : Fin cfg2.N) (u : Fin 1) (q : Fin 64) :
    (iblk2 V c 6 t : Vec Ideal S1x64 .f32) (ix2 u q) = (V c (Pipeline.arrRef spec2 6) : Vec Ideal S1x64 .f32) (ix2 0 q) := by
  obtain ⟨-, -, -, -, -, -, -, -, -, -, -, -, e0, e1, -⟩ := idx_facts t
  unfold iblk2
  rw [View.read_apply]
  show (V c (Pipeline.arrRef spec2 6) : Vec Ideal S1x64 .f32) _ = _
  congr 1
  funext a; apply Fin.ext
  match a with
  | ⟨0, _⟩ => show win2_6.index t 0 * 1 + 1 * u.val = 0; rw [e0]; omega
  | ⟨1, _⟩ => show win2_6.index t 1 * 64 + 1 * q.val = q.val; rw [e1]; omega

/-! ### A block's entries as the layer's -/

/-- The body's pre-activation at an entry, over any blocks that agree with the arrays at the entries it reads. -/
theorem pay4_hc (x0 : Vec Ideal S10000x128 .bf16) (x1 x2 x3 x4 : Vec Ideal S1x128 .f32) (x5 : Vec Ideal S128x64 .f32) (x6 : Vec Ideal S1x64 .f32)
    (R : Fin 100000) (p : Fin 10000) (q : Fin 64)
    (h0 : ∀ k : Fin 128, x0 (ix2 p k) = hin (ix2 R k)) (h1 : ∀ k : Fin 128, x1 (ix2 0 k) = mean (ix2 0 k))
    (h2 : ∀ k : Fin 128, x2 (ix2 0 k) = var (ix2 0 k)) (h3 : ∀ k : Fin 128, x3 (ix2 0 k) = g (ix2 0 k))
    (h4 : ∀ k : Fin 128, x4 (ix2 0 k) = be (ix2 0 k)) (h5 : ∀ k : Fin 128, x5 (ix2 k q) = cw (ix2 k q))
    (h6 : x6 (ix2 0 q) = cb (ix2 0 q)) :
    k2_pay4 x0 x1 x2 x3 x4 x5 x6 (ix2 p q) = hc hin mean var g be cw cb R q := by
  rw [pay4_apply]
  unfold hc lin
  congr 1
  · refine Finset.sum_congr rfl fun k _ => ?_
    unfold act bnrelu toM rowV
    rw [h0, h1, h2, h3, h4, h5]

/-- The body's pre-activation at entry (p, q) of a point's block is the layer's at row (point × 10000 + p). -/
theorem blk_hc (e0 : V c (Pipeline.arrRef spec2 0) = hin) (e1 : V c (Pipeline.arrRef spec2 1) = mean) (e2 : V c (Pipeline.arrRef spec2 2) = var) (e3 : V c (Pipeline.arrRef spec2 3) = g) (e4 : V c (Pipeline.arrRef spec2 4) = be) (e5 : V c (Pipeline.arrRef spec2 5) = cw) (e6 : V c (Pipeline.arrRef spec2 6) = cb)
    (t : Fin cfg2.N) (T : Fin 10) (hT : T.val = t.val) (p : Fin 10000) (q : Fin 64) :
    k2_pay4 (iblk2 V c 0 t) (iblk2 V c 1 t) (iblk2 V c 2 t) (iblk2 V c 3 t) (iblk2 V c 4 t) (iblk2 V c 5 t) (iblk2 V c 6 t) (ix2 p q)
      = hc hin mean var g be cw cb (rowOf T p) q := by
  subst e0 e1 e2 e3 e4 e5 e6
  exact pay4_hc _ _ _ _ _ _ _ (iblk2 V c 0 t) (iblk2 V c 1 t) (iblk2 V c 2 t) (iblk2 V c 3 t) (iblk2 V c 4 t) (iblk2 V c 5 t) (iblk2 V c 6 t) (rowOf T p) p q
    (fun k => iblk0_apply V c t p k (rowOf T p) (by show T.val * 10000 + p.val = _; rw [hT]))
    (fun k => iblk1_apply V c t 0 k) (fun k => iblk2_apply V c t 0 k) (fun k => iblk3_apply V c t 0 k) (fun k => iblk4_apply V c t 0 k)
    (fun k => iblk5_apply V c t k q) (iblk6_apply V c t 0 q)

/-! ### What each point writes back -/

theorem lt10 (t : Fin cfg2.N) : t.val < 10 := lt_of_lt_of_eq t.isLt N_2

theorem flushed7_eq (e0 : V c (Pipeline.arrRef spec2 0) = hin) (e1 : V c (Pipeline.arrRef spec2 1) = mean) (e2 : V c (Pipeline.arrRef spec2 2) = var) (e3 : V c (Pipeline.arrRef spec2 3) = g) (e4 : V c (Pipeline.arrRef spec2 4) = be) (e5 : V c (Pipeline.arrRef spec2 5) = cw) (e6 : V c (Pipeline.arrRef spec2 6) = cb)
    (t : Fin cfg2.N) :
    (dat2 (F := Ideal) V c).flushed 7 t = ((cfg2.win 7).blk t).view.read (Elt Ideal) (ofM (hc hin mean var g be cw cb)) := by
  show (cfg2.win 7).cut (grid2.coords t) ((dat2 V c).after 7 t) = _
  rw [after2_7]
  unfold out2_7
  rw [View.canon_unit_zero hz2]
  simp only [View.ld_unit_zero (S := S10000x128) hz2, View.ld_unit_zero (S := S1x128) hz2, View.ld_unit_zero (S := S128x64) hz2, View.ld_unit_zero (S := S1x64) hz2]
  funext j
  obtain ⟨p, q, rfl⟩ : ∃ (p : Fin 10000) (q : Fin 64), j = ix2 p q := ⟨j 0, j 1, eq_ix2 j⟩
  obtain ⟨-, -, -, -, -, -, -, -, -, -, -, -, -, -, i0, i1, -⟩ := idx_facts t
  show k2_pay1 (k2_pay4 (iblk2 V c 0 t) (iblk2 V c 1 t) (iblk2 V c 2 t) (iblk2 V c 3 t) (iblk2 V c 4 t) (iblk2 V c 5 t) (iblk2 V c 6 t)) (ix2 p q)
    = ofM (hc hin mean var g be cw cb) (((cfg2.win 7).blk t).view.emb (ix2 p q))
  have hE : ((cfg2.win 7).blk t).view.emb (ix2 p q) = (ix2 (rowOf ⟨t.val, lt10 t⟩ p) q : S100000x64.Idx) := by
    funext a; apply Fin.ext
    match a with
    | ⟨0, _⟩ => show win2_7.index t 0 * 10000 + 1 * p.val = t.val * 10000 + p.val; rw [i0]; omega
    | ⟨1, _⟩ => show win2_7.index t 1 * 64 + 1 * q.val = q.val; rw [i1]; omega
  refine Eq.trans ?_ (congrArg (ofM (hc hin mean var g be cw cb)) hE).symm
  exact blk_hc V c hin mean var g be cw cb e0 e1 e2 e3 e4 e5 e6 t ⟨t.val, lt10 t⟩ rfl p q

/-! ### The blocks tile the arrays -/

theorem mem_blk7 (t : Fin cfg2.N) (i : S100000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v91_0).slice (win2_7.rect t)).set ↔ _
  rw [View.set_slice_whole, Rect.mem_set_unit]
  exact Iff.rfl

/-- Row r lies in the block of point r / 10000. -/
theorem cover7 (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  obtain ⟨t, ht⟩ : ∃ t : Fin cfg2.N, t.val = (i 0).val / 10000 := ⟨⟨(i 0).val / 10000, by rw [show cfg2.N = 10 from N_2]; omega⟩, rfl⟩
  obtain ⟨-, -, -, -, -, -, -, -, -, -, -, -, -, -, i0, i1, -⟩ := idx_facts t
  refine ⟨t, flush2_7 t, ?_⟩
  rw [mem_blk7]
  intro a
  match a with
  | ⟨0, _⟩ => show win2_7.index t 0 * 10000 ≤ (i 0).val ∧ (i 0).val < win2_7.index t 0 * 10000 + 10000; rw [i0, ht]; omega
  | ⟨1, _⟩ => show win2_7.index t 1 * 64 ≤ (i 1).val ∧ (i 1).val < win2_7.index t 1 * 64 + 64; rw [i1]; omega

theorem out_hc (e0 : V c (Pipeline.arrRef spec2 0) = hin) (e1 : V c (Pipeline.arrRef spec2 1) = mean) (e2 : V c (Pipeline.arrRef spec2 2) = var) (e3 : V c (Pipeline.arrRef spec2 3) = g) (e4 : V c (Pipeline.arrRef spec2 4) = be) (e5 : V c (Pipeline.arrRef spec2 5) = cw) (e6 : V c (Pipeline.arrRef spec2 6) = cb) :
    (dat2 (F := Ideal) V c).arrAt 7 cfg2.N = ofM (hc hin mean var g be cw cb) :=
  (dat2 (F := Ideal) V c).arrAt_eq_of_cover 7 (ofM (hc hin mean var g be cw cb))
    (fun t _ => flushed7_eq V c hin mean var g be cw cb e0 e1 e2 e3 e4 e5 e6 t) cover7

/-! ### The tile statistics of a point's block are the layer's tile statistics -/

/-- A block's column sums are the tile's. -/
theorem blk_sum (e0 : V c (Pipeline.arrRef spec2 0) = hin) (e1 : V c (Pipeline.arrRef spec2 1) = mean) (e2 : V c (Pipeline.arrRef spec2 2) = var) (e3 : V c (Pipeline.arrRef spec2 3) = g) (e4 : V c (Pipeline.arrRef spec2 4) = be) (e5 : V c (Pipeline.arrRef spec2 5) = cw) (e6 : V c (Pipeline.arrRef spec2 6) = cb)
    (t : Fin cfg2.N) (T : Fin 10) (hT : T.val = t.val) (u : Fin 1) (q : Fin 64) :
    k2_pay5 (iblk2 V c 0 t) (iblk2 V c 1 t) (iblk2 V c 2 t) (iblk2 V c 3 t) (iblk2 V c 4 t) (iblk2 V c 5 t) (iblk2 V c 6 t) (ix2 u q) = tileSum (hc hin mean var g be cw cb) T q :=
  (pay5_apply _ _ _ _ _ _ _ u q).trans (Finset.sum_congr rfl fun r _ => blk_hc V c hin mean var g be cw cb e0 e1 e2 e3 e4 e5 e6 t T hT r q)

/-- A block's column sums of squares, centred at the block's own column means, are the tile's. -/
theorem blk_m2 (e0 : V c (Pipeline.arrRef spec2 0) = hin) (e1 : V c (Pipeline.arrRef spec2 1) = mean) (e2 : V c (Pipeline.arrRef spec2 2) = var) (e3 : V c (Pipeline.arrRef spec2 3) = g) (e4 : V c (Pipeline.arrRef spec2 4) = be) (e5 : V c (Pipeline.arrRef spec2 5) = cw) (e6 : V c (Pipeline.arrRef spec2 6) = cb)
    (t : Fin cfg2.N) (T : Fin 10) (hT : T.val = t.val) (u : Fin 1) (q : Fin 64) :
    k2_pay6 (iblk2 V c 0 t) (iblk2 V c 1 t) (iblk2 V c 2 t) (iblk2 V c 3 t) (iblk2 V c 4 t) (iblk2 V c 5 t) (iblk2 V c 6 t) (ix2 u q) = tileM2 cT (hc hin mean var g be cw cb) T q := by
  refine (pay6_apply _ _ _ _ _ _ _ u q).trans ?_
  unfold tileM2
  refine Finset.sum_congr rfl fun r _ => ?_
  have h1 := blk_hc V c hin mean var g be cw cb e0 e1 e2 e3 e4 e5 e6 t T hT r q
  have h2 := blk_sum V c hin mean var g be cw cb e0 e1 e2 e3 e4 e5 e6 t T hT 0 q
  rw [h1, h2]

theorem flushed8_eq (e0 : V c (Pipeline.arrRef spec2 0) = hin) (e1 : V c (Pipeline.arrRef spec2 1) = mean) (e2 : V c (Pipeline.arrRef spec2 2) = var) (e3 : V c (Pipeline.arrRef spec2 3) = g) (e4 : V c (Pipeline.arrRef spec2 4) = be) (e5 : V c (Pipeline.arrRef spec2 5) = cw) (e6 : V c (Pipeline.arrRef spec2 6) = cb) (t : Fin cfg2.N) :
    (dat2 (F := Ideal) V c).flushed 8 t = ((cfg2.win 8).blk t).view.read (Elt Ideal) (ofTiles (tileSum (hc hin mean var g be cw cb))) := by
  show (cfg2.win 8).cut (grid2.coords t) ((dat2 V c).after 8 t) = _
  rw [after2_8]
  unfold out2_8
  rw [View.canon_unit_zero hz3]
  simp only [View.ld_unit_zero (S := S10000x128) hz2, View.ld_unit_zero (S := S1x128) hz2, View.ld_unit_zero (S := S128x64) hz2, View.ld_unit_zero (S := S1x64) hz2]
  funext j
  obtain ⟨a, b, q, rfl⟩ : ∃ (a b : Fin 1) (q : Fin 64), j = ix3 a b q := ⟨j 0, j 1, j 2, eq_ix3 j⟩
  obtain ⟨-, -, -, -, -, -, -, -, -, -, -, -, -, -, -, -, i0, i1, i2, -⟩ := idx_facts t
  show k2_pay2 (k2_pay5 (iblk2 V c 0 t) (iblk2 V c 1 t) (iblk2 V c 2 t) (iblk2 V c 3 t) (iblk2 V c 4 t) (iblk2 V c 5 t) (iblk2 V c 6 t)) (ix3 a b q)
    = ofTiles (tileSum (hc hin mean var g be cw cb)) (((cfg2.win 8).blk t).view.emb (ix3 a b q))
  have hE : ((cfg2.win 8).blk t).view.emb (ix3 a b q) = (ix3 (⟨t.val, lt10 t⟩ : Fin 10) (0 : Fin 1) q : S10x1x64.Idx) := by
    funext x; apply Fin.ext
    match x with
    | ⟨0, _⟩ => show win2_8.index t 0 * 1 + 1 * a.val = t.val; rw [i0]; omega
    | ⟨1, _⟩ => show win2_8.index t 1 * 1 + 1 * b.val = 0; rw [i1]; omega
    | ⟨2, _⟩ => show win2_8.index t 2 * 64 + 1 * q.val = q.val; rw [i2]; omega
  refine Eq.trans ?_ (congrArg (ofTiles (tileSum (hc hin mean var g be cw cb))) hE).symm
  refine (pay2_apply _ a b q).trans ?_
  exact blk_sum V c hin mean var g be cw cb e0 e1 e2 e3 e4 e5 e6 t ⟨t.val, lt10 t⟩ rfl b q

theorem flushed9_eq (e0 : V c (Pipeline.arrRef spec2 0) = hin) (e1 : V c (Pipeline.arrRef spec2 1) = mean) (e2 : V c (Pipeline.arrRef spec2 2) = var) (e3 : V c (Pipeline.arrRef spec2 3) = g) (e4 : V c (Pipeline.arrRef spec2 4) = be) (e5 : V c (Pipeline.arrRef spec2 5) = cw) (e6 : V c (Pipeline.arrRef spec2 6) = cb) (t : Fin cfg2.N) :
    (dat2 (F := Ideal) V c).flushed 9 t = ((cfg2.win 9).blk t).view.read (Elt Ideal) (ofTiles (tileM2 cT (hc hin mean var g be cw cb))) := by
  show (cfg2.win 9).cut (grid2.coords t) ((dat2 V c).after 9 t) = _
  rw [after2_9]
  unfold out2_9
  rw [View.canon_unit_zero hz3]
  simp only [View.ld_unit_zero (S := S10000x128) hz2, View.ld_unit_zero (S := S1x128) hz2, View.ld_unit_zero (S := S128x64) hz2, View.ld_unit_zero (S := S1x64) hz2]
  funext j
  obtain ⟨a, b, q, rfl⟩ : ∃ (a b : Fin 1) (q : Fin 64), j = ix3 a b q := ⟨j 0, j 1, j 2, eq_ix3 j⟩
  obtain ⟨-, -, -, -, -, -, -, -, -, -, -, -, -, -, -, -, -, -, -, i0, i1, i2⟩ := idx_facts t
  show k2_pay3 (k2_pay6 (iblk2 V c 0 t) (iblk2 V c 1 t) (iblk2 V c 2 t) (iblk2 V c 3 t) (iblk2 V c 4 t) (iblk2 V c 5 t) (iblk2 V c 6 t)) (ix3 a b q)
    = ofTiles (tileM2 cT (hc hin mean var g be cw cb)) (((cfg2.win 9).blk t).view.emb (ix3 a b q))
  have hE : ((cfg2.win 9).blk t).view.emb (ix3 a b q) = (ix3 (⟨t.val, lt10 t⟩ : Fin 10) (0 : Fin 1) q : S10x1x64.Idx) := by
    funext x; apply Fin.ext
    match x with
    | ⟨0, _⟩ => show win2_9.index t 0 * 1 + 1 * a.val = t.val; rw [i0]; omega
    | ⟨1, _⟩ => show win2_9.index t 1 * 1 + 1 * b.val = 0; rw [i1]; omega
    | ⟨2, _⟩ => show win2_9.index t 2 * 64 + 1 * q.val = q.val; rw [i2]; omega
  refine Eq.trans ?_ (congrArg (ofTiles (tileM2 cT (hc hin mean var g be cw cb))) hE).symm
  refine (pay3_apply _ a b q).trans ?_
  exact blk_m2 V c hin mean var g be cw cb e0 e1 e2 e3 e4 e5 e6 t ⟨t.val, lt10 t⟩ rfl b q

theorem mem_blk8 (t : Fin cfg2.N) (i : S10x1x64.Idx) :
    i ∈ ((cfg2.win 8).blk t).view.set ↔ ∀ a : Fin 3, win2_8.index t a * S1x1x64.size a ≤ (i a).val ∧ (i a).val < win2_8.index t a * S1x1x64.size a + S1x1x64.size a := by
  show i ∈ ((View.whole main_v91_1).slice (win2_8.rect t)).set ↔ _
  rw [View.set_slice_whole, Rect.mem_set_unit]
  exact Iff.rfl

theorem mem_blk9 (t : Fin cfg2.N) (i : S10x1x64.Idx) :
    i ∈ ((cfg2.win 9).blk t).view.set ↔ ∀ a : Fin 3, win2_9.index t a * S1x1x64.size a ≤ (i a).val ∧ (i a).val < win2_9.index t a * S1x1x64.size a + S1x1x64.size a := by
  show i ∈ ((View.whole main_v91_2).slice (win2_9.rect t)).set ↔ _
  rw [View.set_slice_whole, Rect.mem_set_unit]
  exact Iff.rfl

/-- Tile s is the block of point s. -/
theorem cover8 (i : S10x1x64.Idx) : ∃ t : Fin cfg2.N, (cfg2.win 8).flush t = true ∧ i ∈ ((cfg2.win 8).blk t).view.set := by
  have hi0 : (i 0).val < 10 := (i 0).isLt
  have hi1 : (i 1).val < 1 := (i 1).isLt
  have hi2 : (i 2).val < 64 := (i 2).isLt
  obtain ⟨t, ht⟩ : ∃ t : Fin cfg2.N, t.val = (i 0).val := ⟨⟨(i 0).val, by rw [show cfg2.N = 10 from N_2]; omega⟩, rfl⟩
  obtain ⟨-, -, -, -, -, -, -, -, -, -, -, -, -, -, -, -, i0, i1, i2, -⟩ := idx_facts t
  refine ⟨t, flush2_8 t, ?_⟩
  rw [mem_blk8]
  intro a
  match a with
  | ⟨0, _⟩ => show win2_8.index t 0 * 1 ≤ (i 0).val ∧ (i 0).val < win2_8.index t 0 * 1 + 1; rw [i0, ht]; omega
  | ⟨1, _⟩ => show win2_8.index t 1 * 1 ≤ (i 1).val ∧ (i 1).val < win2_8.index t 1 * 1 + 1; rw [i1]; omega
  | ⟨2, _⟩ => show win2_8.index t 2 * 64 ≤ (i 2).val ∧ (i 2).val < win2_8.index t 2 * 64 + 64; rw [i2]; omega

theorem cover9 (i : S10x1x64.Idx) : ∃ t : Fin cfg2.N, (cfg2.win 9).flush t = true ∧ i ∈ ((cfg2.win 9).blk t).view.set := by
  have hi0 : (i 0).val < 10 := (i 0).isLt
  have hi1 : (i 1).val < 1 := (i 1).isLt
  have hi2 : (i 2).val < 64 := (i 2).isLt
  obtain ⟨t, ht⟩ : ∃ t : Fin cfg2.N, t.val = (i 0).val := ⟨⟨(i 0).val, by rw [show cfg2.N = 10 from N_2]; omega⟩, rfl⟩
  obtain ⟨-, -, -, -, -, -, -, -, -, -, -, -, -, -, -, -, -, -, -, i0, i1, i2⟩ := idx_facts t
  refine ⟨t, flush2_9 t, ?_⟩
  rw [mem_blk9]
  intro a
  match a with
  | ⟨0, _⟩ => show win2_9.index t 0 * 1 ≤ (i 0).val ∧ (i 0).val < win2_9.index t 0 * 1 + 1; rw [i0, ht]; omega
  | ⟨1, _⟩ => show win2_9.index t 1 * 1 ≤ (i 1).val ∧ (i 1).val < win2_9.index t 1 * 1 + 1; rw [i1]; omega
  | ⟨2, _⟩ => show win2_9.index t 2 * 64 ≤ (i 2).val ∧ (i 2).val < win2_9.index t 2 * 64 + 64; rw [i2]; omega

theorem out_sum (e0 : V c (Pipeline.arrRef spec2 0) = hin) (e1 : V c (Pipeline.arrRef spec2 1) = mean) (e2 : V c (Pipeline.arrRef spec2 2) = var) (e3 : V c (Pipeline.arrRef spec2 3) = g) (e4 : V c (Pipeline.arrRef spec2 4) = be) (e5 : V c (Pipeline.arrRef spec2 5) = cw) (e6 : V c (Pipeline.arrRef spec2 6) = cb) :
    (dat2 (F := Ideal) V c).arrAt 8 cfg2.N = ofTiles (tileSum (hc hin mean var g be cw cb)) :=
  (dat2 (F := Ideal) V c).arrAt_eq_of_cover 8 (ofTiles (tileSum (hc hin mean var g be cw cb)))
    (fun t _ => flushed8_eq V c hin mean var g be cw cb e0 e1 e2 e3 e4 e5 e6 t) cover8

theorem out_m2 (e0 : V c (Pipeline.arrRef spec2 0) = hin) (e1 : V c (Pipeline.arrRef spec2 1) = mean) (e2 : V c (Pipeline.arrRef spec2 2) = var) (e3 : V c (Pipeline.arrRef spec2 3) = g) (e4 : V c (Pipeline.arrRef spec2 4) = be) (e5 : V c (Pipeline.arrRef spec2 5) = cw) (e6 : V c (Pipeline.arrRef spec2 6) = cb) :
    (dat2 (F := Ideal) V c).arrAt 9 cfg2.N = ofTiles (tileM2 cT (hc hin mean var g be cw cb)) :=
  (dat2 (F := Ideal) V c).arrAt_eq_of_cover 9 (ofTiles (tileM2 cT (hc hin mean var g be cw cb)))
    (fun t _ => flushed9_eq V c hin mean var g be cw cb e0 e1 e2 e3 e4 e5 e6 t) cover9

end Cert.KernelIdeal.Layer3

end
-- ==== Proof.Layer4.lean ====
/-
  The last normalisation, as a whole array.
-/
import proofs.«415859_j20203526161168_3_alg».proof.Proof.Gen.KernelIdeal.Frame
import proofs.«415859_j20203526161168_3_alg».proof.Proof.Spec
import proofs.«415859_j20203526161168_3_alg».proof.Proof.Conv
import Idealize.ShloMosaic.Lib.Pipeline.Value

set_option maxRecDepth 16384

noncomputable section

namespace Cert.KernelIdeal.Layer4

open Idealize.ShloMosaic Idealize.ShloMosaic.TcCoe Idealize.ShloMosaic.ValueIdx Idealize.SL.Sem
open Cert.KernelIdeal Cert.KernelIdeal.Gen Cert.Spec Cert.Conv

/-! ## What the body stores, entry by entry -/

/-- A one-row array spread over ten thousand rows reads, at row p and column q, its entry at column q. -/
theorem bcast_row {α : Type} (x : S1x64.Idx → α) (h : S1x64.Broadcasts S10000x64) (p : Fin 10000) (q : Fin 64) :
    broadcastTo S10000x64 x h (ix2 p q) = x (ix2 0 q) :=
  broadcastTo_apply x h (ix2 p q) (ix2 0 q) (fun a => match a with | ⟨0, _⟩ => rfl | ⟨1, _⟩ => rfl)

/-- What the body stores at row p and column q of a tile: the entry, centred at the column's mean, scaled by the
    reciprocal root of the column's variance plus the floor, scaled and shifted by the two parameter rows, and
    clipped below at zero. -/
theorem pay_apply (x0 : Vec Ideal S10000x64 .bf16) (x1 x2 x3 x4 : Vec Ideal S1x64 .f32) (p : Fin 10000) (q : Fin 64) :
    k3_pay1 x0 x1 x2 x3 x4 (ix2 p q)
      = max (((x0 (ix2 p q) - x1 (ix2 0 q)) * Ideal.rsqrt (x2 (ix2 0 q) + cEps)) * x3 (ix2 0 q) + x4 (ix2 0 q)) cZ := by
  unfold k3_pay1
  simp only [shapeCast_self]
  simp only [maximumf_apply, addf_apply, mulf_apply, subf_apply, extf_apply, broadcast_apply, bcast_row]
  rfl

/-! ## From the ten tiles to the whole array -/

theorem hz : (![0, 0] : Fin 2 → Nat) = fun _ => 0 := funext fun a => by fin_cases a <;> rfl

/-- The whole normalised array, from the region's five input arrays. -/
abbrev G (a0 : Vec Ideal S100000x64 .bf16) (a1 a2 a3 a4 : Vec Ideal S1x64 .f32) : Vec Ideal S100000x64 .f32 :=
  ofM (bnrelu cEps cZ (toM a0) (rowV a1) (rowV a2) (rowV a3) (rowV a4))

/-- The whole array at an index, from five numbers that are the arrays' entries at that row and column. -/
theorem point_eq (a0 : Vec Ideal S100000x64 .bf16) (a1 a2 a3 a4 : Vec Ideal S1x64 .f32) (b0 b1 b2 b3 b4 : EReal)
    (i : S100000x64.Idx)
    (h0 : b0 = a0 (ix2 (i 0) (i 1))) (h1 : b1 = a1 (ix2 0 (i 1))) (h2 : b2 = a2 (ix2 0 (i 1)))
    (h3 : b3 = a3 (ix2 0 (i 1))) (h4 : b4 = a4 (ix2 0 (i 1))) :
    max (((b0 - b1) * Ideal.rsqrt (b2 + cEps)) * b3 + b4) cZ = G a0 a1 a2 a3 a4 i := by
  subst h0 h1 h2 h3 h4
  rfl

/-- The index maps over the ten grid points: the input tile moves with the output tile, whose row-block index is the
    point's number; every other block index is zero. -/
theorem idx_facts : ∀ t : Fin cfg3.N, win3_0.index t (0 : Fin 2) = win3_5.index t (0 : Fin 2)
    ∧ win3_0.index t (1 : Fin 2) = 0 ∧ win3_5.index t (1 : Fin 2) = 0
    ∧ win3_5.index t (0 : Fin 2) = t.val
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

variable (V : (c : Dev nD) → (b : Ref sig .tc) → Buf (Elt Ideal) ((c : Thread nD τ).loc b)) (c : Dev nD)

/-- The input tile at a grid point, at row p and column q, is the input array at the row and column the output
    tile's entry (p, q) has in the output array. -/
theorem tile_apply (t : Fin cfg3.N) (p : Fin 10000) (q : Fin 64) :
    iblk3 V c 0 t (ix2 p q) = (V c (Pipeline.arrRef spec3 0) : Vec Ideal S100000x64 .bf16)
      (ix2 ((((cfg3.win 5).blk t).view.emb (ix2 p q)) 0) ((((cfg3.win 5).blk t).view.emb (ix2 p q)) 1)) := by
  obtain ⟨e0, e1, e2, -⟩ := idx_facts t
  unfold iblk3
  rw [View.read_apply]
  show (V c (Pipeline.arrRef spec3 0) : Vec Ideal S100000x64 .bf16) _ = _
  congr 1
  funext a; apply Fin.ext
  match a with
  | ⟨0, _⟩ => show win3_0.index t (0 : Fin 2) * 10000 + 1 * p.val = win3_5.index t (0 : Fin 2) * 10000 + 1 * p.val; omega
  | ⟨1, _⟩ => show win3_0.index t (1 : Fin 2) * 64 + 1 * q.val = win3_5.index t (1 : Fin 2) * 64 + 1 * q.val; omega

/-! Each one-row window holds its whole array at every point: its column q is the array's column q, which is the
    column of the output tile's entry (p, q). -/

theorem row1_apply (t : Fin cfg3.N) (p : Fin 10000) (q : Fin 64) :
    iblk3 V c 1 t (ix2 0 q) = (V c (Pipeline.arrRef spec3 1) : Vec Ideal S1x64 .f32)
      (ix2 0 ((((cfg3.win 5).blk t).view.emb (ix2 p q)) 1)) := by
  obtain ⟨-, -, e2, -, e4, e5, e6, e7, e8, e9, e10, e11⟩ := idx_facts t
  unfold iblk3
  rw [View.read_apply]
  show (V c (Pipeline.arrRef spec3 1) : Vec Ideal S1x64 .f32) _ = _
  congr 1
  funext a; apply Fin.ext
  match a with
  | ⟨0, _⟩ => show win3_1.index t (0 : Fin 2) * 1 + 1 * 0 = 0; omega
  | ⟨1, _⟩ => show win3_1.index t (1 : Fin 2) * 64 + 1 * q.val = win3_5.index t (1 : Fin 2) * 64 + 1 * q.val; omega

theorem row2_apply (t : Fin cfg3.N) (p : Fin 10000) (q : Fin 64) :
    iblk3 V c 2 t (ix2 0 q) = (V c (Pipeline.arrRef spec3 2) : Vec Ideal S1x64 .f32)
      (ix2 0 ((((cfg3.win 5).blk t).view.emb (ix2 p q)) 1)) := by
  obtain ⟨-, -, e2, -, e4, e5, e6, e7, e8, e9, e10, e11⟩ := idx_facts t
  unfold iblk3
  rw [View.read_apply]
  show (V c (Pipeline.arrRef spec3 2) : Vec Ideal S1x64 .f32) _ = _
  congr 1
  funext a; apply Fin.ext
  match a with
  | ⟨0, _⟩ => show win3_2.index t (0 : Fin 2) * 1 + 1 * 0 = 0; omega
  | ⟨1, _⟩ => show win3_2.index t (1 : Fin 2) * 64 + 1 * q.val = win3_5.index t (1 : Fin 2) * 64 + 1 * q.val; omega

theorem row3_apply (t : Fin cfg3.N) (p : Fin 10000) (q : Fin 64) :
    iblk3 V c 3 t (ix2 0 q) = (V c (Pipeline.arrRef spec3 3) : Vec Ideal S1x64 .f32)
      (ix2 0 ((((cfg3.win 5).blk t).view.emb (ix2 p q)) 1)) := by
  obtain ⟨-, -, e2, -, e4, e5, e6, e7, e8, e9, e10, e11⟩ := idx_facts t
  unfold iblk3
  rw [View.read_apply]
  show (V c (Pipeline.arrRef spec3 3) : Vec Ideal S1x64 .f32) _ = _
  congr 1
  funext a; apply Fin.ext
  match a with
  | ⟨0, _⟩ => show win3_3.index t (0 : Fin 2) * 1 + 1 * 0 = 0; omega
  | ⟨1, _⟩ => show win3_3.index t (1 : Fin 2) * 64 + 1 * q.val = win3_5.index t (1 : Fin 2) * 64 + 1 * q.val; omega

theorem row4_apply (t : Fin cfg3.N) (p : Fin 10000) (q : Fin 64) :
    iblk3 V c 4 t (ix2 0 q) = (V c (Pipeline.arrRef spec3 4) : Vec Ideal S1x64 .f32)
      (ix2 0 ((((cfg3.win 5).blk t).view.emb (ix2 p q)) 1)) := by
  obtain ⟨-, -, e2, -, e4, e5, e6, e7, e8, e9, e10, e11⟩ := idx_facts t
  unfold iblk3
  rw [View.read_apply]
  show (V c (Pipeline.arrRef spec3 4) : Vec Ideal S1x64 .f32) _ = _
  congr 1
  funext a; apply Fin.ext
  match a with
  | ⟨0, _⟩ => show win3_4.index t (0 : Fin 2) * 1 + 1 * 0 = 0; omega
  | ⟨1, _⟩ => show win3_4.index t (1 : Fin 2) * 64 + 1 * q.val = win3_5.index t (1 : Fin 2) * 64 + 1 * q.val; omega

/-- What a grid point writes back is its tile of the whole normalised array. -/
theorem flushed_eq (t : Fin cfg3.N) :
    (dat3 (F := Ideal) V c).flushed 5 t = ((cfg3.win 5).blk t).view.read (Elt Ideal)
      (G (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  refine (pay_apply _ _ _ _ _ p q).trans ?_
  exact point_eq (V c (Pipeline.arrRef spec3 0)) (V c (Pipeline.arrRef spec3 1)) (V c (Pipeline.arrRef spec3 2))
    (V c (Pipeline.arrRef spec3 3)) (V c (Pipeline.arrRef spec3 4)) _ _ _ _ _ (((cfg3.win 5).blk t).view.emb (ix2 p q))
    (tile_apply V c t p q) (row1_apply V c t p q) (row2_apply V c t p q) (row3_apply V c t p q) (row4_apply V c t p q)

/-- An index of the output array is in a grid point's tile iff each coordinate is in the tile's range on its axis. -/
theorem mem_blk (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v116).slice (win3_5.rect t)).set ↔ _
  rw [View.set_slice_whole, Rect.mem_set_unit]
  exact Iff.rfl

/-- Row r of the output array lies in the tile of grid point r / 10000: the ten tiles cover the array. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, by show (i 0).val / 10000 < grid3.N; rw [N_3]; omega⟩, rfl⟩
  obtain ⟨-, -, e2, e3, -⟩ := idx_facts t
  refine ⟨t, flush3_5 t, ?_⟩
  rw [mem_blk]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 64 ≤ (i 1).val ∧ (i 1).val < win3_5.index t (1 : Fin 2) * 64 + 64
    omega

/-! ## The output array after the ten points -/

variable (hin : Vec Ideal S100000x64 .bf16) (mean var g be : Vec Ideal S1x64 .f32)

theorem out_final (e0 : V c (Pipeline.arrRef spec3 0) = hin) (e1 : V c (Pipeline.arrRef spec3 1) = mean) (e2 : V c (Pipeline.arrRef spec3 2) = var) (e3 : V c (Pipeline.arrRef spec3 3) = g) (e4 : V c (Pipeline.arrRef spec3 4) = be) :
    (dat3 (F := Ideal) V c).arrAt 5 cfg3.N = ofM (bnrelu cEps cZ (toM hin) (rowV mean) (rowV var) (rowV g) (rowV be)) := by
  subst e0 e1 e2 e3 e4
  exact (dat3 V c).arrAt_eq_of_cover 5 _ (fun t _ => flushed_eq V c t) cover

end Cert.KernelIdeal.Layer4

end
-- ==== Proof.KernelValue.lean ====
/-
  The tiled program's result array, read through the fold of its segments: each tiled layer's output arrays and each
  stretch of host operations in turn, down to the specification's tiled network of the program's arguments.
-/
import proofs.«415859_j20203526161168_3_alg».proof.Proof.Gen.KernelIdeal.Frame
import proofs.«415859_j20203526161168_3_alg».proof.Proof.Spec
import proofs.«415859_j20203526161168_3_alg».proof.Proof.Conv
import proofs.«415859_j20203526161168_3_alg».proof.Proof.Inputs
import proofs.«415859_j20203526161168_3_alg».proof.Proof.Entry
import proofs.«415859_j20203526161168_3_alg».proof.Proof.Stats
import proofs.«415859_j20203526161168_3_alg».proof.Proof.Layer1
import proofs.«415859_j20203526161168_3_alg».proof.Proof.Layer2
import proofs.«415859_j20203526161168_3_alg».proof.Proof.Layer3
import proofs.«415859_j20203526161168_3_alg».proof.Proof.Layer4

set_option maxRecDepth 16384

noncomputable section

namespace Cert.KernelIdeal.Value

open Idealize.ShloMosaic Idealize.ShloMosaic.TcCoe Idealize.ShloMosaic.ValueIdx Idealize.SL.Sem Idealize.ShloMosaic.StableHlo
open Cert.KernelIdeal Cert.KernelIdeal.Gen Cert.Spec Cert.Conv

variable (m : (ℓ : Loc nD τ sig) → Buf (Elt Ideal) ℓ) (ρ : Dev nD → PrngReg) (c : Dev nD)

/-! ### The arguments, typed -/
abbrev a0 : Vec Ideal S100000x64 .f32 := m ((c : Thread nD τ).loc main_arg0)
abbrev a1 : Vec Ideal S100000x64 .f32 := m ((c : Thread nD τ).loc main_arg1)
abbrev a2 : IVec S2x3200000 32 := m ((c : Thread nD τ).loc main_arg2)
abbrev a3 : IVec S2x300000 32 := m ((c : Thread nD τ).loc main_arg3)
abbrev a4 : Vec Ideal S_ .f32 := m ((c : Thread nD τ).loc main_arg4)
abbrev a5 : Vec Ideal S_ .f32 := m ((c : Thread nD τ).loc main_arg5)
abbrev a6 : Vec Ideal S64x64 .f32 := m ((c : Thread nD τ).loc main_arg6)
abbrev a7 : Vec Ideal S64 .f32 := m ((c : Thread nD τ).loc main_arg7)
abbrev a8 : Vec Ideal S64 .f32 := m ((c : Thread nD τ).loc main_arg8)
abbrev a9 : Vec Ideal S64 .f32 := m ((c : Thread nD τ).loc main_arg9)
abbrev a10 : Vec Ideal S64x64 .f32 := m ((c : Thread nD τ).loc main_arg10)
abbrev a11 : Vec Ideal S64 .f32 := m ((c : Thread nD τ).loc main_arg11)
abbrev a12 : Vec Ideal S64 .f32 := m ((c : Thread nD τ).loc main_arg12)
abbrev a13 : Vec Ideal S64 .f32 := m ((c : Thread nD τ).loc main_arg13)
abbrev a14 : Vec Ideal S64x64 .f32 := m ((c : Thread nD τ).loc main_arg14)
abbrev a15 : Vec Ideal S64 .f32 := m ((c : Thread nD τ).loc main_arg15)
abbrev a16 : Vec Ideal S64 .f32 := m ((c : Thread nD τ).loc main_arg16)
abbrev a17 : Vec Ideal S64 .f32 := m ((c : Thread nD τ).loc main_arg17)
abbrev a18 : Vec Ideal S64x64 .f32 := m ((c : Thread nD τ).loc main_arg18)
abbrev a19 : Vec Ideal S64 .f32 := m ((c : Thread nD τ).loc main_arg19)
abbrev a20 : Vec Ideal S64 .f32 := m ((c : Thread nD τ).loc main_arg20)
abbrev a21 : Vec Ideal S64 .f32 := m ((c : Thread nD τ).loc main_arg21)
abbrev a22 : Vec Ideal S128x64 .f32 := m ((c : Thread nD τ).loc main_arg22)
abbrev a23 : Vec Ideal S64 .f32 := m ((c : Thread nD τ).loc main_arg23)
abbrev a24 : Vec Ideal S64 .f32 := m ((c : Thread nD τ).loc main_arg24)
abbrev a25 : Vec Ideal S64 .f32 := m ((c : Thread nD τ).loc main_arg25)

/-- The network's inputs read off the launch memory. -/
abbrev I : Inputs :=
  mkInputs (a0 m c) (Entry.aggU (a0 m c) (a2 m c)) (Entry.aggB (a1 m c) (a3 m c)) (a4 m c) (a5 m c)
    (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c)

/-! ### Entering the first layer -/
theorem w1_arg0 : W1 m ρ c (Proc.devRef .tc main_arg0) = a0 m c := Entry.e_keep_arg0 (W0 m ρ c)
theorem w1_arg6 : W1 m ρ c (Proc.devRef .tc main_arg6) = a6 m c := Entry.e_keep_arg6 (W0 m ρ c)
theorem w1_arg14 : W1 m ρ c (Proc.devRef .tc main_arg14) = a14 m c := Entry.e_keep_arg14 (W0 m ρ c)
theorem w1_arg8 : W1 m ρ c (Proc.devRef .tc main_arg8) = a8 m c := Entry.e_keep_arg8 (W0 m ρ c)
theorem w1_arg16 : W1 m ρ c (Proc.devRef .tc main_arg16) = a16 m c := Entry.e_keep_arg16 (W0 m ρ c)
theorem w1_arg9 : W1 m ρ c (Proc.devRef .tc main_arg9) = a9 m c := Entry.e_keep_arg9 (W0 m ρ c)
theorem w1_arg17 : W1 m ρ c (Proc.devRef .tc main_arg17) = a17 m c := Entry.e_keep_arg17 (W0 m ρ c)
theorem w1_arg10 : W1 m ρ c (Proc.devRef .tc main_arg10) = a10 m c := Entry.e_keep_arg10 (W0 m ρ c)
theorem w1_arg18 : W1 m ρ c (Proc.devRef .tc main_arg18) = a18 m c := Entry.e_keep_arg18 (W0 m ρ c)
theorem w1_arg12 : W1 m ρ c (Proc.devRef .tc main_arg12) = a12 m c := Entry.e_keep_arg12 (W0 m ρ c)
theorem w1_arg20 : W1 m ρ c (Proc.devRef .tc main_arg20) = a20 m c := Entry.e_keep_arg20 (W0 m ρ c)
theorem w1_arg13 : W1 m ρ c (Proc.devRef .tc main_arg13) = a13 m c := Entry.e_keep_arg13 (W0 m ρ c)
theorem w1_arg21 : W1 m ρ c (Proc.devRef .tc main_arg21) = a21 m c := Entry.e_keep_arg21 (W0 m ρ c)
theorem w1_arg22 : W1 m ρ c (Proc.devRef .tc main_arg22) = a22 m c := Entry.e_keep_arg22 (W0 m ρ c)
theorem w1_arg24 : W1 m ρ c (Proc.devRef .tc main_arg24) = a24 m c := Entry.e_keep_arg24 (W0 m ρ c)
theorem w1_arg25 : W1 m ρ c (Proc.devRef .tc main_arg25) = a25 m c := Entry.e_keep_arg25 (W0 m ρ c)
theorem w1_s1 : W1 m ρ c (Proc.devRef .tc main_v29) = fun _ => cOne + sc0 (a4 m c) := Entry.e_s1 (W0 m ρ c) _ rfl
theorem w1_s2 : W1 m ρ c (Proc.devRef .tc main_v31) = fun _ => cOne + sc0 (a5 m c) := Entry.e_s2 (W0 m ρ c) _ rfl
theorem w1_aggU : W1 m ρ c (Proc.devRef .tc main_v13) = Entry.aggU (a0 m c) (a2 m c) := Entry.e_aggU (W0 m ρ c) _ _ rfl rfl
theorem w1_aggB : W1 m ρ c (Proc.devRef .tc main_v27) = Entry.aggB (a1 m c) (a3 m c) := Entry.e_aggB (W0 m ρ c) _ _ rfl rfl
theorem w1_ub1 : W1 m ρ c (Proc.devRef .tc main_v32) = ofRow (vec1 (a7 m c)) := Entry.e_ub1 (W0 m ρ c) _ rfl
theorem w1_bb1 : W1 m ρ c (Proc.devRef .tc main_v33) = ofRow (vec1 (a15 m c)) := Entry.e_bb1 (W0 m ρ c) _ rfl
theorem w1_ub2 : W1 m ρ c (Proc.devRef .tc main_v34) = ofRow (vec1 (a11 m c)) := Entry.e_ub2 (W0 m ρ c) _ rfl
theorem w1_bb2 : W1 m ρ c (Proc.devRef .tc main_v35) = ofRow (vec1 (a19 m c)) := Entry.e_bb2 (W0 m ρ c) _ rfl
theorem w1_cb : W1 m ρ c (Proc.devRef .tc main_v36) = ofRow (vec1 (a23 m c)) := Entry.e_cb (W0 m ρ c) _ rfl

/-! ### After the first layer -/
set_option maxHeartbeats 4000000 in
set_option maxRecDepth 100000 in
theorem w2_h : W2 m ρ c (Proc.devRef .tc main_v37_0) = ofM (h1K (I m c)) := by
  have e : Layer1.h1 (fun _ => cOne + sc0 (a4 m c)) (fun _ => cOne + sc0 (a5 m c)) (Entry.aggU (a0 m c) (a2 m c)) (a0 m c) (Entry.aggB (a1 m c) (a3 m c)) (a6 m c) (a14 m c) (ofRow (vec1 (a7 m c))) (ofRow (vec1 (a15 m c))) = h1K (I m c) := rfl
  rw [← e]
  exact (W2_arr m ρ c 9).trans (Layer1.out_h1 (V1 m ρ) c _ _ _ _ _ _ _ _ _ (w1_s1 m ρ c) (w1_s2 m ρ c) (w1_aggU m ρ c) (w1_arg0 m ρ c) (w1_aggB m ρ c) (w1_arg6 m ρ c) (w1_ub1 m ρ c) (w1_arg14 m ρ c) (w1_bb1 m ρ c))
set_option maxHeartbeats 4000000 in
set_option maxRecDepth 100000 in
theorem w2_sum : W2 m ρ c (Proc.devRef .tc main_v37_1) = ofTiles (tileSum (h1K (I m c))) := by
  have e : Layer1.h1 (fun _ => cOne + sc0 (a4 m c)) (fun _ => cOne + sc0 (a5 m c)) (Entry.aggU (a0 m c) (a2 m c)) (a0 m c) (Entry.aggB (a1 m c) (a3 m c)) (a6 m c) (a14 m c) (ofRow (vec1 (a7 m c))) (ofRow (vec1 (a15 m c))) = h1K (I m c) := rfl
  rw [← e]
  exact (W2_arr m ρ c 10).trans (Layer1.out_sum (V1 m ρ) c _ _ _ _ _ _ _ _ _ (w1_s1 m ρ c) (w1_s2 m ρ c) (w1_aggU m ρ c) (w1_arg0 m ρ c) (w1_aggB m ρ c) (w1_arg6 m ρ c) (w1_ub1 m ρ c) (w1_arg14 m ρ c) (w1_bb1 m ρ c))
set_option maxHeartbeats 4000000 in
set_option maxRecDepth 100000 in
theorem w2_m2 : W2 m ρ c (Proc.devRef .tc main_v37_2) = ofTiles (tileM2 cT (h1K (I m c))) := by
  have e : Layer1.h1 (fun _ => cOne + sc0 (a4 m c)) (fun _ => cOne + sc0 (a5 m c)) (Entry.aggU (a0 m c) (a2 m c)) (a0 m c) (Entry.aggB (a1 m c) (a3 m c)) (a6 m c) (a14 m c) (ofRow (vec1 (a7 m c))) (ofRow (vec1 (a15 m c))) = h1K (I m c) := rfl
  rw [← e]
  exact (W2_arr m ρ c 11).trans (Layer1.out_m2 (V1 m ρ) c _ _ _ _ _ _ _ _ _ (w1_s1 m ρ c) (w1_s2 m ρ c) (w1_aggU m ρ c) (w1_arg0 m ρ c) (w1_aggB m ρ c) (w1_arg6 m ρ c) (w1_ub1 m ρ c) (w1_arg14 m ρ c) (w1_bb1 m ρ c))
theorem w2_arg8 : W2 m ρ c (Proc.devRef .tc main_arg8) = a8 m c := (W2_of_ne m ρ c main_arg8 (by decide)).trans (w1_arg8 m ρ c)
theorem w2_arg16 : W2 m ρ c (Proc.devRef .tc main_arg16) = a16 m c := (W2_of_ne m ρ c main_arg16 (by decide)).trans (w1_arg16 m ρ c)
theorem w2_arg9 : W2 m ρ c (Proc.devRef .tc main_arg9) = a9 m c := (W2_of_ne m ρ c main_arg9 (by decide)).trans (w1_arg9 m ρ c)
theorem w2_arg17 : W2 m ρ c (Proc.devRef .tc main_arg17) = a17 m c := (W2_of_ne m ρ c main_arg17 (by decide)).trans (w1_arg17 m ρ c)
theorem w2_arg10 : W2 m ρ c (Proc.devRef .tc main_arg10) = a10 m c := (W2_of_ne m ρ c main_arg10 (by decide)).trans (w1_arg10 m ρ c)
theorem w2_arg18 : W2 m ρ c (Proc.devRef .tc main_arg18) = a18 m c := (W2_of_ne m ρ c main_arg18 (by decide)).trans (w1_arg18 m ρ c)
theorem w2_arg12 : W2 m ρ c (Proc.devRef .tc main_arg12) = a12 m c := (W2_of_ne m ρ c main_arg12 (by decide)).trans (w1_arg12 m ρ c)
theorem w2_arg20 : W2 m ρ c (Proc.devRef .tc main_arg20) = a20 m c := (W2_of_ne m ρ c main_arg20 (by decide)).trans (w1_arg20 m ρ c)
theorem w2_arg13 : W2 m ρ c (Proc.devRef .tc main_arg13) = a13 m c := (W2_of_ne m ρ c main_arg13 (by decide)).trans (w1_arg13 m ρ c)
theorem w2_arg21 : W2 m ρ c (Proc.devRef .tc main_arg21) = a21 m c := (W2_of_ne m ρ c main_arg21 (by decide)).trans (w1_arg21 m ρ c)
theorem w2_arg22 : W2 m ρ c (Proc.devRef .tc main_arg22) = a22 m c := (W2_of_ne m ρ c main_arg22 (by decide)).trans (w1_arg22 m ρ c)
theorem w2_arg24 : W2 m ρ c (Proc.devRef .tc main_arg24) = a24 m c := (W2_of_ne m ρ c main_arg24 (by decide)).trans (w1_arg24 m ρ c)
theorem w2_arg25 : W2 m ρ c (Proc.devRef .tc main_arg25) = a25 m c := (W2_of_ne m ρ c main_arg25 (by decide)).trans (w1_arg25 m ρ c)
theorem w2_ub2 : W2 m ρ c (Proc.devRef .tc main_v34) = ofRow (vec1 (a11 m c)) := (W2_of_ne m ρ c main_v34 (by decide)).trans (w1_ub2 m ρ c)
theorem w2_bb2 : W2 m ρ c (Proc.devRef .tc main_v35) = ofRow (vec1 (a19 m c)) := (W2_of_ne m ρ c main_v35 (by decide)).trans (w1_bb2 m ρ c)
theorem w2_cb : W2 m ρ c (Proc.devRef .tc main_v36) = ofRow (vec1 (a23 m c)) := (W2_of_ne m ρ c main_v36 (by decide)).trans (w1_cb m ρ c)

/-! ### Entering the second layer -/
theorem w3_h : W3 m ρ c (Proc.devRef .tc main_v37_0) = ofM (h1K (I m c)) := (Stats.s1_keep_h (W2 m ρ c)).trans (w2_h m ρ c)
set_option maxHeartbeats 4000000 in
set_option maxRecDepth 100000 in
theorem w3_mean : W3 m ρ c (Proc.devRef .tc main_v58) = ofRow (mean1K cN cZ (I m c)) := by
  have e : kMean cN cZ (tiles (ofTiles (tileSum (h1K (I m c))))) = mean1K cN cZ (I m c) := rfl
  rw [← e]
  exact Stats.s1_mean (W2 m ρ c) _ (w2_sum m ρ c)
set_option maxHeartbeats 4000000 in
set_option maxRecDepth 100000 in
theorem w3_var : W3 m ρ c (Proc.devRef .tc main_v59) = ofRow (var1K cN cT cZ (I m c)) := by
  have e : kVar cN cT cZ (tiles (ofTiles (tileSum (h1K (I m c))))) (tiles (ofTiles (tileM2 cT (h1K (I m c))))) = var1K cN cT cZ (I m c) := rfl
  rw [← e]
  exact Stats.s1_var (W2 m ρ c) _ _ (w2_sum m ρ c) (w2_m2 m ρ c)
set_option maxHeartbeats 4000000 in
set_option maxRecDepth 100000 in
theorem w3_g : W3 m ρ c (Proc.devRef .tc main_v61) = ofRow (catv (I m c).ug1 (I m c).bg1) := by
  have e : catv (vec1 (a8 m c)) (vec1 (a16 m c)) = catv (I m c).ug1 (I m c).bg1 := rfl
  rw [← e]
  exact Stats.s1_g (W2 m ρ c) _ _ (w2_arg8 m ρ c) (w2_arg16 m ρ c)
set_option maxHeartbeats 4000000 in
set_option maxRecDepth 100000 in
theorem w3_be : W3 m ρ c (Proc.devRef .tc main_v63) = ofRow (catv (I m c).ube1 (I m c).bbe1) := by
  have e : catv (vec1 (a9 m c)) (vec1 (a17 m c)) = catv (I m c).ube1 (I m c).bbe1 := rfl
  rw [← e]
  exact Stats.s1_be (W2 m ρ c) _ _ (w2_arg9 m ρ c) (w2_arg17 m ρ c)
theorem w3_uw2 : W3 m ρ c (Proc.devRef .tc main_arg10) = a10 m c := (Stats.s1_keep_uw2 (W2 m ρ c)).trans (w2_arg10 m ρ c)
theorem w3_bw2 : W3 m ρ c (Proc.devRef .tc main_arg18) = a18 m c := (Stats.s1_keep_bw2 (W2 m ρ c)).trans (w2_arg18 m ρ c)
theorem w3_ub2 : W3 m ρ c (Proc.devRef .tc main_v34) = ofRow (vec1 (a11 m c)) := (Stats.s1_keep_ub2 (W2 m ρ c)).trans (w2_ub2 m ρ c)
theorem w3_bb2 : W3 m ρ c (Proc.devRef .tc main_v35) = ofRow (vec1 (a19 m c)) := (Stats.s1_keep_bb2 (W2 m ρ c)).trans (w2_bb2 m ρ c)
theorem w3_cw : W3 m ρ c (Proc.devRef .tc main_arg22) = a22 m c := (Stats.s1_keep_cw (W2 m ρ c)).trans (w2_arg22 m ρ c)
theorem w3_cb : W3 m ρ c (Proc.devRef .tc main_v36) = ofRow (vec1 (a23 m c)) := (Stats.s1_keep_cb (W2 m ρ c)).trans (w2_cb m ρ c)
theorem w3_cg : W3 m ρ c (Proc.devRef .tc main_arg24) = a24 m c := (Stats.s1_keep_cg (W2 m ρ c)).trans (w2_arg24 m ρ c)
theorem w3_cbe : W3 m ρ c (Proc.devRef .tc main_arg25) = a25 m c := (Stats.s1_keep_cbe (W2 m ρ c)).trans (w2_arg25 m ρ c)
theorem w3_ug2 : W3 m ρ c (Proc.devRef .tc main_arg12) = a12 m c := (Stats.s1_keep_ug2 (W2 m ρ c)).trans (w2_arg12 m ρ c)
theorem w3_bg2 : W3 m ρ c (Proc.devRef .tc main_arg20) = a20 m c := (Stats.s1_keep_bg2 (W2 m ρ c)).trans (w2_arg20 m ρ c)
theorem w3_ube2 : W3 m ρ c (Proc.devRef .tc main_arg13) = a13 m c := (Stats.s1_keep_ube2 (W2 m ρ c)).trans (w2_arg13 m ρ c)
theorem w3_bbe2 : W3 m ρ c (Proc.devRef .tc main_arg21) = a21 m c := (Stats.s1_keep_bbe2 (W2 m ρ c)).trans (w2_arg21 m ρ c)

/-! ### After the second layer -/
set_option maxHeartbeats 4000000 in
set_option maxRecDepth 100000 in
theorem w4_h : W4 m ρ c (Proc.devRef .tc main_v64_0) = ofM (h2K cN cT cEps cZ (I m c)) := by
  have e : Layer2.h2 (ofM (h1K (I m c))) (ofRow (mean1K cN cZ (I m c))) (ofRow (var1K cN cT cZ (I m c))) (ofRow (catv (I m c).ug1 (I m c).bg1)) (ofRow (catv (I m c).ube1 (I m c).bbe1)) (a10 m c) (a18 m c) (ofRow (vec1 (a11 m c))) (ofRow (vec1 (a19 m c))) = h2K cN cT cEps cZ (I m c) := rfl
  rw [← e]
  exact (W4_arr m ρ c 9).trans (Layer2.out_h2 (V3 m ρ) c _ _ _ _ _ _ _ _ _ (w3_h m ρ c) (w3_mean m ρ c) (w3_var m ρ c) (w3_g m ρ c) (w3_be m ρ c) (w3_uw2 m ρ c) (w3_ub2 m ρ c) (w3_bw2 m ρ c) (w3_bb2 m ρ c))
set_option maxHeartbeats 4000000 in
set_option maxRecDepth 100000 in
theorem w4_sum : W4 m ρ c (Proc.devRef .tc main_v64_1) = ofTiles (tileSum (h2K cN cT cEps cZ (I m c))) := by
  have e : Layer2.h2 (ofM (h1K (I m c))) (ofRow (mean1K cN cZ (I m c))) (ofRow (var1K cN cT cZ (I m c))) (ofRow (catv (I m c).ug1 (I m c).bg1)) (ofRow (catv (I m c).ube1 (I m c).bbe1)) (a10 m c) (a18 m c) (ofRow (vec1 (a11 m c))) (ofRow (vec1 (a19 m c))) = h2K cN cT cEps cZ (I m c) := rfl
  rw [← e]
  exact (W4_arr m ρ c 10).trans (Layer2.out_sum (V3 m ρ) c _ _ _ _ _ _ _ _ _ (w3_h m ρ c) (w3_mean m ρ c) (w3_var m ρ c) (w3_g m ρ c) (w3_be m ρ c) (w3_uw2 m ρ c) (w3_ub2 m ρ c) (w3_bw2 m ρ c) (w3_bb2 m ρ c))
set_option maxHeartbeats 4000000 in
set_option maxRecDepth 100000 in
theorem w4_m2 : W4 m ρ c (Proc.devRef .tc main_v64_2) = ofTiles (tileM2 cT (h2K cN cT cEps cZ (I m c))) := by
  have e : Layer2.h2 (ofM (h1K (I m c))) (ofRow (mean1K cN cZ (I m c))) (ofRow (var1K cN cT cZ (I m c))) (ofRow (catv (I m c).ug1 (I m c).bg1)) (ofRow (catv (I m c).ube1 (I m c).bbe1)) (a10 m c) (a18 m c) (ofRow (vec1 (a11 m c))) (ofRow (vec1 (a19 m c))) = h2K cN cT cEps cZ (I m c) := rfl
  rw [← e]
  exact (W4_arr m ρ c 11).trans (Layer2.out_m2 (V3 m ρ) c _ _ _ _ _ _ _ _ _ (w3_h m ρ c) (w3_mean m ρ c) (w3_var m ρ c) (w3_g m ρ c) (w3_be m ρ c) (w3_uw2 m ρ c) (w3_ub2 m ρ c) (w3_bw2 m ρ c) (w3_bb2 m ρ c))
theorem w4_cw : W4 m ρ c (Proc.devRef .tc main_arg22) = a22 m c := (W4_of_ne m ρ c main_arg22 (by decide)).trans (w3_cw m ρ c)
theorem w4_cb : W4 m ρ c (Proc.devRef .tc main_v36) = ofRow (vec1 (a23 m c)) := (W4_of_ne m ρ c main_v36 (by decide)).trans (w3_cb m ρ c)
theorem w4_cg : W4 m ρ c (Proc.devRef .tc main_arg24) = a24 m c := (W4_of_ne m ρ c main_arg24 (by decide)).trans (w3_cg m ρ c)
theorem w4_cbe : W4 m ρ c (Proc.devRef .tc main_arg25) = a25 m c := (W4_of_ne m ρ c main_arg25 (by decide)).trans (w3_cbe m ρ c)
theorem w4_ug2 : W4 m ρ c (Proc.devRef .tc main_arg12) = a12 m c := (W4_of_ne m ρ c main_arg12 (by decide)).trans (w3_ug2 m ρ c)
theorem w4_bg2 : W4 m ρ c (Proc.devRef .tc main_arg20) = a20 m c := (W4_of_ne m ρ c main_arg20 (by decide)).trans (w3_bg2 m ρ c)
theorem w4_ube2 : W4 m ρ c (Proc.devRef .tc main_arg13) = a13 m c := (W4_of_ne m ρ c main_arg13 (by decide)).trans (w3_ube2 m ρ c)
theorem w4_bbe2 : W4 m ρ c (Proc.devRef .tc main_arg21) = a21 m c := (W4_of_ne m ρ c main_arg21 (by decide)).trans (w3_bbe2 m ρ c)

/-! ### Entering the combining layer -/
theorem w5_h : W5 m ρ c (Proc.devRef .tc main_v64_0) = ofM (h2K cN cT cEps cZ (I m c)) := (Stats.s2_keep_h (W4 m ρ c)).trans (w4_h m ρ c)
set_option maxHeartbeats 4000000 in
set_option maxRecDepth 100000 in
theorem w5_mean : W5 m ρ c (Proc.devRef .tc main_v85) = ofRow (mean2K cN cT cEps cZ (I m c)) := by
  have e : kMean cN cZ (tiles (ofTiles (tileSum (h2K cN cT cEps cZ (I m c))))) = mean2K cN cT cEps cZ (I m c) := rfl
  rw [← e]
  exact Stats.s2_mean (W4 m ρ c) _ (w4_sum m ρ c)
set_option maxHeartbeats 4000000 in
set_option maxRecDepth 100000 in
theorem w5_var : W5 m ρ c (Proc.devRef .tc main_v86) = ofRow (var2K cN cT cEps cZ (I m c)) := by
  have e : kVar cN cT cZ (tiles (ofTiles (tileSum (h2K cN cT cEps cZ (I m c))))) (tiles (ofTiles (tileM2 cT (h2K cN cT cEps cZ (I m c))))) = var2K cN cT cEps cZ (I m c) := rfl
  rw [← e]
  exact Stats.s2_var (W4 m ρ c) _ _ (w4_sum m ρ c) (w4_m2 m ρ c)
set_option maxHeartbeats 4000000 in
set_option maxRecDepth 100000 in
theorem w5_g : W5 m ρ c (Proc.devRef .tc main_v88) = ofRow (catv (I m c).ug2 (I m c).bg2) := by
  have e : catv (vec1 (a12 m c)) (vec1 (a20 m c)) = catv (I m c).ug2 (I m c).bg2 := rfl
  rw [← e]
  exact Stats.s2_g (W4 m ρ c) _ _ (w4_ug2 m ρ c) (w4_bg2 m ρ c)
set_option maxHeartbeats 4000000 in
set_option maxRecDepth 100000 in
theorem w5_be : W5 m ρ c (Proc.devRef .tc main_v90) = ofRow (catv (I m c).ube2 (I m c).bbe2) := by
  have e : catv (vec1 (a13 m c)) (vec1 (a21 m c)) = catv (I m c).ube2 (I m c).bbe2 := rfl
  rw [← e]
  exact Stats.s2_be (W4 m ρ c) _ _ (w4_ube2 m ρ c) (w4_bbe2 m ρ c)
theorem w5_cw : W5 m ρ c (Proc.devRef .tc main_arg22) = a22 m c := (Stats.s2_keep_cw (W4 m ρ c)).trans (w4_cw m ρ c)
theorem w5_cb : W5 m ρ c (Proc.devRef .tc main_v36) = ofRow (vec1 (a23 m c)) := (Stats.s2_keep_cb (W4 m ρ c)).trans (w4_cb m ρ c)
theorem w5_cg : W5 m ρ c (Proc.devRef .tc main_arg24) = a24 m c := (Stats.s2_keep_cg (W4 m ρ c)).trans (w4_cg m ρ c)
theorem w5_cbe : W5 m ρ c (Proc.devRef .tc main_arg25) = a25 m c := (Stats.s2_keep_cbe (W4 m ρ c)).trans (w4_cbe m ρ c)

/-! ### After the combining layer -/
set_option maxHeartbeats 4000000 in
set_option maxRecDepth 100000 in
theorem w6_h : W6 m ρ c (Proc.devRef .tc main_v91_0) = ofM (hcK cN cT cEps cZ (I m c)) := by
  have e : Layer3.hc (ofM (h2K cN cT cEps cZ (I m c))) (ofRow (mean2K cN cT cEps cZ (I m c))) (ofRow (var2K cN cT cEps cZ (I m c))) (ofRow (catv (I m c).ug2 (I m c).bg2)) (ofRow (catv (I m c).ube2 (I m c).bbe2)) (a22 m c) (ofRow (vec1 (a23 m c))) = hcK cN cT cEps cZ (I m c) := rfl
  rw [← e]
  exact (W6_arr m ρ c 7).trans (Layer3.out_hc (V5 m ρ) c _ _ _ _ _ _ _ (w5_h m ρ c) (w5_mean m ρ c) (w5_var m ρ c) (w5_g m ρ c) (w5_be m ρ c) (w5_cw m ρ c) (w5_cb m ρ c))
set_option maxHeartbeats 4000000 in
set_option maxRecDepth 100000 in
theorem w6_sum : W6 m ρ c (Proc.devRef .tc main_v91_1) = ofTiles (tileSum (hcK cN cT cEps cZ (I m c))) := by
  have e : Layer3.hc (ofM (h2K cN cT cEps cZ (I m c))) (ofRow (mean2K cN cT cEps cZ (I m c))) (ofRow (var2K cN cT cEps cZ (I m c))) (ofRow (catv (I m c).ug2 (I m c).bg2)) (ofRow (catv (I m c).ube2 (I m c).bbe2)) (a22 m c) (ofRow (vec1 (a23 m c))) = hcK cN cT cEps cZ (I m c) := rfl
  rw [← e]
  exact (W6_arr m ρ c 8).trans (Layer3.out_sum (V5 m ρ) c _ _ _ _ _ _ _ (w5_h m ρ c) (w5_mean m ρ c) (w5_var m ρ c) (w5_g m ρ c) (w5_be m ρ c) (w5_cw m ρ c) (w5_cb m ρ c))
set_option maxHeartbeats 4000000 in
set_option maxRecDepth 100000 in
theorem w6_m2 : W6 m ρ c (Proc.devRef .tc main_v91_2) = ofTiles (tileM2 cT (hcK cN cT cEps cZ (I m c))) := by
  have e : Layer3.hc (ofM (h2K cN cT cEps cZ (I m c))) (ofRow (mean2K cN cT cEps cZ (I m c))) (ofRow (var2K cN cT cEps cZ (I m c))) (ofRow (catv (I m c).ug2 (I m c).bg2)) (ofRow (catv (I m c).ube2 (I m c).bbe2)) (a22 m c) (ofRow (vec1 (a23 m c))) = hcK cN cT cEps cZ (I m c) := rfl
  rw [← e]
  exact (W6_arr m ρ c 9).trans (Layer3.out_m2 (V5 m ρ) c _ _ _ _ _ _ _ (w5_h m ρ c) (w5_mean m ρ c) (w5_var m ρ c) (w5_g m ρ c) (w5_be m ρ c) (w5_cw m ρ c) (w5_cb m ρ c))
theorem w6_cg : W6 m ρ c (Proc.devRef .tc main_arg24) = a24 m c := (W6_of_ne m ρ c main_arg24 (by decide)).trans (w5_cg m ρ c)
theorem w6_cbe : W6 m ρ c (Proc.devRef .tc main_arg25) = a25 m c := (W6_of_ne m ρ c main_arg25 (by decide)).trans (w5_cbe m ρ c)

/-! ### Entering the last normalisation -/
theorem w7_h : W7 m ρ c (Proc.devRef .tc main_v91_0) = ofM (hcK cN cT cEps cZ (I m c)) := (Stats.s3_keep_h (W6 m ρ c)).trans (w6_h m ρ c)
set_option maxHeartbeats 4000000 in
set_option maxRecDepth 100000 in
theorem w7_mean : W7 m ρ c (Proc.devRef .tc main_v112) = ofRow (meancK cN cT cEps cZ (I m c)) := by
  have e : kMean cN cZ (tiles (ofTiles (tileSum (hcK cN cT cEps cZ (I m c))))) = meancK cN cT cEps cZ (I m c) := rfl
  rw [← e]
  exact Stats.s3_mean (W6 m ρ c) _ (w6_sum m ρ c)
set_option maxHeartbeats 4000000 in
set_option maxRecDepth 100000 in
theorem w7_var : W7 m ρ c (Proc.devRef .tc main_v113) = ofRow (varcK cN cT cEps cZ (I m c)) := by
  have e : kVar cN cT cZ (tiles (ofTiles (tileSum (hcK cN cT cEps cZ (I m c))))) (tiles (ofTiles (tileM2 cT (hcK cN cT cEps cZ (I m c))))) = varcK cN cT cEps cZ (I m c) := rfl
  rw [← e]
  exact Stats.s3_var (W6 m ρ c) _ _ (w6_sum m ρ c) (w6_m2 m ρ c)
set_option maxHeartbeats 4000000 in
set_option maxRecDepth 100000 in
theorem w7_g : W7 m ρ c (Proc.devRef .tc main_v114) = ofRow ((I m c).cg) := by
  have e : vec1 (a24 m c) = (I m c).cg := rfl
  rw [← e]
  exact Stats.s3_g (W6 m ρ c) _ (w6_cg m ρ c)
set_option maxHeartbeats 4000000 in
set_option maxRecDepth 100000 in
theorem w7_be : W7 m ρ c (Proc.devRef .tc main_v115) = ofRow ((I m c).cbe) := by
  have e : vec1 (a25 m c) = (I m c).cbe := rfl
  rw [← e]
  exact Stats.s3_be (W6 m ρ c) _ (w6_cbe m ρ c)
/-! ### The result -/
set_option maxHeartbeats 4000000 in
set_option maxRecDepth 100000 in
theorem result : W8 m ρ c (Proc.devRef .tc main_v116) = ofM (outK cN cT cEps cZ (I m c)) := by
  have e : bnrelu cEps cZ (toM (ofM (hcK cN cT cEps cZ (I m c)))) (rowV (ofRow (meancK cN cT cEps cZ (I m c)))) (rowV (ofRow (varcK cN cT cEps cZ (I m c)))) (rowV (ofRow (I m c).cg)) (rowV (ofRow (I m c).cbe)) = outK cN cT cEps cZ (I m c) := rfl
  rw [← e]
  exact (W8_arr m ρ c 5).trans (Layer4.out_final (V7 m ρ) c _ _ _ _ _ (w7_h m ρ c) (w7_mean m ρ c) (w7_var m ρ c) (w7_g m ρ c) (w7_be m ρ c))
end Cert.KernelIdeal.Value

end
-- ==== Proof.RefValue.lean ====
/-
  The two-pass program's result array is the two-pass network of the specification, index by index.
-/
import proofs.«415859_j20203526161168_3_alg».proof.Proof.RefRead
import proofs.«415859_j20203526161168_3_alg».proof.Proof.Spec
import proofs.«415859_j20203526161168_3_alg».proof.Proof.Conv
import proofs.«415859_j20203526161168_3_alg».proof.Proof.Inputs

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Spec Cert.Conv

/-- Two indices of a rank-2 shape with the same coordinates are equal. -/
macro "idx2_eq" : tactic =>
  `(tactic| exact funext fun a => Fin.ext (by match a with | ⟨0, _⟩ => rfl | ⟨1, _⟩ => rfl))
/-- Two indices of a rank-1 shape with the same coordinate are equal. -/
macro "idx1_eq" : tactic =>
  `(tactic| exact funext fun a => Fin.ext (by match a with | ⟨0, _⟩ => rfl))

/-! ### The upper branch: residual input, linear layer, normalisation; then the second linear layer and normalisation -/

theorem lin21 (a0 : (⟨S100000x64, .f32⟩ : BufTy).Contents (Elt Ideal)) (a2 : (⟨S2x3200000, .i32⟩ : BufTy).Contents (Elt Ideal)) (a4 : (⟨S_, .f32⟩ : BufTy).Contents (Elt Ideal)) (a6 : (⟨S64x64, .f32⟩ : BufTy).Contents (Elt Ideal)) (a7 : (⟨S64, .f32⟩ : BufTy).Contents (Elt Ideal)) (r : Fin 100000) (j : Fin 64) :
    val_main_v21 (F := Ideal) a0 a2 a4 a6 a7 (ix2 r j)
      = lin (resid (toM (val_main_v13 (F := Ideal) a0 a2)) (toM a0) (cOne + sc0 a4)) (toM a6) (vec1 a7) r j := by
  rw [val_main_v21_apply, val_main_v18_apply, val_main_v20_apply, val_main_v19_apply]
  unfold lin resid
  refine congrArg₂ (· + ·) (Finset.sum_congr rfl fun k _ => ?_) ?_
  · rw [val_main_v17_apply, val_main_v16_apply, val_main_v15_apply, val_main_v14_apply, val_main_cst_1_apply]
    have el : lidx_main_v18 (ix2 r j) k = ix2 r k := by idx2_eq
    have er : ridx_main_v18 (ix2 r j) k = ix2 k j := by idx2_eq
    rw [el, er]
    rfl
  · have e : idx_main_v19 (idx_main_v20 (ix2 r j)) = ix1 j := by idx1_eq
    rw [e]
    rfl

theorem mean24 (a0 : (⟨S100000x64, .f32⟩ : BufTy).Contents (Elt Ideal)) (a2 : (⟨S2x3200000, .i32⟩ : BufTy).Contents (Elt Ideal)) (a4 : (⟨S_, .f32⟩ : BufTy).Contents (Elt Ideal)) (a6 : (⟨S64x64, .f32⟩ : BufTy).Contents (Elt Ideal)) (a7 : (⟨S64, .f32⟩ : BufTy).Contents (Elt Ideal)) (j : Fin 64) :
    val_main_v24 (F := Ideal) a0 a2 a4 a6 a7 (ix1 j) = rMean cN cZ (toM (val_main_v21 (F := Ideal) a0 a2 a4 a6 a7)) j := by
  rw [val_main_v24_apply, val_main_v22_apply, val_main_v23_apply, val_main_cst_3_apply, val_main_cst_2_apply]
  unfold rMean
  refine congrArg₂ Ideal.div (congrArg (cZ + ·) (Finset.sum_congr rfl fun k _ => ?_)) rfl
  have e : idx_main_v22 (ix1 j) k = ix2 k j := by idx2_eq
  rw [e]
  rfl

theorem var31 (a0 : (⟨S100000x64, .f32⟩ : BufTy).Contents (Elt Ideal)) (a2 : (⟨S2x3200000, .i32⟩ : BufTy).Contents (Elt Ideal)) (a4 : (⟨S_, .f32⟩ : BufTy).Contents (Elt Ideal)) (a6 : (⟨S64x64, .f32⟩ : BufTy).Contents (Elt Ideal)) (a7 : (⟨S64, .f32⟩ : BufTy).Contents (Elt Ideal)) (j : Fin 64) :
    val_main_v31 (F := Ideal) a0 a2 a4 a6 a7 (ix1 j) = rVar cN cZ (toM (val_main_v21 (F := Ideal) a0 a2 a4 a6 a7)) j := by
  rw [val_main_v31_apply, val_main_v29_apply, val_main_v30_apply, val_main_cst_5_apply, val_main_cst_4_apply]
  unfold rVar
  refine congrArg₂ Ideal.div (congrArg (cZ + ·) (Finset.sum_congr rfl fun k _ => ?_)) rfl
  have e : idx_main_v29 (ix1 j) k = ix2 k j := by idx2_eq
  have e' : idx_main_v25 (idx_main_v26 (ix2 k j)) = ix1 j := by idx1_eq
  rw [e, val_main_v28_apply, val_main_v27_apply, val_main_v26_apply, val_main_v25_apply, e', mean24]
  rfl

theorem out47 (a0 : (⟨S100000x64, .f32⟩ : BufTy).Contents (Elt Ideal)) (a2 : (⟨S2x3200000, .i32⟩ : BufTy).Contents (Elt Ideal)) (a4 : (⟨S_, .f32⟩ : BufTy).Contents (Elt Ideal)) (a6 : (⟨S64x64, .f32⟩ : BufTy).Contents (Elt Ideal)) (a7 a8 a9 : (⟨S64, .f32⟩ : BufTy).Contents (Elt Ideal)) (r : Fin 100000) (j : Fin 64) :
    val_main_v47 (F := Ideal) a0 a2 a4 a6 a7 a8 a9 (ix2 r j)
      = bnR cN cEps cZ (toM (val_main_v21 (F := Ideal) a0 a2 a4 a6 a7)) (vec1 a8) (vec1 a9) r j := by
  have e1 : idx_main_v32 (idx_main_v33 (ix2 r j)) = ix1 j := by idx1_eq
  have e2 : idx_main_v38 (idx_main_v39 (ix2 r j)) = ix1 j := by idx1_eq
  have e3 : idx_main_v41 (idx_main_v42 (ix2 r j)) = ix1 j := by idx1_eq
  have e4 : idx_main_v44 (idx_main_v45 (ix2 r j)) = ix1 j := by idx1_eq
  rw [val_main_v47_apply, val_main_v46_apply, val_main_v43_apply, val_main_v40_apply, val_main_v34_apply,
    val_main_v33_apply, val_main_v32_apply, e1, val_main_v39_apply, val_main_v38_apply, e2, val_main_v37_apply,
    val_main_v36_apply, val_main_v35_apply, val_main_cst_6_apply, val_main_v42_apply, val_main_v41_apply, e3,
    val_main_v45_apply, val_main_v44_apply, e4, val_main_call0_v0_apply, val_main_call0_cst_apply,
    mean24, var31]
  rfl

theorem lin51 (a0 : (⟨S100000x64, .f32⟩ : BufTy).Contents (Elt Ideal)) (a2 : (⟨S2x3200000, .i32⟩ : BufTy).Contents (Elt Ideal)) (a4 : (⟨S_, .f32⟩ : BufTy).Contents (Elt Ideal)) (a6 : (⟨S64x64, .f32⟩ : BufTy).Contents (Elt Ideal)) (a7 a8 a9 : (⟨S64, .f32⟩ : BufTy).Contents (Elt Ideal)) (a10 : (⟨S64x64, .f32⟩ : BufTy).Contents (Elt Ideal)) (a11 : (⟨S64, .f32⟩ : BufTy).Contents (Elt Ideal)) (r : Fin 100000) (j : Fin 64) :
    val_main_v51 (F := Ideal) a0 a2 a4 a6 a7 a8 a9 a10 a11 (ix2 r j)
      = lin (toM (val_main_v47 (F := Ideal) a0 a2 a4 a6 a7 a8 a9)) (toM a10) (vec1 a11) r j := by
  rw [val_main_v51_apply, val_main_v48_apply, val_main_v50_apply, val_main_v49_apply]
  unfold lin
  refine congrArg₂ (· + ·) (Finset.sum_congr rfl fun k _ => ?_) ?_
  · have el : lidx_main_v48 (ix2 r j) k = ix2 r k := by idx2_eq
    have er : ridx_main_v48 (ix2 r j) k = ix2 k j := by idx2_eq
    rw [el, er]
    rfl
  · have e : idx_main_v49 (idx_main_v50 (ix2 r j)) = ix1 j := by idx1_eq
    rw [e]
    rfl

theorem mean54 (a0 : (⟨S100000x64, .f32⟩ : BufTy).Contents (Elt Ideal)) (a2 : (⟨S2x3200000, .i32⟩ : BufTy).Contents (Elt Ideal)) (a4 : (⟨S_, .f32⟩ : BufTy).Contents (Elt Ideal)) (a6 : (⟨S64x64, .f32⟩ : BufTy).Contents (Elt Ideal)) (a7 a8 a9 : (⟨S64, .f32⟩ : BufTy).Contents (Elt Ideal)) (a10 : (⟨S64x64, .f32⟩ : BufTy).Contents (Elt Ideal)) (a11 : (⟨S64, .f32⟩ : BufTy).Contents (Elt Ideal)) (j : Fin 64) :
    val_main_v54 (F := Ideal) a0 a2 a4 a6 a7 a8 a9 a10 a11 (ix1 j) = rMean cN cZ (toM (val_main_v51 (F := Ideal) a0 a2 a4 a6 a7 a8 a9 a10 a11)) j := by
  rw [val_main_v54_apply, val_main_v52_apply, val_main_v53_apply, val_main_cst_8_apply, val_main_cst_7_apply]
  unfold rMean
  refine congrArg₂ Ideal.div (congrArg (cZ + ·) (Finset.sum_congr rfl fun k _ => ?_)) rfl
  have e : idx_main_v52 (ix1 j) k = ix2 k j := by idx2_eq
  rw [e]
  rfl

theorem var61 (a0 : (⟨S100000x64, .f32⟩ : BufTy).Contents (Elt Ideal)) (a2 : (⟨S2x3200000, .i32⟩ : BufTy).Contents (Elt Ideal)) (a4 : (⟨S_, .f32⟩ : BufTy).Contents (Elt Ideal)) (a6 : (⟨S64x64, .f32⟩ : BufTy).Contents (Elt Ideal)) (a7 a8 a9 : (⟨S64, .f32⟩ : BufTy).Contents (Elt Ideal)) (a10 : (⟨S64x64, .f32⟩ : BufTy).Contents (Elt Ideal)) (a11 : (⟨S64, .f32⟩ : BufTy).Contents (Elt Ideal)) (j : Fin 64) :
    val_main_v61 (F := Ideal) a0 a2 a4 a6 a7 a8 a9 a10 a11 (ix1 j) = rVar cN cZ (toM (val_main_v51 (F := Ideal) a0 a2 a4 a6 a7 a8 a9 a10 a11)) j := by
  rw [val_main_v61_apply, val_main_v59_apply, val_main_v60_apply, val_main_cst_10_apply, val_main_cst_9_apply]
  unfold rVar
  refine congrArg₂ Ideal.div (congrArg (cZ + ·) (Finset.sum_congr rfl fun k _ => ?_)) rfl
  have e : idx_main_v59 (ix1 j) k = ix2 k j := by idx2_eq
  have e' : idx_main_v55 (idx_main_v56 (ix2 k j)) = ix1 j := by idx1_eq
  rw [e, val_main_v58_apply, val_main_v57_apply, val_main_v56_apply, val_main_v55_apply, e', mean54]
  rfl

theorem out77 (a0 : (⟨S100000x64, .f32⟩ : BufTy).Contents (Elt Ideal)) (a2 : (⟨S2x3200000, .i32⟩ : BufTy).Contents (Elt Ideal)) (a4 : (⟨S_, .f32⟩ : BufTy).Contents (Elt Ideal)) (a6 : (⟨S64x64, .f32⟩ : BufTy).Contents (Elt Ideal)) (a7 a8 a9 : (⟨S64, .f32⟩ : BufTy).Contents (Elt Ideal)) (a10 : (⟨S64x64, .f32⟩ : BufTy).Contents (Elt Ideal)) (a11 a12 a13 : (⟨S64, .f32⟩ : BufTy).Contents (Elt Ideal)) (r : Fin 100000) (j : Fin 64) :
    val_main_v77 (F := Ideal) a0 a2 a4 a6 a7 a8 a9 a10 a11 a12 a13 (ix2 r j)
      = bnR cN cEps cZ (toM (val_main_v51 (F := Ideal) a0 a2 a4 a6 a7 a8 a9 a10 a11)) (vec1 a12) (vec1 a13) r j := by
  have e1 : idx_main_v62 (idx_main_v63 (ix2 r j)) = ix1 j := by idx1_eq
  have e2 : idx_main_v68 (idx_main_v69 (ix2 r j)) = ix1 j := by idx1_eq
  have e3 : idx_main_v71 (idx_main_v72 (ix2 r j)) = ix1 j := by idx1_eq
  have e4 : idx_main_v74 (idx_main_v75 (ix2 r j)) = ix1 j := by idx1_eq
  rw [val_main_v77_apply, val_main_v76_apply, val_main_v73_apply, val_main_v70_apply, val_main_v64_apply,
    val_main_v63_apply, val_main_v62_apply, e1, val_main_v69_apply, val_main_v68_apply, e2, val_main_v67_apply,
    val_main_v66_apply, val_main_v65_apply, val_main_cst_11_apply, val_main_v72_apply, val_main_v71_apply, e3,
    val_main_v75_apply, val_main_v74_apply, e4, val_main_call1_v0_apply, val_main_call1_cst_apply,
    mean54, var61]
  rfl

/-! ### The boundary branch, the same text with its own arguments -/

theorem lin99 (a0 a1 : (⟨S100000x64, .f32⟩ : BufTy).Contents (Elt Ideal)) (a3 : (⟨S2x300000, .i32⟩ : BufTy).Contents (Elt Ideal)) (a5 : (⟨S_, .f32⟩ : BufTy).Contents (Elt Ideal)) (a14 : (⟨S64x64, .f32⟩ : BufTy).Contents (Elt Ideal)) (a15 : (⟨S64, .f32⟩ : BufTy).Contents (Elt Ideal)) (r : Fin 100000) (j : Fin 64) :
    val_main_v99 (F := Ideal) a0 a1 a3 a5 a14 a15 (ix2 r j)
      = lin (resid (toM (val_main_v91 (F := Ideal) a1 a3)) (toM a0) (cOne + sc0 a5)) (toM a14) (vec1 a15) r j := by
  rw [val_main_v99_apply, val_main_v96_apply, val_main_v98_apply, val_main_v97_apply]
  unfold lin resid
  refine congrArg₂ (· + ·) (Finset.sum_congr rfl fun k _ => ?_) ?_
  · rw [val_main_v95_apply, val_main_v94_apply, val_main_v93_apply, val_main_v92_apply, val_main_cst_15_apply]
    have el : lidx_main_v96 (ix2 r j) k = ix2 r k := by idx2_eq
    have er : ridx_main_v96 (ix2 r j) k = ix2 k j := by idx2_eq
    rw [el, er]
    rfl
  · have e : idx_main_v97 (idx_main_v98 (ix2 r j)) = ix1 j := by idx1_eq
    rw [e]
    rfl

theorem mean102 (a0 a1 : (⟨S100000x64, .f32⟩ : BufTy).Contents (Elt Ideal)) (a3 : (⟨S2x300000, .i32⟩ : BufTy).Contents (Elt Ideal)) (a5 : (⟨S_, .f32⟩ : BufTy).Contents (Elt Ideal)) (a14 : (⟨S64x64, .f32⟩ : BufTy).Contents (Elt Ideal)) (a15 : (⟨S64, .f32⟩ : BufTy).Contents (Elt Ideal)) (j : Fin 64) :
    val_main_v102 (F := Ideal) a0 a1 a3 a5 a14 a15 (ix1 j) = rMean cN cZ (toM (val_main_v99 (F := Ideal) a0 a1 a3 a5 a14 a15)) j := by
  rw [val_main_v102_apply, val_main_v100_apply, val_main_v101_apply, val_main_cst_17_apply, val_main_cst_16_apply]
  unfold rMean
  refine congrArg₂ Ideal.div (congrArg (cZ + ·) (Finset.sum_congr rfl fun k _ => ?_)) rfl
  have e : idx_main_v100 (ix1 j) k = ix2 k j := by idx2_eq
  rw [e]
  rfl

theorem var109 (a0 a1 : (⟨S100000x64, .f32⟩ : BufTy).Contents (Elt Ideal)) (a3 : (⟨S2x300000, .i32⟩ : BufTy).Contents (Elt Ideal)) (a5 : (⟨S_, .f32⟩ : BufTy).Contents (Elt Ideal)) (a14 : (⟨S64x64, .f32⟩ : BufTy).Contents (Elt Ideal)) (a15 : (⟨S64, .f32⟩ : BufTy).Contents (Elt Ideal)) (j : Fin 64) :
    val_main_v109 (F := Ideal) a0 a1 a3 a5 a14 a15 (ix1 j) = rVar cN cZ (toM (val_main_v99 (F := Ideal) a0 a1 a3 a5 a14 a15)) j := by
  rw [val_main_v109_apply, val_main_v107_apply, val_main_v108_apply, val_main_cst_19_apply, val_main_cst_18_apply]
  unfold rVar
  refine congrArg₂ Ideal.div (congrArg (cZ + ·) (Finset.sum_congr rfl fun k _ => ?_)) rfl
  have e : idx_main_v107 (ix1 j) k = ix2 k j := by idx2_eq
  have e' : idx_main_v103 (idx_main_v104 (ix2 k j)) = ix1 j := by idx1_eq
  rw [e, val_main_v106_apply, val_main_v105_apply, val_main_v104_apply, val_main_v103_apply, e', mean102]
  rfl

theorem out125 (a0 a1 : (⟨S100000x64, .f32⟩ : BufTy).Contents (Elt Ideal)) (a3 : (⟨S2x300000, .i32⟩ : BufTy).Contents (Elt Ideal)) (a5 : (⟨S_, .f32⟩ : BufTy).Contents (Elt Ideal)) (a14 : (⟨S64x64, .f32⟩ : BufTy).Contents (Elt Ideal)) (a15 a16 a17 : (⟨S64, .f32⟩ : BufTy).Contents (Elt Ideal)) (r : Fin 100000) (j : Fin 64) :
    val_main_v125 (F := Ideal) a0 a1 a3 a5 a14 a15 a16 a17 (ix2 r j)
      = bnR cN cEps cZ (toM (val_main_v99 (F := Ideal) a0 a1 a3 a5 a14 a15)) (vec1 a16) (vec1 a17) r j := by
  have e1 : idx_main_v110 (idx_main_v111 (ix2 r j)) = ix1 j := by idx1_eq
  have e2 : idx_main_v116 (idx_main_v117 (ix2 r j)) = ix1 j := by idx1_eq
  have e3 : idx_main_v119 (idx_main_v120 (ix2 r j)) = ix1 j := by idx1_eq
  have e4 : idx_main_v122 (idx_main_v123 (ix2 r j)) = ix1 j := by idx1_eq
  rw [val_main_v125_apply, val_main_v124_apply, val_main_v121_apply, val_main_v118_apply, val_main_v112_apply,
    val_main_v111_apply, val_main_v110_apply, e1, val_main_v117_apply, val_main_v116_apply, e2, val_main_v115_apply,
    val_main_v114_apply, val_main_v113_apply, val_main_cst_20_apply, val_main_v120_apply, val_main_v119_apply, e3,
    val_main_v123_apply, val_main_v122_apply, e4, val_main_call2_v0_apply, val_main_call2_cst_apply,
    mean102, var109]
  rfl

theorem lin129 (a0 a1 : (⟨S100000x64, .f32⟩ : BufTy).Contents (Elt Ideal)) (a3 : (⟨S2x300000, .i32⟩ : BufTy).Contents (Elt Ideal)) (a5 : (⟨S_, .f32⟩ : BufTy).Contents (Elt Ideal)) (a14 : (⟨S64x64, .f32⟩ : BufTy).Contents (Elt Ideal)) (a15 a16 a17 : (⟨S64, .f32⟩ : BufTy).Contents (Elt Ideal)) (a18 : (⟨S64x64, .f32⟩ : BufTy).Contents (Elt Ideal)) (a19 : (⟨S64, .f32⟩ : BufTy).Contents (Elt Ideal)) (r : Fin 100000) (j : Fin 64) :
    val_main_v129 (F := Ideal) a0 a1 a3 a5 a14 a15 a16 a17 a18 a19 (ix2 r j)
      = lin (toM (val_main_v125 (F := Ideal) a0 a1 a3 a5 a14 a15 a16 a17)) (toM a18) (vec1 a19) r j := by
  rw [val_main_v129_apply, val_main_v126_apply, val_main_v128_apply, val_main_v127_apply]
  unfold lin
  refine congrArg₂ (· + ·) (Finset.sum_congr rfl fun k _ => ?_) ?_
  · have el : lidx_main_v126 (ix2 r j) k = ix2 r k := by idx2_eq
    have er : ridx_main_v126 (ix2 r j) k = ix2 k j := by idx2_eq
    rw [el, er]
    rfl
  · have e : idx_main_v127 (idx_main_v128 (ix2 r j)) = ix1 j := by idx1_eq
    rw [e]
    rfl

theorem mean132 (a0 a1 : (⟨S100000x64, .f32⟩ : BufTy).Contents (Elt Ideal)) (a3 : (⟨S2x300000, .i32⟩ : BufTy).Contents (Elt Ideal)) (a5 : (⟨S_, .f32⟩ : BufTy).Contents (Elt Ideal)) (a14 : (⟨S64x64, .f32⟩ : BufTy).Contents (Elt Ideal)) (a15 a16 a17 : (⟨S64, .f32⟩ : BufTy).Contents (Elt Ideal)) (a18 : (⟨S64x64, .f32⟩ : BufTy).Contents (Elt Ideal)) (a19 : (⟨S64, .f32⟩ : BufTy).Contents (Elt Ideal)) (j : Fin 64) :
    val_main_v132 (F := Ideal) a0 a1 a3 a5 a14 a15 a16 a17 a18 a19 (ix1 j) = rMean cN cZ (toM (val_main_v129 (F := Ideal) a0 a1 a3 a5 a14 a15 a16 a17 a18 a19)) j := by
  rw [val_main_v132_apply, val_main_v130_apply, val_main_v131_apply, val_main_cst_22_apply, val_main_cst_21_apply]
  unfold rMean
  refine congrArg₂ Ideal.div (congrArg (cZ + ·) (Finset.sum_congr rfl fun k _ => ?_)) rfl
  have e : idx_main_v130 (ix1 j) k = ix2 k j := by idx2_eq
  rw [e]
  rfl

theorem var139 (a0 a1 : (⟨S100000x64, .f32⟩ : BufTy).Contents (Elt Ideal)) (a3 : (⟨S2x300000, .i32⟩ : BufTy).Contents (Elt Ideal)) (a5 : (⟨S_, .f32⟩ : BufTy).Contents (Elt Ideal)) (a14 : (⟨S64x64, .f32⟩ : BufTy).Contents (Elt Ideal)) (a15 a16 a17 : (⟨S64, .f32⟩ : BufTy).Contents (Elt Ideal)) (a18 : (⟨S64x64, .f32⟩ : BufTy).Contents (Elt Ideal)) (a19 : (⟨S64, .f32⟩ : BufTy).Contents (Elt Ideal)) (j : Fin 64) :
    val_main_v139 (F := Ideal) a0 a1 a3 a5 a14 a15 a16 a17 a18 a19 (ix1 j) = rVar cN cZ (toM (val_main_v129 (F := Ideal) a0 a1 a3 a5 a14 a15 a16 a17 a18 a19)) j := by
  rw [val_main_v139_apply, val_main_v137_apply, val_main_v138_apply, val_main_cst_24_apply, val_main_cst_23_apply]
  unfold rVar
  refine congrArg₂ Ideal.div (congrArg (cZ + ·) (Finset.sum_congr rfl fun k _ => ?_)) rfl
  have e : idx_main_v137 (ix1 j) k = ix2 k j := by idx2_eq
  have e' : idx_main_v133 (idx_main_v134 (ix2 k j)) = ix1 j := by idx1_eq
  rw [e, val_main_v136_apply, val_main_v135_apply, val_main_v134_apply, val_main_v133_apply, e', mean132]
  rfl

theorem out155 (a0 a1 : (⟨S100000x64, .f32⟩ : BufTy).Contents (Elt Ideal)) (a3 : (⟨S2x300000, .i32⟩ : BufTy).Contents (Elt Ideal)) (a5 : (⟨S_, .f32⟩ : BufTy).Contents (Elt Ideal)) (a14 : (⟨S64x64, .f32⟩ : BufTy).Contents (Elt Ideal)) (a15 a16 a17 : (⟨S64, .f32⟩ : BufTy).Contents (Elt Ideal)) (a18 : (⟨S64x64, .f32⟩ : BufTy).Contents (Elt Ideal)) (a19 a20 a21 : (⟨S64, .f32⟩ : BufTy).Contents (Elt Ideal)) (r : Fin 100000) (j : Fin 64) :
    val_main_v155 (F := Ideal) a0 a1 a3 a5 a14 a15 a16 a17 a18 a19 a20 a21 (ix2 r j)
      = bnR cN cEps cZ (toM (val_main_v129 (F := Ideal) a0 a1 a3 a5 a14 a15 a16 a17 a18 a19)) (vec1 a20) (vec1 a21) r j := by
  have e1 : idx_main_v140 (idx_main_v141 (ix2 r j)) = ix1 j := by idx1_eq
  have e2 : idx_main_v146 (idx_main_v147 (ix2 r j)) = ix1 j := by idx1_eq
  have e3 : idx_main_v149 (idx_main_v150 (ix2 r j)) = ix1 j := by idx1_eq
  have e4 : idx_main_v152 (idx_main_v153 (ix2 r j)) = ix1 j := by idx1_eq
  rw [val_main_v155_apply, val_main_v154_apply, val_main_v151_apply, val_main_v148_apply, val_main_v142_apply,
    val_main_v141_apply, val_main_v140_apply, e1, val_main_v147_apply, val_main_v146_apply, e2, val_main_v145_apply,
    val_main_v144_apply, val_main_v143_apply, val_main_cst_25_apply, val_main_v150_apply, val_main_v149_apply, e3,
    val_main_v153_apply, val_main_v152_apply, e4, val_main_call3_v0_apply, val_main_call3_cst_apply,
    mean132, var139]
  rfl

/-! ### The two branches side by side, the combining linear layer and the last normalisation -/

theorem cat156 (a0 a1 : (⟨S100000x64, .f32⟩ : BufTy).Contents (Elt Ideal)) (a2 : (⟨S2x3200000, .i32⟩ : BufTy).Contents (Elt Ideal)) (a3 : (⟨S2x300000, .i32⟩ : BufTy).Contents (Elt Ideal)) (a4 a5 : (⟨S_, .f32⟩ : BufTy).Contents (Elt Ideal)) (a6 : (⟨S64x64, .f32⟩ : BufTy).Contents (Elt Ideal)) (a7 a8 a9 : (⟨S64, .f32⟩ : BufTy).Contents (Elt Ideal)) (a10 : (⟨S64x64, .f32⟩ : BufTy).Contents (Elt Ideal)) (a11 a12 a13 : (⟨S64, .f32⟩ : BufTy).Contents (Elt Ideal)) (a14 : (⟨S64x64, .f32⟩ : BufTy).Contents (Elt Ideal)) (a15 a16 a17 : (⟨S64, .f32⟩ : BufTy).Contents (Elt Ideal)) (a18 : (⟨S64x64, .f32⟩ : BufTy).Contents (Elt Ideal)) (a19 a20 a21 : (⟨S64, .f32⟩ : BufTy).Contents (Elt Ideal)) (r : Fin 100000) (c : Fin 128) :
    val_main_v156 (F := Ideal) a0 a1 a2 a3 a4 a5 a6 a7 a8 a9 a10 a11 a12 a13 a14 a15 a16 a17 a18 a19 a20 a21 (ix2 r c)
      = cat (toM (val_main_v77 (F := Ideal) a0 a2 a4 a6 a7 a8 a9 a10 a11 a12 a13)) (toM (val_main_v155 (F := Ideal) a0 a1 a3 a5 a14 a15 a16 a17 a18 a19 a20 a21)) r c := by
  unfold val_main_v156 cat
  split
  · next h =>
    exact concatenate_pair_apply_left 1 _ _ concatenates_S100000x64_S100000x64_S100000x128_d1 (ix2 r c) rfl
      (ix2 r ⟨c.val, h⟩) (fun b => by
        match b with
        | ⟨0, _⟩ => rfl
        | ⟨1, _⟩ => rfl)
  · next h =>
    exact concatenate_pair_apply_right 1 _ _ concatenates_S100000x64_S100000x64_S100000x128_d1 (ix2 r c) rfl rfl
      (ix2 r ⟨c.val - 64, by omega⟩)
      (fun b hb => by
        match b with
        | ⟨0, _⟩ => rfl
        | ⟨1, _⟩ => exact absurd rfl hb)
      (by show c.val - 64 + 64 = c.val; omega)

theorem lin160 (a0 a1 : (⟨S100000x64, .f32⟩ : BufTy).Contents (Elt Ideal)) (a2 : (⟨S2x3200000, .i32⟩ : BufTy).Contents (Elt Ideal)) (a3 : (⟨S2x300000, .i32⟩ : BufTy).Contents (Elt Ideal)) (a4 a5 : (⟨S_, .f32⟩ : BufTy).Contents (Elt Ideal)) (a6 : (⟨S64x64, .f32⟩ : BufTy).Contents (Elt Ideal)) (a7 a8 a9 : (⟨S64, .f32⟩ : BufTy).Contents (Elt Ideal)) (a10 : (⟨S64x64, .f32⟩ : BufTy).Contents (Elt Ideal)) (a11 a12 a13 : (⟨S64, .f32⟩ : BufTy).Contents (Elt Ideal)) (a14 : (⟨S64x64, .f32⟩ : BufTy).Contents (Elt Ideal)) (a15 a16 a17 : (⟨S64, .f32⟩ : BufTy).Contents (Elt Ideal)) (a18 : (⟨S64x64, .f32⟩ : BufTy).Contents (Elt Ideal)) (a19 a20 a21 : (⟨S64, .f32⟩ : BufTy).Contents (Elt Ideal)) (a22 : (⟨S128x64, .f32⟩ : BufTy).Contents (Elt Ideal)) (a23 : (⟨S64, .f32⟩ : BufTy).Contents (Elt Ideal)) (r : Fin 100000) (j : Fin 64) :
    val_main_v160 (F := Ideal) a0 a1 a2 a3 a4 a5 a6 a7 a8 a9 a10 a11 a12 a13 a14 a15 a16 a17 a18 a19 a20 a21 a22 a23 (ix2 r j)
      = lin (toM (val_main_v156 (F := Ideal) a0 a1 a2 a3 a4 a5 a6 a7 a8 a9 a10 a11 a12 a13 a14 a15 a16 a17 a18 a19 a20 a21)) (toM a22) (vec1 a23) r j := by
  rw [val_main_v160_apply, val_main_v157_apply, val_main_v159_apply, val_main_v158_apply]
  unfold lin
  refine congrArg₂ (· + ·) (Finset.sum_congr rfl fun k _ => ?_) ?_
  · have el : lidx_main_v157 (ix2 r j) k = ix2 r k := by idx2_eq
    have er : ridx_main_v157 (ix2 r j) k = ix2 k j := by idx2_eq
    rw [el, er]
    rfl
  · have e : idx_main_v158 (idx_main_v159 (ix2 r j)) = ix1 j := by idx1_eq
    rw [e]
    rfl

theorem mean163 (a0 a1 : (⟨S100000x64, .f32⟩ : BufTy).Contents (Elt Ideal)) (a2 : (⟨S2x3200000, .i32⟩ : BufTy).Contents (Elt Ideal)) (a3 : (⟨S2x300000, .i32⟩ : BufTy).Contents (Elt Ideal)) (a4 a5 : (⟨S_, .f32⟩ : BufTy).Contents (Elt Ideal)) (a6 : (⟨S64x64, .f32⟩ : BufTy).Contents (Elt Ideal)) (a7 a8 a9 : (⟨S64, .f32⟩ : BufTy).Contents (Elt Ideal)) (a10 : (⟨S64x64, .f32⟩ : BufTy).Contents (Elt Ideal)) (a11 a12 a13 : (⟨S64, .f32⟩ : BufTy).Contents (Elt Ideal)) (a14 : (⟨S64x64, .f32⟩ : BufTy).Contents (Elt Ideal)) (a15 a16 a17 : (⟨S64, .f32⟩ : BufTy).Contents (Elt Ideal)) (a18 : (⟨S64x64, .f32⟩ : BufTy).Contents (Elt Ideal)) (a19 a20 a21 : (⟨S64, .f32⟩ : BufTy).Contents (Elt Ideal)) (a22 : (⟨S128x64, .f32⟩ : BufTy).Contents (Elt Ideal)) (a23 : (⟨S64, .f32⟩ : BufTy).Contents (Elt Ideal)) (j : Fin 64) :
    val_main_v163 (F := Ideal) a0 a1 a2 a3 a4 a5 a6 a7 a8 a9 a10 a11 a12 a13 a14 a15 a16 a17 a18 a19 a20 a21 a22 a23 (ix1 j) = rMean cN cZ (toM (val_main_v160 (F := Ideal) a0 a1 a2 a3 a4 a5 a6 a7 a8 a9 a10 a11 a12 a13 a14 a15 a16 a17 a18 a19 a20 a21 a22 a23)) j := by
  rw [val_main_v163_apply, val_main_v161_apply, val_main_v162_apply, val_main_cst_27_apply, val_main_cst_26_apply]
  unfold rMean
  refine congrArg₂ Ideal.div (congrArg (cZ + ·) (Finset.sum_congr rfl fun k _ => ?_)) rfl
  have e : idx_main_v161 (ix1 j) k = ix2 k j := by idx2_eq
  rw [e]
  rfl

theorem var170 (a0 a1 : (⟨S100000x64, .f32⟩ : BufTy).Contents (Elt Ideal)) (a2 : (⟨S2x3200000, .i32⟩ : BufTy).Contents (Elt Ideal)) (a3 : (⟨S2x300000, .i32⟩ : BufTy).Contents (Elt Ideal)) (a4 a5 : (⟨S_, .f32⟩ : BufTy).Contents (Elt Ideal)) (a6 : (⟨S64x64, .f32⟩ : BufTy).Contents (Elt Ideal)) (a7 a8 a9 : (⟨S64, .f32⟩ : BufTy).Contents (Elt Ideal)) (a10 : (⟨S64x64, .f32⟩ : BufTy).Contents (Elt Ideal)) (a11 a12 a13 : (⟨S64, .f32⟩ : BufTy).Contents (Elt Ideal)) (a14 : (⟨S64x64, .f32⟩ : BufTy).Contents (Elt Ideal)) (a15 a16 a17 : (⟨S64, .f32⟩ : BufTy).Contents (Elt Ideal)) (a18 : (⟨S64x64, .f32⟩ : BufTy).Contents (Elt Ideal)) (a19 a20 a21 : (⟨S64, .f32⟩ : BufTy).Contents (Elt Ideal)) (a22 : (⟨S128x64, .f32⟩ : BufTy).Contents (Elt Ideal)) (a23 : (⟨S64, .f32⟩ : BufTy).Contents (Elt Ideal)) (j : Fin 64) :
    val_main_v170 (F := Ideal) a0 a1 a2 a3 a4 a5 a6 a7 a8 a9 a10 a11 a12 a13 a14 a15 a16 a17 a18 a19 a20 a21 a22 a23 (ix1 j) = rVar cN cZ (toM (val_main_v160 (F := Ideal) a0 a1 a2 a3 a4 a5 a6 a7 a8 a9 a10 a11 a12 a13 a14 a15 a16 a17 a18 a19 a20 a21 a22 a23)) j := by
  rw [val_main_v170_apply, val_main_v168_apply, val_main_v169_apply, val_main_cst_29_apply, val_main_cst_28_apply]
  unfold rVar
  refine congrArg₂ Ideal.div (congrArg (cZ + ·) (Finset.sum_congr rfl fun k _ => ?_)) rfl
  have e : idx_main_v168 (ix1 j) k = ix2 k j := by idx2_eq
  have e' : idx_main_v164 (idx_main_v165 (ix2 k j)) = ix1 j := by idx1_eq
  rw [e, val_main_v167_apply, val_main_v166_apply, val_main_v165_apply, val_main_v164_apply, e', mean163]
  rfl

theorem out186 (a0 a1 : (⟨S100000x64, .f32⟩ : BufTy).Contents (Elt Ideal)) (a2 : (⟨S2x3200000, .i32⟩ : BufTy).Contents (Elt Ideal)) (a3 : (⟨S2x300000, .i32⟩ : BufTy).Contents (Elt Ideal)) (a4 a5 : (⟨S_, .f32⟩ : BufTy).Contents (Elt Ideal)) (a6 : (⟨S64x64, .f32⟩ : BufTy).Contents (Elt Ideal)) (a7 a8 a9 : (⟨S64, .f32⟩ : BufTy).Contents (Elt Ideal)) (a10 : (⟨S64x64, .f32⟩ : BufTy).Contents (Elt Ideal)) (a11 a12 a13 : (⟨S64, .f32⟩ : BufTy).Contents (Elt Ideal)) (a14 : (⟨S64x64, .f32⟩ : BufTy).Contents (Elt Ideal)) (a15 a16 a17 : (⟨S64, .f32⟩ : BufTy).Contents (Elt Ideal)) (a18 : (⟨S64x64, .f32⟩ : BufTy).Contents (Elt Ideal)) (a19 a20 a21 : (⟨S64, .f32⟩ : BufTy).Contents (Elt Ideal)) (a22 : (⟨S128x64, .f32⟩ : BufTy).Contents (Elt Ideal)) (a23 a24 a25 : (⟨S64, .f32⟩ : BufTy).Contents (Elt Ideal)) (r : Fin 100000) (j : Fin 64) :
    val_main_v186 (F := Ideal) a0 a1 a2 a3 a4 a5 a6 a7 a8 a9 a10 a11 a12 a13 a14 a15 a16 a17 a18 a19 a20 a21 a22 a23 a24 a25 (ix2 r j)
      = bnR cN cEps cZ (toM (val_main_v160 (F := Ideal) a0 a1 a2 a3 a4 a5 a6 a7 a8 a9 a10 a11 a12 a13 a14 a15 a16 a17 a18 a19 a20 a21 a22 a23)) (vec1 a24) (vec1 a25) r j := by
  have e1 : idx_main_v171 (idx_main_v172 (ix2 r j)) = ix1 j := by idx1_eq
  have e2 : idx_main_v177 (idx_main_v178 (ix2 r j)) = ix1 j := by idx1_eq
  have e3 : idx_main_v180 (idx_main_v181 (ix2 r j)) = ix1 j := by idx1_eq
  have e4 : idx_main_v183 (idx_main_v184 (ix2 r j)) = ix1 j := by idx1_eq
  rw [val_main_v186_apply, val_main_v185_apply, val_main_v182_apply, val_main_v179_apply, val_main_v173_apply,
    val_main_v172_apply, val_main_v171_apply, e1, val_main_v178_apply, val_main_v177_apply, e2, val_main_v176_apply,
    val_main_v175_apply, val_main_v174_apply, val_main_cst_30_apply, val_main_v181_apply, val_main_v180_apply, e3,
    val_main_v184_apply, val_main_v183_apply, e4, val_main_call4_v0_apply, val_main_call4_cst_apply,
    mean163, var170]
  rfl

/-- The program's result as the specification's two-pass network of its arguments (the aggregated message arrays
    taken as the program computes them). -/
theorem ref_out (a0 : FVec Ideal S100000x64 .f32) (a1 : FVec Ideal S100000x64 .f32) (a2 : IVec S2x3200000 32) (a3 : IVec S2x300000 32) (a4 : FVec Ideal S_ .f32) (a5 : FVec Ideal S_ .f32) (a6 : FVec Ideal S64x64 .f32) (a7 : FVec Ideal S64 .f32) (a8 : FVec Ideal S64 .f32) (a9 : FVec Ideal S64 .f32) (a10 : FVec Ideal S64x64 .f32) (a11 : FVec Ideal S64 .f32) (a12 : FVec Ideal S64 .f32) (a13 : FVec Ideal S64 .f32) (a14 : FVec Ideal S64x64 .f32) (a15 : FVec Ideal S64 .f32) (a16 : FVec Ideal S64 .f32) (a17 : FVec Ideal S64 .f32) (a18 : FVec Ideal S64x64 .f32) (a19 : FVec Ideal S64 .f32) (a20 : FVec Ideal S64 .f32) (a21 : FVec Ideal S64 .f32) (a22 : FVec Ideal S128x64 .f32) (a23 : FVec Ideal S64 .f32) (a24 : FVec Ideal S64 .f32) (a25 : FVec Ideal S64 .f32) :
    val_main_v186 (F := Ideal) a0 a1 a2 a3 a4 a5 a6 a7 a8 a9 a10 a11 a12 a13 a14 a15 a16 a17 a18 a19 a20 a21 a22 a23 a24 a25
      = ofM (outR cN cEps cZ (mkInputs a0 (val_main_v13 (F := Ideal) a0 a2) (val_main_v91 (F := Ideal) a1 a3) a4 a5
          a6 a7 a8 a9 a10 a11 a12 a13 a14 a15 a16 a17 a18 a19 a20 a21 a22 a23 a24 a25)) := by
  refine (ofM_toM _).symm.trans (congrArg ofM ?_)
  have o186 : toM (val_main_v186 (F := Ideal) a0 a1 a2 a3 a4 a5 a6 a7 a8 a9 a10 a11 a12 a13 a14 a15 a16 a17 a18 a19 a20 a21 a22 a23 a24 a25) = bnR cN cEps cZ (toM (val_main_v160 (F := Ideal) a0 a1 a2 a3 a4 a5 a6 a7 a8 a9 a10 a11 a12 a13 a14 a15 a16 a17 a18 a19 a20 a21 a22 a23)) (vec1 a24) (vec1 a25) := funext fun r => funext fun j => out186 a0 a1 a2 a3 a4 a5 a6 a7 a8 a9 a10 a11 a12 a13 a14 a15 a16 a17 a18 a19 a20 a21 a22 a23 a24 a25 r j
  have l160 : toM (val_main_v160 (F := Ideal) a0 a1 a2 a3 a4 a5 a6 a7 a8 a9 a10 a11 a12 a13 a14 a15 a16 a17 a18 a19 a20 a21 a22 a23) = lin (toM (val_main_v156 (F := Ideal) a0 a1 a2 a3 a4 a5 a6 a7 a8 a9 a10 a11 a12 a13 a14 a15 a16 a17 a18 a19 a20 a21)) (toM a22) (vec1 a23) := funext fun r => funext fun j => lin160 a0 a1 a2 a3 a4 a5 a6 a7 a8 a9 a10 a11 a12 a13 a14 a15 a16 a17 a18 a19 a20 a21 a22 a23 r j
  have c156 : toM (val_main_v156 (F := Ideal) a0 a1 a2 a3 a4 a5 a6 a7 a8 a9 a10 a11 a12 a13 a14 a15 a16 a17 a18 a19 a20 a21) = cat (toM (val_main_v77 (F := Ideal) a0 a2 a4 a6 a7 a8 a9 a10 a11 a12 a13)) (toM (val_main_v155 (F := Ideal) a0 a1 a3 a5 a14 a15 a16 a17 a18 a19 a20 a21)) := funext fun r => funext fun j => cat156 a0 a1 a2 a3 a4 a5 a6 a7 a8 a9 a10 a11 a12 a13 a14 a15 a16 a17 a18 a19 a20 a21 r j
  have o77 : toM (val_main_v77 (F := Ideal) a0 a2 a4 a6 a7 a8 a9 a10 a11 a12 a13) = bnR cN cEps cZ (toM (val_main_v51 (F := Ideal) a0 a2 a4 a6 a7 a8 a9 a10 a11)) (vec1 a12) (vec1 a13) := funext fun r => funext fun j => out77 a0 a2 a4 a6 a7 a8 a9 a10 a11 a12 a13 r j
  have l51 : toM (val_main_v51 (F := Ideal) a0 a2 a4 a6 a7 a8 a9 a10 a11) = lin (toM (val_main_v47 (F := Ideal) a0 a2 a4 a6 a7 a8 a9)) (toM a10) (vec1 a11) := funext fun r => funext fun j => lin51 a0 a2 a4 a6 a7 a8 a9 a10 a11 r j
  have o47 : toM (val_main_v47 (F := Ideal) a0 a2 a4 a6 a7 a8 a9) = bnR cN cEps cZ (toM (val_main_v21 (F := Ideal) a0 a2 a4 a6 a7)) (vec1 a8) (vec1 a9) := funext fun r => funext fun j => out47 a0 a2 a4 a6 a7 a8 a9 r j
  have l21 : toM (val_main_v21 (F := Ideal) a0 a2 a4 a6 a7) = lin (resid (toM (val_main_v13 (F := Ideal) a0 a2)) (toM a0) (cOne + sc0 a4)) (toM a6) (vec1 a7) := funext fun r => funext fun j => lin21 a0 a2 a4 a6 a7 r j
  have o155 : toM (val_main_v155 (F := Ideal) a0 a1 a3 a5 a14 a15 a16 a17 a18 a19 a20 a21) = bnR cN cEps cZ (toM (val_main_v129 (F := Ideal) a0 a1 a3 a5 a14 a15 a16 a17 a18 a19)) (vec1 a20) (vec1 a21) := funext fun r => funext fun j => out155 a0 a1 a3 a5 a14 a15 a16 a17 a18 a19 a20 a21 r j
  have l129 : toM (val_main_v129 (F := Ideal) a0 a1 a3 a5 a14 a15 a16 a17 a18 a19) = lin (toM (val_main_v125 (F := Ideal) a0 a1 a3 a5 a14 a15 a16 a17)) (toM a18) (vec1 a19) := funext fun r => funext fun j => lin129 a0 a1 a3 a5 a14 a15 a16 a17 a18 a19 r j
  have o125 : toM (val_main_v125 (F := Ideal) a0 a1 a3 a5 a14 a15 a16 a17) = bnR cN cEps cZ (toM (val_main_v99 (F := Ideal) a0 a1 a3 a5 a14 a15)) (vec1 a16) (vec1 a17) := funext fun r => funext fun j => out125 a0 a1 a3 a5 a14 a15 a16 a17 r j
  have l99 : toM (val_main_v99 (F := Ideal) a0 a1 a3 a5 a14 a15) = lin (resid (toM (val_main_v91 (F := Ideal) a1 a3)) (toM a0) (cOne + sc0 a5)) (toM a14) (vec1 a15) := funext fun r => funext fun j => lin99 a0 a1 a3 a5 a14 a15 r j
  rw [o186, l160, c156, o77, l51, o47, l21, o155, l129, o125, l99]
  rfl

end Cert.ReferenceIdeal.RefValue

end
-- ==== Proof.Math.lean ====
/-
  The two ways of computing the batch statistics agree on real arrays, and with them the two networks.
-/
import proofs.«415859_j20203526161168_3_alg».proof.Proof.Spec

noncomputable section

namespace Cert.Spec

open Idealize.ShloMosaic

/-! ### Real entries are closed under the operations of the network -/

theorem isReal_coe (r : ℝ) : IsReal (r : EReal) := ⟨r, rfl⟩

theorem isReal_zero : IsReal (0 : EReal) := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion of a finite sum of reals is the sum of the coercions. -/
theorem ereal_coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) :
    IsReal (∑ i ∈ s, f i) := by
  choose g hg using hf
  refine ⟨∑ i ∈ s, g i, ?_⟩
  rw [ereal_coe_sum]
  exact Finset.sum_congr rfl fun i _ => hg i

theorem ereal_coe_max (a b : ℝ) : ((max a b : ℝ) : EReal) = max (a : EReal) (b : EReal) :=
  EReal.coe_strictMono.monotone.map_max

theorem IsReal.max {x y : EReal} (hx : IsReal x) (hy : IsReal y) : IsReal (max x y) := by
  obtain ⟨a, rfl⟩ := hx
  obtain ⟨b, rfl⟩ := hy
  exact ⟨Max.max a b, (ereal_coe_max a b).symm⟩

/-- Division by a nonzero real constant, on a real. -/
theorem div_coe_coe (a : ℝ) {y : ℝ} (hy : y ≠ 0) : Ideal.div (a : EReal) (y : EReal) = ((a / y : ℝ) : EReal) := by
  rw [Ideal.div_coe hy, ← EReal.coe_mul, mul_one_div]

/-- The reciprocal square root of a positive real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-! ### Rows split into ten tiles of ten thousand -/

/-- A row is a tile together with a row of the tile. -/
def rowEquiv : Fin 10 × Fin 10000 ≃ Fin 100000 where
  toFun p := rowOf p.1 p.2
  invFun r := (⟨r.val / 10000, by omega⟩, ⟨r.val % 10000, by omega⟩)
  left_inv := by
    rintro ⟨⟨t, ht⟩, ⟨r, hr⟩⟩
    simp only [rowOf, Prod.mk.injEq, Fin.mk.injEq]
    constructor <;> omega
  right_inv := by
    rintro ⟨r, hr⟩
    simp only [rowOf, Fin.mk.injEq]
    omega

/-- A sum over all rows is the sum over the tiles of the sums over each tile's rows. -/
theorem sum_rows {M : Type*} [AddCommMonoid M] (f : Fin 100000 → M) :
    ∑ r, f r = ∑ t : Fin 10, ∑ r : Fin 10000, f (rowOf t r) := by
  rw [← Equiv.sum_comp rowEquiv f, Fintype.sum_prod_type]
  rfl

/-! ### The decomposition of a sum of squares about any centre -/

/-- Squares about a centre M are squares about the mean plus the count times the squared distance of the
mean from M: the cross term vanishes because the deviations from the mean sum to zero. -/
theorem sum_sq_about {ι : Type*} [Fintype ι] (a : ι → ℝ) (N : ℝ) (hN : N ≠ 0) (hcard : (Fintype.card ι : ℝ) = N)
    (M : ℝ) :
    ∑ i, (a i - M) * (a i - M)
      = (∑ i, (a i - (∑ k, a k) / N) * (a i - (∑ k, a k) / N))
        + N * (((∑ k, a k) / N - M) * ((∑ k, a k) / N - M)) := by
  set m := (∑ k, a k) / N with hm
  have hdev : ∑ i, (a i - m) = 0 := by
    rw [Finset.sum_sub_distrib, Finset.sum_const, Finset.card_univ, nsmul_eq_mul, hcard, hm]
    field_simp
    ring
  have hexp : ∀ i, (a i - M) * (a i - M)
      = (a i - m) * (a i - m) + (2 * (m - M)) * (a i - m) + (m - M) * (m - M) := fun i => by ring
  rw [Finset.sum_congr rfl fun i _ => hexp i, Finset.sum_add_distrib, Finset.sum_add_distrib,
    ← Finset.mul_sum, hdev, mul_zero, add_zero, Finset.sum_const, Finset.card_univ, nsmul_eq_mul, hcard]

/-! ### The statistics recombined from the tiles are the two-pass statistics -/

section Key
variable {C : ℕ}

/-- The mean recombined from the tiles' sums is the mean over all rows (for any entries). -/
theorem kMean_tileSum (n z : EReal) (h : Fin 100000 → Fin C → EReal) :
    kMean n z (tileSum h) = rMean n z h := by
  funext j
  unfold kMean rMean tileSum
  rw [sum_rows (fun r => h r j)]

theorem rMean_coe (h' : Fin 100000 → Fin C → ℝ) (j : Fin C) :
    rMean ((100000 : ℝ) : EReal) 0 (fun r j => (h' r j : EReal)) j
      = (((∑ r, h' r j) / 100000 : ℝ) : EReal) := by
  unfold rMean
  rw [zero_add, ← ereal_coe_sum, div_coe_coe _ (by norm_num)]

theorem rVar_coe (h' : Fin 100000 → Fin C → ℝ) (j : Fin C) :
    rVar ((100000 : ℝ) : EReal) 0 (fun r j => (h' r j : EReal)) j
      = (((∑ r, (h' r j - (∑ k, h' k j) / 100000) * (h' r j - (∑ k, h' k j) / 100000)) / 100000 : ℝ) : EReal) := by
  unfold rVar
  rw [rMean_coe]
  simp only [← EReal.coe_sub, ← EReal.coe_mul]
  rw [zero_add, ← ereal_coe_sum, div_coe_coe _ (by norm_num)]

/-- The variance recombined from the tiles is the two-pass variance, on a real array: the total sum of squares
about the overall mean is the within-tile part plus the between-tile part, and it is nonnegative. -/
theorem kVar_tile_coe (h' : Fin 100000 → Fin C → ℝ) (j : Fin C) :
    kVar ((100000 : ℝ) : EReal) ((10000 : ℝ) : EReal) 0
        (tileSum fun r j => (h' r j : EReal)) (tileM2 ((10000 : ℝ) : EReal) fun r j => (h' r j : EReal)) j
      = rVar ((100000 : ℝ) : EReal) 0 (fun r j => (h' r j : EReal)) j := by
  obtain ⟨μ, hμ⟩ : ∃ μ : ℝ, μ = (∑ k, h' k j) / 100000 := ⟨_, rfl⟩
  obtain ⟨S, hS⟩ : ∃ S : Fin 10 → ℝ, S = fun t => ∑ r : Fin 10000, h' (rowOf t r) j := ⟨_, rfl⟩
  have eS : ∀ t, tileSum (fun r j => (h' r j : EReal)) t j = ((S t : ℝ) : EReal) := fun t => by
    unfold tileSum
    rw [hS, ereal_coe_sum]
  have eM2 : ∀ t, tileM2 ((10000 : ℝ) : EReal) (fun r j => (h' r j : EReal)) t j
      = ((∑ r : Fin 10000, (h' (rowOf t r) j - S t / 10000) * (h' (rowOf t r) j - S t / 10000) : ℝ) : EReal) :=
    fun t => by
      unfold tileM2
      rw [eS t, div_coe_coe _ (by norm_num)]
      simp only [← EReal.coe_sub, ← EReal.coe_mul]
      rw [← ereal_coe_sum]
  have key : (∑ t, ∑ r : Fin 10000, (h' (rowOf t r) j - S t / 10000) * (h' (rowOf t r) j - S t / 10000))
      + ∑ t, 10000 * ((S t / 10000 - μ) * (S t / 10000 - μ))
      = ∑ r, (h' r j - μ) * (h' r j - μ) := by
    rw [sum_rows (fun r => (h' r j - μ) * (h' r j - μ)), ← Finset.sum_add_distrib]
    refine Finset.sum_congr rfl fun t _ => ?_
    rw [hS]
    exact (sum_sq_about (fun r : Fin 10000 => h' (rowOf t r) j) 10000 (by norm_num) (by simp) μ).symm
  unfold kVar
  rw [kMean_tileSum, rMean_coe, rVar_coe, ← hμ]
  simp only [eS, eM2, div_coe_coe _ (show (10000 : ℝ) ≠ 0 by norm_num), ← EReal.coe_sub, ← EReal.coe_mul,
    zero_add, ← ereal_coe_sum, ← EReal.coe_add]
  rw [div_coe_coe _ (by norm_num), key]
  exact max_eq_left (EReal.coe_nonneg.mpr
    (div_nonneg (Finset.sum_nonneg fun r _ => mul_self_nonneg _) (by norm_num)))

end Key

/-! ### Arrays of reals -/

section Arrays
variable {N K C : ℕ}

/-- Every entry of the array is real. -/
abbrev RealArr (h : Fin N → Fin C → EReal) : Prop := ∀ r j, IsReal (h r j)

/-- Every entry of the row is real. -/
abbrev RealVec (v : Fin C → EReal) : Prop := ∀ j, IsReal (v j)

theorem resid_real {agg x : Fin N → Fin K → EReal} {s : EReal} (ha : RealArr agg) (hx : RealArr x)
    (hs : IsReal s) : RealArr (resid agg x s) :=
  fun r k => (ha r k).add (hs.mul (hx r k))

theorem lin_real {a : Fin N → Fin K → EReal} {w : Fin K → Fin C → EReal} {b : Fin C → EReal}
    (ha : RealArr a) (hw : RealArr w) (hb : RealVec b) : RealArr (lin a w b) :=
  fun r j => (isReal_sum _ _ fun k => (ha r k).mul (hw k j)).add (hb j)

theorem cat_real {a b : Fin N → Fin 64 → EReal} (ha : RealArr a) (hb : RealArr b) : RealArr (cat a b) := by
  intro r j
  unfold cat
  split
  · exact ha _ _
  · exact hb _ _

/-- A real array is the coercion of an array of real numbers. -/
theorem exists_coe_of_real {h : Fin N → Fin C → EReal} (hh : RealArr h) :
    ∃ h' : Fin N → Fin C → ℝ, h = fun r j => (h' r j : EReal) := by
  choose h' hh' using hh
  exact ⟨h', funext fun r => funext fun j => hh' r j⟩

end Arrays

section Norm
variable {C : ℕ}

/-- On a real array the variance recombined from the tiles is the two-pass variance. -/
theorem kVar_tile {h : Fin 100000 → Fin C → EReal} (hh : RealArr h) :
    kVar ((100000 : ℝ) : EReal) ((10000 : ℝ) : EReal) 0 (tileSum h) (tileM2 ((10000 : ℝ) : EReal) h)
      = rVar ((100000 : ℝ) : EReal) 0 h := by
  obtain ⟨h', rfl⟩ := exists_coe_of_real hh
  funext j
  exact kVar_tile_coe h' j

/-- On a real array, normalising by the statistics recombined from the tiles is normalising by the two-pass
statistics. -/
theorem bnK_eq_bnR {h : Fin 100000 → Fin C → EReal} (hh : RealArr h) (eps : EReal) (g be : Fin C → EReal) :
    bnrelu eps 0 h (kMean ((100000 : ℝ) : EReal) 0 (tileSum h))
        (kVar ((100000 : ℝ) : EReal) ((10000 : ℝ) : EReal) 0 (tileSum h) (tileM2 ((10000 : ℝ) : EReal) h)) g be
      = bnR ((100000 : ℝ) : EReal) eps 0 h g be := by
  rw [kMean_tileSum, kVar_tile hh]
  rfl

/-- A real array normalised by its own statistics, with real scale and shift and a positive real added to the
variance, is real: the variance is a nonnegative real, so the reciprocal square root is taken of a positive real. -/
theorem bnR_real {h : Fin 100000 → Fin C → EReal} {g be : Fin C → EReal} {e : ℝ} (he : 0 < e)
    (hh : RealArr h) (hg : RealVec g) (hbe : RealVec be) :
    RealArr (bnR ((100000 : ℝ) : EReal) (e : EReal) 0 h g be) := by
  obtain ⟨h', rfl⟩ := exists_coe_of_real hh
  intro r j
  unfold bnR bnrelu
  rw [rMean_coe, rVar_coe, ← EReal.coe_add,
    rsqrt_coe_pos (add_pos_of_nonneg_of_pos
      (div_nonneg (Finset.sum_nonneg fun r _ => mul_self_nonneg _) (by norm_num)) he)]
  exact (((((isReal_coe _).sub (isReal_coe _)).mul (isReal_coe _)).mul (hg j)).add (hbe j)).max isReal_zero

end Norm

/-! ### Two blocks side by side are normalised block by block -/

section Cat
variable {N : ℕ}

theorem leftHalf_cat (a b : Fin N → Fin 64 → EReal) : leftHalf (cat a b) = a := by
  funext r j
  have hj : j.val < 64 := j.isLt
  simp only [leftHalf, cat, hj, ↓reduceDIte]

theorem rightHalf_cat (a b : Fin N → Fin 64 → EReal) : rightHalf (cat a b) = b := by
  funext r j
  have hj : ¬ (j.val + 64 < 64) := by omega
  simp only [rightHalf, cat, hj, ↓reduceDIte, Nat.add_sub_cancel]

theorem rMean_cat (n z : EReal) (a b : Fin 100000 → Fin 64 → EReal) :
    rMean n z (cat a b) = catv (rMean n z a) (rMean n z b) := by
  funext j
  unfold rMean catv cat
  by_cases h : j.val < 64
  · simp only [h, ↓reduceDIte]
  · simp only [h, ↓reduceDIte]

theorem rVar_cat (n z : EReal) (a b : Fin 100000 → Fin 64 → EReal) :
    rVar n z (cat a b) = catv (rVar n z a) (rVar n z b) := by
  funext j
  unfold rVar
  rw [rMean_cat]
  unfold catv cat
  by_cases h : j.val < 64
  · simp only [h, ↓reduceDIte]
  · simp only [h, ↓reduceDIte]

theorem bnrelu_cat (eps z : EReal) (a b : Fin N → Fin 64 → EReal) (m m' v v' g g' be be' : Fin 64 → EReal) :
    bnrelu eps z (cat a b) (catv m m') (catv v v') (catv g g') (catv be be')
      = cat (bnrelu eps z a m v g be) (bnrelu eps z b m' v' g' be') := by
  funext r j
  unfold bnrelu cat catv
  by_cases h : j.val < 64
  · simp only [h, ↓reduceDIte]
  · simp only [h, ↓reduceDIte]

theorem bnR_cat (n eps z : EReal) (a b : Fin 100000 → Fin 64 → EReal) (g g' be be' : Fin 64 → EReal) :
    bnR n eps z (cat a b) (catv g g') (catv be be') = cat (bnR n eps z a g be) (bnR n eps z b g' be') := by
  unfold bnR
  rw [rMean_cat, rVar_cat, bnrelu_cat]

end Cat

/-! ### The network -/

/-- On real inputs the tiled network and the two-pass network compute the same array. -/
theorem outK_eq_outR (n tn eps z : EReal) (hn : n = ((100000 : ℝ) : EReal)) (htn : tn = ((10000 : ℝ) : EReal))
    (hz : z = 0) (heps : ∃ e : ℝ, 0 < e ∧ eps = (e : EReal)) (I : Inputs) (hI : I.Real) :
    outK n tn eps z I = outR n eps z I := by
  obtain ⟨e, he, rfl⟩ := heps
  subst hn htn hz
  have h1u : RealArr (lin (resid I.aggU I.x I.s1) I.uw1 I.ub1) :=
    lin_real (resid_real hI.aggU hI.x hI.s1) hI.uw1 hI.ub1
  have h1b : RealArr (lin (resid I.aggB I.x I.s2) I.bw1 I.bb1) :=
    lin_real (resid_real hI.aggB hI.x hI.s2) hI.bw1 hI.bb1
  have a1u := bnR_real he h1u hI.ug1 hI.ube1
  have a1b := bnR_real he h1b hI.bg1 hI.bbe1
  have h2u := lin_real a1u hI.uw2 hI.ub2
  have h2b := lin_real a1b hI.bw2 hI.bb2
  have a2u := bnR_real he h2u hI.ug2 hI.ube2
  have a2b := bnR_real he h2b hI.bg2 hI.bbe2
  have hc := lin_real (cat_real a2u a2b) hI.cw hI.cb
  have e1 : a1K ((100000 : ℝ) : EReal) ((10000 : ℝ) : EReal) (e : EReal) 0 I
      = cat (bnR ((100000 : ℝ) : EReal) (e : EReal) 0 (lin (resid I.aggU I.x I.s1) I.uw1 I.ub1) I.ug1 I.ube1)
          (bnR ((100000 : ℝ) : EReal) (e : EReal) 0 (lin (resid I.aggB I.x I.s2) I.bw1 I.bb1) I.bg1 I.bbe1) := by
    unfold a1K mean1K var1K h1K
    rw [bnK_eq_bnR (cat_real h1u h1b), bnR_cat]
  have e2 : a2K ((100000 : ℝ) : EReal) ((10000 : ℝ) : EReal) (e : EReal) 0 I
      = cat (outUR ((100000 : ℝ) : EReal) (e : EReal) 0 I) (outBR ((100000 : ℝ) : EReal) (e : EReal) 0 I) := by
    unfold a2K mean2K var2K h2K outUR outBR
    rw [e1, leftHalf_cat, rightHalf_cat, bnK_eq_bnR (cat_real h2u h2b), bnR_cat]
  unfold outK meancK varcK hcK outR
  rw [e2]
  exact bnK_eq_bnR (by unfold outUR outBR; exact hc) _ _ _

end Cert.Spec

end
-- ==== Proof.Finite.lean ====
/-
  The precondition read: where it holds, every entry of every float input is a real number.
-/
import proofs.«415859_j20203526161168_3_alg».proof.Pre_finite_inputs
import proofs.«415859_j20203526161168_3_alg».proof.Proof.Gen.Pre_finite_inputs
import proofs.«415859_j20203526161168_3_alg».proof.Proof.Spec
import Idealize.ShloMosaic.Lib.ReduceAll

noncomputable section

namespace Cert.FiniteInputs

open Idealize.ShloMosaic Cert.Spec

/-- The scalar shape has exactly one index. -/
instance : Subsingleton Cert.Pre_finite_inputs.S_.Idx := ⟨fun a b => funext fun d => d.elim0⟩

/-- An extended real whose absolute value is below the top element is a real number. -/
theorem isReal_of_abs_lt_top (x : EReal) (h : max x (-x) < ⊤) : IsReal x := by
  induction x using EReal.rec with
  | bot => simp at h
  | coe r => exact ⟨r, rfl⟩
  | top => simp at h

/-- The pattern of positive infinity denotes the top element. -/
theorem inf_eq_top : Ideal.ofBits .f32 0x7F800000#32 = (⊤ : EReal) := by simp [Ideal.ofBits, Ideal.ieee]

/-- If the conjunction over all entries of `|a| < c` is one, where `c` is positive infinity everywhere, every entry of `a` is real. -/
theorem all_real {s : Shape} {axes : List (Fin s.rank)} (a c : FVec Ideal s .f32)
    (hc : ∀ i, c i = Ideal.ofBits .f32 0x7F800000#32)
    (init : IVec Cert.Pre_finite_inputs.S_ 1) (hr : s.ReducesTo axes Cert.Pre_finite_inputs.S_)
    (hu : 0 < Cert.Pre_finite_inputs.S_.numel) (j : Cert.Pre_finite_inputs.S_.Idx)
    (e : Host.reduce IntOp.andi (cmpf .olt (Host.absf a) c) init hr hu j = 1#1) (i : s.Idx) : IsReal (a i) := by
  have h1 := Host.reduce_andi_all _ init hr hu j e i
  have h2 : Ideal.cmp .olt (max (a i) (-(a i))) (c i) = 1#1 := h1
  rw [hc i, inf_eq_top] at h2
  apply isReal_of_abs_lt_top
  by_contra hn
  simp [Ideal.cmp, hn] at h2

/-- If the precondition's predicate is all ones on the arguments, each float argument has only real entries. -/
theorem real_of_pre [Cert.Pre_finite_inputs.Facts] (a0 : FVec Ideal Cert.Pre_finite_inputs.S100000x64 .f32) (a1 : FVec Ideal Cert.Pre_finite_inputs.S100000x64 .f32) (a2 : IVec Cert.Pre_finite_inputs.S2x3200000 32) (a3 : IVec Cert.Pre_finite_inputs.S2x300000 32) (a4 : FVec Ideal Cert.Pre_finite_inputs.S_ .f32) (a5 : FVec Ideal Cert.Pre_finite_inputs.S_ .f32) (a6 : FVec Ideal Cert.Pre_finite_inputs.S64x64 .f32) (a7 : FVec Ideal Cert.Pre_finite_inputs.S64 .f32) (a8 : FVec Ideal Cert.Pre_finite_inputs.S64 .f32) (a9 : FVec Ideal Cert.Pre_finite_inputs.S64 .f32) (a10 : FVec Ideal Cert.Pre_finite_inputs.S64x64 .f32) (a11 : FVec Ideal Cert.Pre_finite_inputs.S64 .f32) (a12 : FVec Ideal Cert.Pre_finite_inputs.S64 .f32) (a13 : FVec Ideal Cert.Pre_finite_inputs.S64 .f32) (a14 : FVec Ideal Cert.Pre_finite_inputs.S64x64 .f32) (a15 : FVec Ideal Cert.Pre_finite_inputs.S64 .f32) (a16 : FVec Ideal Cert.Pre_finite_inputs.S64 .f32) (a17 : FVec Ideal Cert.Pre_finite_inputs.S64 .f32) (a18 : FVec Ideal Cert.Pre_finite_inputs.S64x64 .f32) (a19 : FVec Ideal Cert.Pre_finite_inputs.S64 .f32) (a20 : FVec Ideal Cert.Pre_finite_inputs.S64 .f32) (a21 : FVec Ideal Cert.Pre_finite_inputs.S64 .f32) (a22 : FVec Ideal Cert.Pre_finite_inputs.S128x64 .f32) (a23 : FVec Ideal Cert.Pre_finite_inputs.S64 .f32) (a24 : FVec Ideal Cert.Pre_finite_inputs.S64 .f32) (a25 : FVec Ideal Cert.Pre_finite_inputs.S64 .f32)
    (h : Cert.Pre_finite_inputs.fn (F := Ideal) a0 a1 a2 a3 a4 a5 a6 a7 a8 a9 a10 a11 a12 a13 a14 a15 a16 a17 a18 a19 a20 a21 a22 a23 a24 a25 = fun _ => 1#1) :
    (∀ i, IsReal (a0 i)) ∧ (∀ i, IsReal (a1 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) ∧ (∀ i, IsReal (a21 i)) ∧ (∀ i, IsReal (a22 i)) ∧ (∀ i, IsReal (a23 i)) ∧ (∀ i, IsReal (a24 i)) ∧ (∀ i, IsReal (a25 i)) := by
  have h0 := congrFun h (fun d => d.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, andi] at h0
  simp only [IntOp.andi_eq_one] at h0
  obtain ⟨⟨⟨⟨⟨⟨⟨⟨⟨⟨⟨⟨⟨⟨⟨⟨⟨⟨⟨⟨⟨⟨⟨e0, e1⟩, e4⟩, e5⟩, e6⟩, e7⟩, e8⟩, e9⟩, e10⟩, e11⟩, e12⟩, e13⟩, e14⟩, e15⟩, e16⟩, e17⟩, e18⟩, e19⟩, e20⟩, e21⟩, e22⟩, e23⟩, e24⟩, e25⟩ := h0
  exact ⟨all_real a0 _ (fun _ => rfl) _ _ _ _ e0,
    all_real a1 _ (fun _ => rfl) _ _ _ _ e1,
    all_real a4 _ (fun _ => rfl) _ _ _ _ e4,
    all_real a5 _ (fun _ => rfl) _ _ _ _ e5,
    all_real a6 _ (fun _ => rfl) _ _ _ _ e6,
    all_real a7 _ (fun _ => rfl) _ _ _ _ e7,
    all_real a8 _ (fun _ => rfl) _ _ _ _ e8,
    all_real a9 _ (fun _ => rfl) _ _ _ _ e9,
    all_real a10 _ (fun _ => rfl) _ _ _ _ e10,
    all_real a11 _ (fun _ => rfl) _ _ _ _ e11,
    all_real a12 _ (fun _ => rfl) _ _ _ _ e12,
    all_real a13 _ (fun _ => rfl) _ _ _ _ e13,
    all_real a14 _ (fun _ => rfl) _ _ _ _ e14,
    all_real a15 _ (fun _ => rfl) _ _ _ _ e15,
    all_real a16 _ (fun _ => rfl) _ _ _ _ e16,
    all_real a17 _ (fun _ => rfl) _ _ _ _ e17,
    all_real a18 _ (fun _ => rfl) _ _ _ _ e18,
    all_real a19 _ (fun _ => rfl) _ _ _ _ e19,
    all_real a20 _ (fun _ => rfl) _ _ _ _ e20,
    all_real a21 _ (fun _ => rfl) _ _ _ _ e21,
    all_real a22 _ (fun _ => rfl) _ _ _ _ e22,
    all_real a23 _ (fun _ => rfl) _ _ _ _ e23,
    all_real a24 _ (fun _ => rfl) _ _ _ _ e24,
    all_real a25 _ (fun _ => rfl) _ _ _ _ e25⟩

end Cert.FiniteInputs

end
-- ==== Proof.Join.lean ====
/-
  The two programs compute one array: the tiled program's result is the specification's tiled network, the two-pass
  program's its two-pass network, and on real inputs (which the precondition grants) the two networks agree.
-/
import proofs.«415859_j20203526161168_3_alg».proof.Defs
import proofs.«415859_j20203526161168_3_alg».proof.Proof.Gen.KernelIdeal
import proofs.«415859_j20203526161168_3_alg».proof.Proof.Gen.ReferenceIdeal
import proofs.«415859_j20203526161168_3_alg».proof.Proof.Gen.Pre_finite_inputs
import proofs.«415859_j20203526161168_3_alg».proof.Proof.KernelRun
import proofs.«415859_j20203526161168_3_alg».proof.Proof.KernelValue
import proofs.«415859_j20203526161168_3_alg».proof.Proof.RefValue
import proofs.«415859_j20203526161168_3_alg».proof.Proof.Math
import proofs.«415859_j20203526161168_3_alg».proof.Proof.Finite

set_option maxRecDepth 16384

noncomputable section

namespace Cert.Proof.Join

open Idealize.ShloMosaic Idealize.ShloMosaic.TcCoe Idealize.ShloMosaic.ValueIdx Idealize.SL.Sem
open Cert.Spec Cert.Conv

/-- The reference's aggregated message arrays are the tiled program's: the same operations of the same arguments. -/
theorem aggU_eq (x : Vec Ideal Cert.KernelIdeal.S100000x64 .f32) (ui : IVec Cert.KernelIdeal.S2x3200000 32) :
    Cert.ReferenceIdeal.Read.val_main_v13 (F := Ideal) x ui = Cert.KernelIdeal.Entry.aggU x ui := rfl
theorem aggB_eq (y : Vec Ideal Cert.KernelIdeal.S100000x64 .f32) (bi : IVec Cert.KernelIdeal.S2x300000 32) :
    Cert.ReferenceIdeal.Read.val_main_v91 (F := Ideal) y bi = Cert.KernelIdeal.Entry.aggB y bi := rfl

/-- Under the precondition every input of the network is real. -/
theorem inputs_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.Value.I m c).Real := by
  obtain ⟨hx, hy, h4, h5, h6, h7, h8, h9, h10, h11, h12, h13, h14, h15, h16, h17, h18, h19, h20, h21, h22, h23, h24, h25⟩ := Cert.FiniteInputs.real_of_pre _ _ _ _ _ _ _ _ _ _ _ _ _ _ _ _ _ _ _ _ _ _ _ _ _ _ (hpre c)
  exact
    { x := fun r k => hx (ix2 r k)
      aggU := fun r k => Cert.KernelIdeal.Entry.aggU_real _ _ hx (ix2 r k)
      aggB := fun r k => Cert.KernelIdeal.Entry.aggB_real _ _ hy (ix2 r k)
      s1 := IsReal.add ⟨1, by rw [cOne_eq, EReal.coe_one]⟩ (h4 ix0)
      s2 := IsReal.add ⟨1, by rw [cOne_eq, EReal.coe_one]⟩ (h5 ix0)
      uw1 := fun r k => h6 (ix2 r k)
      ub1 := fun j => h7 (ix1 j)
      ug1 := fun j => h8 (ix1 j)
      ube1 := fun j => h9 (ix1 j)
      uw2 := fun r k => h10 (ix2 r k)
      ub2 := fun j => h11 (ix1 j)
      ug2 := fun j => h12 (ix1 j)
      ube2 := fun j => h13 (ix1 j)
      bw1 := fun r k => h14 (ix2 r k)
      bb1 := fun j => h15 (ix1 j)
      bg1 := fun j => h16 (ix1 j)
      bbe1 := fun j => h17 (ix1 j)
      bw2 := fun r k => h18 (ix2 r k)
      bb2 := fun j => h19 (ix1 j)
      bg2 := fun j => h20 (ix1 j)
      bbe2 := fun j => h21 (ix1 j)
      cw := fun r k => h22 (ix2 r k)
      cb := fun j => h23 (ix1 j)
      cg := fun j => h24 (ix1 j)
      cbe := fun j => h25 (ix1 j) }

end Cert.Proof.Join

end
-- ==== Proof.lean ====
/-
  The certificate: a message-passing layer on a cell complex (two branches of aggregated messages, each through a
  two-layer batch-normalised perceptron, joined and passed through a third normalised linear layer) computed in
  four tiled passes that keep per-tile column statistics, against the plain two-pass computation.  Both programs
  run, leave their arguments unchanged, and over the extended reals end with the same array: the tiled side's
  statistics, recombined from the tiles by the within-tile / between-tile decomposition of the sum of squares, are
  the two-pass mean and variance whenever the entries are real, which the precondition grants.
-/
import proofs.«415859_j20203526161168_3_alg».proof.Defs
import proofs.«415859_j20203526161168_3_alg».proof.Proof.Gen.Kernel
import proofs.«415859_j20203526161168_3_alg».proof.Proof.Gen.Kernel.Frame
import proofs.«415859_j20203526161168_3_alg».proof.Proof.Gen.KernelIdeal
import proofs.«415859_j20203526161168_3_alg».proof.Proof.Gen.KernelIdeal.Frame
import proofs.«415859_j20203526161168_3_alg».proof.Proof.Gen.ReferenceIdeal
import proofs.«415859_j20203526161168_3_alg».proof.Proof.RefMain
import proofs.«415859_j20203526161168_3_alg».proof.Proof.Gen.Pre_finite_inputs
import proofs.«415859_j20203526161168_3_alg».proof.Proof.Join
import Idealize.ShloMosaic.Adequacy
import Idealize.ShloMosaic.Init

set_option maxRecDepth 16384

noncomputable section

namespace Cert.Proof

open Idealize.ShloMosaic Idealize.SL.Sem Cert.Spec Cert.Conv

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Staged.run (F := Ideal) m ρ)

/-- The idealisation rewrote no operation. -/
theorem preserves : Cert.preserves_Kernel_KernelIdeal := trivial

/-- Both programs end at the same array: the tiled network of the arguments, equal to the two-pass network since the
    arguments are real. -/
theorem algebraic : Cert.algebraic_KernelIdeal_ReferenceIdeal := by
  intro m ρ m' ρ' hpre hagree
  refine ⟨fun c => ofM (outK cN cT cEps cZ (Cert.KernelIdeal.Value.I m c)), ?_, ?_⟩
  · exact (θ_run Cert.KernelIdeal.defs _ _).mono
      (fun r h c => ⟨(h c).1.trans (Cert.KernelIdeal.Value.result m ρ c), (h c).2⟩)
      (Cert.KernelIdeal.Gen.run_value (F := Ideal) m ρ)
  · refine (θ_run Cert.ReferenceIdeal.defs _ _).mono (fun r h c => ⟨(h c).1.trans ?_, (h c).2⟩)
      (Cert.ReferenceIdeal.Staged.run (F := Ideal) m' ρ')
    obtain ⟨e0, e1, e2, e3, e4, e5, e6, e7, e8, e9, e10, e11, e12, e13, e14, e15, e16, e17, e18, e19, e20, e21, e22, e23, e24, e25⟩ := hagree c
    rw [Cert.ReferenceIdeal.RefValue.ref_out,
      e0, e1, e2, e3, e4, e5, e6, e7, e8, e9, e10, e11, e12, e13, e14, e15, e16, e17, e18, e19, e20, e21, e22, e23, e24, e25, Join.aggU_eq, Join.aggB_eq]
    exact congrArg ofM (Cert.Spec.outK_eq_outR cN cT cEps cZ cN_eq cT_eq cZ_eq cEps_pos _ (Join.inputs_real m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
